-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S480000x128 : Shape := ⟨2, ![480000, 128]⟩
abbrev S480000 : Shape := ⟨1, ![480000]⟩
abbrev S384x256 : Shape := ⟨2, ![384, 256]⟩
abbrev S256 : Shape := ⟨1, ![256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S480000x128 : S_.BroadcastsInDim S480000x128 (![] : Fin 0 → Fin S480000x128.rank)
  reducesTo_S480000x128_S_d0_1 : S480000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S480000 : S_.BroadcastsInDim S480000 (![] : Fin 0 → Fin S480000.rank)
  reducesTo_S480000_S_d0 : S480000.ReducesTo [0] S_

variable [Facts]

def fn_part2 {F : FTy → Type} [FloatOps F] (main_arg2 : IVec S480000 32) (main_arg3 : IVec S480000 32) (main_v32 : IVec S_ 1) (main_c_12 : IVec S_ 32) : IVec S_ 1 :=
  let main_v33 : IVec S480000 32 := broadcastInDim S480000 ![] bcast_S_S480000 main_c_12
  let main_v34 : IVec S480000 1 := cmpi .slt main_arg2 main_v33
  let main_c_13 : IVec S_ 1 := constantI S_ 1 1#1
  let main_v35 : IVec S_ 1 := (fun x v => Host.reduce IntOp.andi x v reducesTo_S480000_S_d0 h_S_) main_v34 main_c_13
  let main_v36 : IVec S_ 1 := andi main_v32 main_v35
  let main_c_14 : IVec S_ 32 := constantI S_ 32 0#32
  let main_v37 : IVec S480000 32 := broadcastInDim S480000 ![] bcast_S_S480000 main_c_14
  let main_v38 : IVec S480000 1 := cmpi .sge main_arg3 main_v37
  let main_c_15 : IVec S_ 1 := constantI S_ 1 1#1
  let main_v39 : IVec S_ 1 := (fun x v => Host.reduce IntOp.andi x v reducesTo_S480000_S_d0 h_S_) main_v38 main_c_15
  let main_v40 : IVec S_ 1 := andi main_v36 main_v39
  let main_c_16 : IVec S_ 32 := constantI S_ 32 20000#32
  let main_v41 : IVec S480000 32 := broadcastInDim S480000 ![] bcast_S_S480000 main_c_16
  let main_v42 : IVec S480000 1 := cmpi .slt main_arg3 main_v41
  let main_c_17 : IVec S_ 1 := constantI S_ 1 1#1
  let main_v43 : IVec S_ 1 := (fun x v => Host.reduce IntOp.andi x v reducesTo_S480000_S_d0 h_S_) main_v42 main_c_17
  let main_v44 : IVec S_ 1 := andi main_v40 main_v43
  main_v44

def fn_part1 {F : FTy → Type} [FloatOps F] (main_arg2 : IVec S480000 32) (main_arg3 : IVec S480000 32) (main_arg6 : FVec F S256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S480000 32 := broadcastInDim S480000 ![] bcast_S_S480000 main_c_10
  let main_v30 : IVec S480000 1 := cmpi .sge main_arg2 main_v29
  let main_c_11 : IVec S_ 1 := constantI S_ 1 1#1
  let main_v31 : IVec S_ 1 := (fun x v => Host.reduce IntOp.andi x v reducesTo_S480000_S_d0 h_S_) main_v30 main_c_11
  let main_v32 : IVec S_ 1 := andi main_v28 main_v31
  let main_c_12 : IVec S_ 32 := constantI S_ 32 20000#32
  fn_part2 (F := F) main_arg2 main_arg3 main_v32 main_c_12

def fn {F : FTy → Type} [FloatOps F] (main_arg0 : FVec F S20000x128 .f32) (main_arg1 : FVec F S480000x128 .f32) (main_arg2 : IVec S480000 32) (main_arg3 : IVec S480000 32) (main_arg4 : FVec F S384x256 .f32) (main_arg5 : FVec F S256 .f32) (main_arg6 : FVec F S256 .f32) (main_arg7 : FVec F S256 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S480000x128 .f32 := Host.absf main_arg1
  let main_cst_0 : FVec F S_ .f32 := constant S_ .f32 0x7F800000#32
  let main_v5 : FVec F S480000x128 .f32 := broadcastInDim S480000x128 ![] bcast_S_S480000x128 main_cst_0
  let main_v6 : IVec S480000x128 1 := cmpf .olt main_v4 main_v5
  let main_c_1 : IVec S_ 1 := constantI S_ 1 1#1
  let main_v7 : IVec S_ 1 := (fun x v => Host.reduce IntOp.andi x v reducesTo_S480000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_v13 main_v16
-- ==== Kernel.lean ====
abbrev S20000x128 : Shape := ⟨2, ![20000, 128]⟩
abbrev S480000x128 : Shape := ⟨2, ![480000, 128]⟩
abbrev S480000 : Shape := ⟨1, ![480000]⟩
abbrev S384x256 : Shape := ⟨2, ![384, 256]⟩
abbrev S256 : Shape := ⟨1, ![256]⟩
abbrev S_ : Shape := ⟨0, ![]⟩
abbrev S480000x1 : Shape := ⟨2, ![480000, 1]⟩
abbrev S1 : Shape := ⟨1, ![1]⟩
abbrev S1x1 : Shape := ⟨2, ![1, 1]⟩
abbrev S128x256 : Shape := ⟨2, ![128, 256]⟩
abbrev S1x256 : Shape := ⟨2, ![1, 256]⟩
abbrev S2x1x256 : Shape := ⟨3, ![2, 1, 256]⟩
abbrev S2400x128 : Shape := ⟨2, ![2400, 128]⟩
abbrev S1x1x256 : Shape := ⟨3, ![1, 1, 256]⟩
abbrev S2400x256 : Shape := ⟨2, ![2400, 256]⟩

abbrev nBuf : Space → Nat
  | .hbm => 101
  | .vmem => 28
  | .smem => 0
  | _ => 0

abbrev bufTy : (tb : Table) → Fin (tcTables nBuf tb) → BufTy
  | .hbm, ⟨0, _⟩ => ⟨S20000x128, .f32⟩
  | .hbm, ⟨1, _⟩ => ⟨S480000x128, .f32⟩
  | .hbm, ⟨2, _⟩ => ⟨S480000, .i32⟩
  | .hbm, ⟨3, _⟩ => ⟨S480000, .i32⟩
  | .hbm, ⟨4, _⟩ => ⟨S384x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .i32⟩
  | .hbm, ⟨9, _⟩ => ⟨S480000, .i32⟩
  | .hbm, ⟨10, _⟩ => ⟨S480000, .i1⟩
  | .hbm, ⟨11, _⟩ => ⟨S_, .i32⟩
  | .hbm, ⟨12, _⟩ => ⟨S480000, .i32⟩
  | .hbm, ⟨13, _⟩ => ⟨S480000, .i32⟩
  | .hbm, ⟨14, _⟩ => ⟨S480000, .i32⟩
  | .hbm, ⟨15, _⟩ => ⟨S480000x1, .i32⟩
  | .hbm, ⟨16, _⟩ => ⟨S1, .i32⟩
  | .hbm, ⟨17, _⟩ => ⟨S_, .i32⟩
  | .hbm, ⟨18, _⟩ => ⟨S480000x1, .i32⟩
  | .hbm, ⟨19, _⟩ => ⟨S480000x1, .i1⟩
  | .hbm, ⟨20, _⟩ => ⟨S1x1, .i32⟩
  | .hbm, ⟨21, _⟩ => ⟨S480000x1, .i32⟩
  | .hbm, ⟨22, _⟩ => ⟨S480000x1, .i1⟩
  | .hbm, ⟨23, _⟩ => ⟨S480000x1, .i1⟩
  | .hbm, ⟨24, _⟩ => ⟨S_, .i1⟩
  | .hbm, ⟨25, _⟩ => ⟨S480000, .i1⟩
  | .hbm, ⟨26, _⟩ => ⟨S480000x128, .f32⟩
  | .hbm, ⟨27, _⟩ => ⟨S480000x128, .i1⟩
  | .hbm, ⟨28, _⟩ => ⟨S_, .f32⟩
  | .hbm, ⟨29, _⟩ => ⟨S480000x128, .f32⟩
  | .hbm, ⟨30, _⟩ => ⟨S480000x128, .f32⟩
  | .hbm, ⟨31, _⟩ => ⟨S_, .i32⟩
  | .hbm, ⟨32, _⟩ => ⟨S480000, .i32⟩
  | .hbm, ⟨33, _⟩ => ⟨S480000, .i1⟩
  | .hbm, ⟨34, _⟩ => ⟨S_, .i32⟩
  | .hbm, ⟨35, _⟩ => ⟨S480000, .i32⟩
  | .hbm, ⟨36, _⟩ => ⟨S480000, .i32⟩
  | .hbm, ⟨37, _⟩ => ⟨S480000, .i32⟩
  | .hbm, ⟨38, _⟩ => ⟨S480000x1, .i32⟩
  | .hbm, ⟨39, _⟩ => ⟨S1, .i32⟩
  | .hbm, ⟨40, _⟩ => ⟨S_, .i32⟩
  | .hbm, ⟨41, _⟩ => ⟨S480000x1, .i32⟩
  | .hbm, ⟨42, _⟩ => ⟨S480000x1, .i1⟩
  | .hbm, ⟨43, _⟩ => ⟨S1x1, .i32⟩
  | .hbm, ⟨44, _⟩ => ⟨S480000x1, .i32⟩
  | .hbm, ⟨45, _⟩ => ⟨S480000x1, .i1⟩
  | .hbm, ⟨46, _⟩ => ⟨S480000x1, .i1⟩
  | .hbm, ⟨47, _⟩ => ⟨S_, .i1⟩
  | .hbm, ⟨48, _⟩ => ⟨S480000, .i1⟩
  | .hbm, ⟨49, _⟩ => ⟨S480000x128, .f32⟩
  | .hbm, ⟨50, _⟩ => ⟨S480000x128, .i1⟩
  | .hbm, ⟨51, _⟩ => ⟨S_, .f32⟩
  | .hbm, ⟨52, _⟩ => ⟨S480000x128, .f32⟩
  | .hbm, ⟨53, _⟩ => ⟨S480000x128, .f32⟩
  | .hbm, ⟨54, _⟩ => ⟨S128x256, .f32⟩
  | .hbm, ⟨55, _⟩ => ⟨S128x256, .f32⟩
  | .hbm, ⟨56, _⟩ => ⟨S128x256, .f32⟩
  | .hbm, ⟨57, _⟩ => ⟨S1x256, .f32⟩
  | .hbm, ⟨58, _⟩ => ⟨S2x1x256, .f32⟩
  | .hbm, ⟨59, _⟩ => ⟨S2x1x256, .f32⟩
  | .hbm, ⟨60, _⟩ => ⟨S_, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S_, .f32⟩
  | .hbm, ⟨65, _⟩ => ⟨S1x256, .f32⟩
  | .hbm, ⟨66, _⟩ => ⟨S1x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S_, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S480000x128, .f32⟩
  | .hbm, ⟨82, _⟩ => ⟨S_, .f32⟩
  | .hbm, ⟨83, _⟩ => ⟨S20000x128, .f32⟩
  | .hbm, ⟨84, _⟩ => ⟨S480000x1, .i32⟩
  | .hbm, ⟨85, _⟩ => ⟨S20000x128, .f32⟩
  | .hbm, ⟨86, _⟩ => ⟨S20000x128, .f32⟩
  | .hbm, ⟨87, _⟩ => ⟨S_, .f32⟩
  | .hbm, ⟨88, _⟩ => ⟨S20000x128, .f32⟩
  | .hbm, ⟨89, _⟩ => ⟨S20000x128, .f32⟩
  | .hbm, ⟨90, _⟩ => ⟨S20000x128, .f32⟩
  | .hbm, ⟨91, _⟩ => ⟨S20000x128, .f32⟩
  | .hbm, ⟨92, _⟩ => ⟨S20000x128, .i1⟩
  | .hbm, ⟨93, _⟩ => ⟨S20000x128, .f32⟩
  | .hbm, ⟨94, _⟩ => ⟨S20000x128, .f32⟩
  | .hbm, ⟨95, _⟩ => ⟨S20000x128, .f32⟩
  | .hbm, ⟨96, _⟩ => ⟨S20000x128, .f32⟩
  | .hbm, ⟨97, _⟩ => ⟨S20000x128, .f32⟩
  | .hbm, ⟨98, _⟩ => ⟨S20000x128, .f32⟩
  | .hbm, ⟨99, _⟩ => ⟨S20000x128, .f32⟩
  | .hbm, ⟨100, _⟩ => ⟨S20000x128, .f32⟩
  | .local _ .vmem, ⟨0, _⟩ => ⟨S2400x128, .f32⟩
  | .local _ .vmem, ⟨1, _⟩ => ⟨S2400x128, .f32⟩
  | .local _ .vmem, ⟨2, _⟩ => ⟨S2400x128, .f32⟩
  | .local _ .vmem, ⟨3, _⟩ => ⟨S2400x128, .f32⟩
  | .local _ .vmem, ⟨4, _⟩ => ⟨S2400x128, .f32⟩
  | .local _ .vmem, ⟨5, _⟩ => ⟨S2400x128, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S2400x128, .f32⟩
  | .local _ .vmem, ⟨15, _⟩ => ⟨S2400x128, .f32⟩
  | .local _ .vmem, ⟨16, _⟩ => ⟨S2400x128, .f32⟩
  | .local _ .vmem, ⟨17, _⟩ => ⟨S2400x128, .f32⟩
  | .local _ .vmem, ⟨18, _⟩ => ⟨S2400x128, .f32⟩
  | .local _ .vmem, ⟨19, _⟩ => ⟨S2400x128, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2400x128, .f32⟩
  | .local _ .vmem, ⟨27, _⟩ => ⟨S2400x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6_0 : Ref sig .tc := ⟨.hbm, 58, rfl⟩
abbrev main_v6_1 : Ref sig .tc := ⟨.hbm, 59, rfl⟩
abbrev main_cst : Ref sig .tc := ⟨.hbm, 60, rfl⟩
abbrev main_v7 : Ref sig .tc := ⟨.hbm, 61, rfl⟩
abbrev main_cst_0 : Ref sig .tc := ⟨.hbm, 62, rfl⟩
abbrev main_v8 : Ref sig .tc := ⟨.hbm, 63, rfl⟩
abbrev main_cst_1 : Ref sig .tc := ⟨.hbm, 64, rfl⟩
abbrev main_v9 : Ref sig .tc := ⟨.hbm, 65, rfl⟩
abbrev main_v10 : Ref sig .tc := ⟨.hbm, 66, rfl⟩
abbrev main_cst_2 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst_3 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst_4 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_v28 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2400x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  bcast_S_S480000x1 : S_.BroadcastsInDim S480000x1 (![] : Fin 0 → Fin S480000x1.rank)
  bcast_S1_S1x1_1 : S1.BroadcastsInDim S1x1 (![1] : Fin 1 → Fin S1x1.rank)
  bcast_S1x1_S480000x1_0_1 : S1x1.BroadcastsInDim S480000x1 (![0, 1] : Fin 2 → Fin S480000x1.rank)
  reducesTo_S480000x1_S480000_d1 : S480000x1.ReducesTo [1] S480000
  h_S_ : 0 < S_.numel
  bcast_S480000_S480000x128_0 : S480000.BroadcastsInDim S480000x128 (![0] : Fin 1 → Fin S480000x128.rank)
  bcast_S_S480000x128 : S_.BroadcastsInDim S480000x128 (![] : Fin 0 → Fin S480000x128.rank)
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S2400x128_S2400x128_0_0 : ∀ a, (![0, 0] : Fin 2 → Nat) a + S2400x128.size a ≤ S2400x128.size a
  h_S2400x128 : 0 < S2400x128.numel
  shapeCasts_S2400x128_S2400x128 : S2400x128.ShapeCasts S2400x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2400x256 : S1x256.Broadcasts S2400x256
  reduces_S2400x256_S256 : S2400x256.Reduces [0] S256
  reducesTo_S2x1x256_S1x256_d0 : S2x1x256.ReducesTo [0] S1x256
  bcast_S_S1x256 : S_.BroadcastsInDim S1x256 (![] : Fin 0 → Fin S1x256.rank)
  slices_S2400x256_o0_0_S2400x128 : S2400x256.Slices ![0, 0] S2400x128
  slices_S2400x256_o0_128_S2400x128 : S2400x256.Slices ![0, 128] S2400x128
  bcast_S_S20000x128 : S_.BroadcastsInDim S20000x128 (![] : Fin 0 → Fin S20000x128.rank)
  gather_S20000x128_S480000x1_S480000x128_1_0_n_n_0_1_1128_wf : GatherDims.WF S20000x128 S480000x1 S480000x128 [1] [0] [] [0] [] 1 ![1, 128]
  dot_S2400x128_S128x256_S2400x256_1_0_0_1_n_n_wf : DotDims.WF S2400x128 S128x256 S2400x256 [1] [0] [0] [1] [] []
  scatter_S20000x128_S480000x1_S480000x128_1_0_0_1_wf : ScatterDims.WF S20000x128 S480000x1 S480000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2400x128.size a ≤ S480000x128.size a
  hwx0_0 : ∀ i : grid0.Coords, EltTy.bits .f32 = 32 ∨ (Rect.block (s := S480000x128) S2400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2400x128.size a ≤ S480000x128.size a
  hwx0_1 : ∀ i : grid0.Coords, EltTy.bits .f32 = 32 ∨ (Rect.block (s := S480000x128) S2400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2400x128.size a ≤ S480000x128.size a
  hwx0_2 : ∀ i : grid0.Coords, EltTy.bits .f32 = 32 ∨ (Rect.block (s := S480000x128) S2400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S2x1x256.size a
  hwx0_7 : ∀ i : grid0.Coords, EltTy.bits .f32 = 32 ∨ (Rect.block (s := S2x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S2x1x256.size a
  hwx0_8 : ∀ i : grid0.Coords, EltTy.bits .f32 = 32 ∨ (Rect.block (s := S2x1x256) S1x1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2400x128.size a ≤ S480000x128.size a
  hwx1_0 : ∀ i : grid1.Coords, EltTy.bits .f32 = 32 ∨ (Rect.block (s := S480000x128) S2400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2400x128.size a ≤ S480000x128.size a
  hwx1_1 : ∀ i : grid1.Coords, EltTy.bits .f32 = 32 ∨ (Rect.block (s := S480000x128) S2400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2400x128.size a ≤ S480000x128.size a
  hwx1_2 : ∀ i : grid1.Coords, EltTy.bits .f32 = 32 ∨ (Rect.block (s := S480000x128) S2400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2400x128.size a ≤ S480000x128.size a
  hwx1_9 : ∀ i : grid1.Coords, EltTy.bits .f32 = 32 ∨ (Rect.block (s := S480000x128) S2400x128.size (cc1_transform_9 i) (hinb1_9 i)).WholeWords (EltTy.packing .f32)

variable [Facts₀]

def gather_S20000x128_S480000x1_S480000x128_1_0_n_n_0_1_1128 : GatherDims S20000x128 S480000x1 S480000x128 where
  offsetDims := [1]
  collapsedSliceDims := [0]
  operandBatchingDims := []
  startIndicesBatchingDims := []
  startIndexMap := [0]
  indexVectorDim := 1
  sliceSizes := ![1, 128]
  wf := gather_S20000x128_S480000x1_S480000x128_1_0_n_n_0_1_1128_wf
def dot_S2400x128_S128x256_S2400x256_1_0_0_1_n_n : DotDims S2400x128 S128x256 S2400x256 where
  lhsContracting := [1]
  rhsContracting := [0]
  lhsNonContracting := [0]
  rhsNonContracting := [1]
  lhsBatch := []
  rhsBatch := []
  wf := dot_S2400x128_S128x256_S2400x256_1_0_0_1_n_n_wf
def scatter_S20000x128_S480000x1_S480000x128_1_0_0_1 : ScatterDims S20000x128 S480000x1 S480000x128 where
  updateWindowDims := [1]
  insertedWindowDims := [0]
  scatterDimsToOperandDims := [0]
  indexVectorDim := 1
  wf := scatter_S20000x128_S480000x1_S480000x128_1_0_0_1_wf

abbrev win0_0 : Pipeline.Window sig grid0 :=
  Pipeline.Window.ofSpec (Memref.whole main_v0) S2400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0) S2400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S2400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S20000x128 : Shape := ⟨2, ![20000, 128]⟩
abbrev S480000x128 : Shape := ⟨2, ![480000, 128]⟩
abbrev S480000 : Shape := ⟨1, ![480000]⟩
abbrev S384x256 : Shape := ⟨2, ![384, 256]⟩
abbrev S256 : Shape := ⟨1, ![256]⟩
abbrev S_ : Shape := ⟨0, ![]⟩
abbrev S480000x1 : Shape := ⟨2, ![480000, 1]⟩
abbrev S480000x384 : Shape := ⟨2, ![480000, 384]⟩
abbrev S480000x256 : Shape := ⟨2, ![480000, 256]⟩
abbrev S1x256 : Shape := ⟨2, ![1, 256]⟩

abbrev nBuf : Space → Nat
  | .hbm => 105
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S480000x128, .f32⟩
  | .hbm, ⟨2, _⟩ => ⟨S480000, .i32⟩
  | .hbm, ⟨3, _⟩ => ⟨S480000, .i32⟩
  | .hbm, ⟨4, _⟩ => ⟨S384x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .i32⟩
  | .hbm, ⟨9, _⟩ => ⟨S480000, .i32⟩
  | .hbm, ⟨10, _⟩ => ⟨S480000, .i1⟩
  | .hbm, ⟨11, _⟩ => ⟨S_, .i32⟩
  | .hbm, ⟨12, _⟩ => ⟨S480000, .i32⟩
  | .hbm, ⟨13, _⟩ => ⟨S480000, .i32⟩
  | .hbm, ⟨14, _⟩ => ⟨S480000, .i32⟩
  | .hbm, ⟨15, _⟩ => ⟨S480000x1, .i32⟩
  | .hbm, ⟨16, _⟩ => ⟨S480000x128, .f32⟩
  | .hbm, ⟨17, _⟩ => ⟨S_, .i32⟩
  | .hbm, ⟨18, _⟩ => ⟨S480000, .i32⟩
  | .hbm, ⟨19, _⟩ => ⟨S480000, .i1⟩
  | .hbm, ⟨20, _⟩ => ⟨S_, .i32⟩
  | .hbm, ⟨21, _⟩ => ⟨S480000, .i32⟩
  | .hbm, ⟨22, _⟩ => ⟨S480000, .i32⟩
  | .hbm, ⟨23, _⟩ => ⟨S480000, .i32⟩
  | .hbm, ⟨24, _⟩ => ⟨S480000x1, .i32⟩
  | .hbm, ⟨25, _⟩ => ⟨S480000x128, .f32⟩
  | .hbm, ⟨26, _⟩ => ⟨S480000x384, .f32⟩
  | .hbm, ⟨27, _⟩ => ⟨S480000x256, .f32⟩
  | .hbm, ⟨28, _⟩ => ⟨S1x256, .f32⟩
  | .hbm, ⟨29, _⟩ => ⟨S480000x256, .f32⟩
  | .hbm, ⟨30, _⟩ => ⟨S480000x256, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S480000x256, .f32⟩
  | .hbm, ⟨38, _⟩ => ⟨S480000x256, .f32⟩
  | .hbm, ⟨39, _⟩ => ⟨S480000x256, .f32⟩
  | .hbm, ⟨40, _⟩ => ⟨S_, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S480000x256, .f32⟩
  | .hbm, ⟨47, _⟩ => ⟨S480000x256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S1x256, .f32⟩
  | .hbm, ⟨53, _⟩ => ⟨S480000x256, .f32⟩
  | .hbm, ⟨54, _⟩ => ⟨S480000x256, .f32⟩
  | .hbm, ⟨55, _⟩ => ⟨S1x256, .f32⟩
  | .hbm, ⟨56, _⟩ => ⟨S480000x256, .f32⟩
  | .hbm, ⟨57, _⟩ => ⟨S480000x256, .f32⟩
  | .hbm, ⟨58, _⟩ => ⟨S1x256, .f32⟩
  | .hbm, ⟨59, _⟩ => ⟨S480000x256, .f32⟩
  | .hbm, ⟨60, _⟩ => ⟨S480000x256, .f32⟩
  | .hbm, ⟨61, _⟩ => ⟨S480000x128, .f32⟩
  | .hbm, ⟨62, _⟩ => ⟨S480000x128, .f32⟩
  | .hbm, ⟨63, _⟩ => ⟨S480000x128, .f32⟩
  | .hbm, ⟨64, _⟩ => ⟨S480000x128, .f32⟩
  | .hbm, ⟨65, _⟩ => ⟨S_, .f32⟩
  | .hbm, ⟨66, _⟩ => ⟨S480000x128, .f32⟩
  | .hbm, ⟨67, _⟩ => ⟨S480000x128, .f32⟩
  | .hbm, ⟨68, _⟩ => ⟨S_, .f32⟩
  | .hbm, ⟨69, _⟩ => ⟨S480000x128, .f32⟩
  | .hbm, ⟨70, _⟩ => ⟨S480000x128, .f32⟩
  | .hbm, ⟨71, _⟩ => ⟨S_, .f32⟩
  | .hbm, ⟨72, _⟩ => ⟨S480000x128, .f32⟩
  | .hbm, ⟨73, _⟩ => ⟨S480000x128, .f32⟩
  | .hbm, ⟨74, _⟩ => ⟨S480000x128, .f32⟩
  | .hbm, ⟨75, _⟩ => ⟨S480000x128, .f32⟩
  | .hbm, ⟨76, _⟩ => ⟨S480000x128, .i1⟩
  | .hbm, ⟨77, _⟩ => ⟨S480000x128, .f32⟩
  | .hbm, ⟨78, _⟩ => ⟨S480000x128, .f32⟩
  | .hbm, ⟨79, _⟩ => ⟨S480000x128, .f32⟩
  | .hbm, ⟨80, _⟩ => ⟨S480000x128, .f32⟩
  | .hbm, ⟨81, _⟩ => ⟨S480000x128, .f32⟩
  | .hbm, ⟨82, _⟩ => ⟨S480000x128, .f32⟩
  | .hbm, ⟨83, _⟩ => ⟨S480000x128, .f32⟩
  | .hbm, ⟨84, _⟩ => ⟨S480000x128, .f32⟩
  | .hbm, ⟨85, _⟩ => ⟨S480000x128, .f32⟩
  | .hbm, ⟨86, _⟩ => ⟨S_, .f32⟩
  | .hbm, ⟨87, _⟩ => ⟨S20000x128, .f32⟩
  | .hbm, ⟨88, _⟩ => ⟨S480000x1, .i32⟩
  | .hbm, ⟨89, _⟩ => ⟨S20000x128, .f32⟩
  | .hbm, ⟨90, _⟩ => ⟨S20000x128, .f32⟩
  | .hbm, ⟨91, _⟩ => ⟨S_, .f32⟩
  | .hbm, ⟨92, _⟩ => ⟨S20000x128, .f32⟩
  | .hbm, ⟨93, _⟩ => ⟨S20000x128, .f32⟩
  | .hbm, ⟨94, _⟩ => ⟨S20000x128, .f32⟩
  | .hbm, ⟨95, _⟩ => ⟨S20000x128, .f32⟩
  | .hbm, ⟨96, _⟩ => ⟨S20000x128, .i1⟩
  | .hbm, ⟨97, _⟩ => ⟨S20000x128, .f32⟩
  | .hbm, ⟨98, _⟩ => ⟨S20000x128, .f32⟩
  | .hbm, ⟨99, _⟩ => ⟨S20000x128, .f32⟩
  | .hbm, ⟨100, _⟩ => ⟨S20000x128, .f32⟩
  | .hbm, ⟨101, _⟩ => ⟨S20000x128, .f32⟩
  | .hbm, ⟨102, _⟩ => ⟨S20000x128, .f32⟩
  | .hbm, ⟨103, _⟩ => ⟨S20000x128, .f32⟩
  | .hbm, ⟨104, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v58 : Ref sig .tc := ⟨.hbm, 104, rfl⟩

abbrev nD : Nat := 1
abbrev τ : Topo := Topo.v7x

variable {F : FTy → Type} [FloatOps F]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  concatenates_S480000x128_S480000x128_S480000x128_S480000x384_d1 : Shape.Concatenates [S480000x128, S480000x128, S480000x128] S480000x384 1
  bcast_S256_S1x256_1 : S256.BroadcastsInDim S1x256 (![1] : Fin 1 → Fin S1x256.rank)
  bcast_S1x256_S480000x256_0_1 : S1x256.BroadcastsInDim S480000x256 (![0, 1] : Fin 2 → Fin S480000x256.rank)
  reducesTo_S480000x256_S256_d0 : S480000x256.ReducesTo [0] S256
  h_S_ : 0 < S_.numel
  bcast_S_S256 : S_.BroadcastsInDim S256 (![] : Fin 0 → Fin S256.rank)
  slices_S480000x256_S480000x128_0_0 : S480000x256.Slices ![0, 0] S480000x128
  slices_S480000x256_S480000x128_0_128 : S480000x256.Slices ![0, 128] S480000x128
  bcast_S_S480000x128 : S_.BroadcastsInDim S480000x128 (![] : Fin 0 → Fin S480000x128.rank)
  bcast_S_S20000x128 : S_.BroadcastsInDim S20000x128 (![] : Fin 0 → Fin S20000x128.rank)
  gather_S20000x128_S480000x1_S480000x128_1_0_n_n_0_1_1128_wf : GatherDims.WF S20000x128 S480000x1 S480000x128 [1] [0] [] [0] [] 1 ![1, 128]
  dot_S480000x384_S384x256_S480000x256_1_0_0_1_n_n_wf : DotDims.WF S480000x384 S384x256 S480000x256 [1] [0] [0] [1] [] []
  scatter_S20000x128_S480000x1_S480000x128_1_0_0_1_wf : ScatterDims.WF S20000x128 S480000x1 S480000x128 [1] [0] [0] 1

variable [Facts₀]

def gather_S20000x128_S480000x1_S480000x128_1_0_n_n_0_1_1128 : GatherDims S20000x128 S480000x1 S480000x128 where
  offsetDims := [1]
  collapsedSliceDims := [0]
  operandBatchingDims := []
  startIndicesBatchingDims := []
  startIndexMap := [0]
  indexVectorDim := 1
  sliceSizes := ![1, 128]
  wf := gather_S20000x128_S480000x1_S480000x128_1_0_n_n_0_1_1128_wf
def dot_S480000x384_S384x256_S480000x256_1_0_0_1_n_n : DotDims S480000x384 S384x256 S480000x256 where
  lhsContracting := [1]
  rhsContracting := [0]
  lhsNonContracting := [0]
  rhsNonContracting := [1]
  lhsBatch := []
  rhsBatch := []
  wf := dot_S480000x384_S384x256_S480000x256_1_0_0_1_n_n_wf
def scatter_S20000x128_S480000x1_S480000x128_1_0_0_1 : ScatterDims S20000x128 S480000x1 S480000x128 where
  updateWindowDims := [1]
  insertedWindowDims := [0]
  scatterDimsToOperandDims := [0]
  indexVectorDim := 1
  wf := scatter_S20000x128_S480000x1_S480000x128_1_0_0_1_wf

class Facts : Prop extends Facts₀ where

variable [Facts]
-- ==== Proof.Take.lean ====
/-
  Row lookup table[idx] as the kernel's host code spells it: negative indices count from the end, then rows whose index
  falls outside 0 … 19999 are replaced by the not-a-number word.  For indices in range the replacement never happens.
-/
import proofs.«412280_j46102178955276_1_alg».proof.Proof.Gen.KernelIdeal
import Idealize.ShloMosaic.PureOps.Ideal
import Idealize.ShloMosaic.Lib.StableHlo.Predicate
import Idealize.ShloMosaic.PureOps.Reduce
import Idealize.ShloMosaic.Lib.Affine

noncomputable section

open Idealize.ShloMosaic

namespace Cert.KernelIdeal.Take

open Cert.KernelIdeal Cert.KernelIdeal.Facts₀ Cert.KernelIdeal.Facts

/-- The index column the lookup reads: idx + 20000 where idx < 0, else idx, as a [480000, 1] column. -/
def wrapIdx (idx : IVec S480000 32) : IVec S480000x1 32 :=
  broadcastInDim S480000x1 ![0] bcast_S480000_S480000x1_0
    (select (cmpi .slt idx (broadcastInDim S480000 ![] bcast_S_S480000 (constantI S_ 32 0#32)))
      (addi idx (broadcastInDim S480000 ![] bcast_S_S480000 (constantI S_ 32 20000#32))) idx)

/-- Row by row: is the wrapped index between 0 and 19999? -/
def inRange (i5 : IVec S480000x1 32) : IVec S480000 1 :=
  Host.reduce IntOp.andi
    (andi (cmpi .sge i5 (broadcastInDim S480000x1 ![] bcast_S_S480000x1 (constantI S_ 32 0#32)))
      (cmpi .sle i5 (broadcastInDim S480000x1 ![0, 1] bcast_S1x1_S480000x1_0_1
        (broadcastInDim S1x1 ![1] bcast_S1_S1x1_1 (constantI S1 32 19999#32)))))
    (constantI S_ 1 1#1) reducesTo_S480000x1_S480000_d1 h_S_

/-- The plain lookup of the wrapped indices. -/
def gatherRows (h : FVec Ideal S20000x128 .f32) (idx : IVec S480000 32) : FVec Ideal S480000x128 .f32 :=
  Host.gather gather_S20000x128_S480000x1_S480000x128_1_0_n_n_0_1_1128 h (wrapIdx idx)

/-- The lookup with out-of-range rows replaced. -/
def takeRows (h : FVec Ideal S20000x128 .f32) (idx : IVec S480000 32) : FVec Ideal S480000x128 .f32 :=
  select (broadcastInDim S480000x128 ![0] bcast_S480000_S480000x128_0 (inRange (wrapIdx idx))) (gatherRows h idx)
    (broadcastInDim S480000x128 ![] bcast_S_S480000x128 (constant S_ .f32 0x7FC00000#32))

/-- One index word in 0 … 19999: it is not negative, so the wrap keeps it, and both range tests pass. -/
theorem wrap_inRange_word (x : BitVec 32) (h0 : 0 ≤ x.toInt) (h1 : x.toInt < 20000) :
    IntOp.andi (IntOp.cmpi .sge (Scalar.select (IntOp.cmpi .slt x 0#32) (IntOp.addi x 20000#32) x) 0#32)
      (IntOp.cmpi .sle (Scalar.select (IntOp.cmpi .slt x 0#32) (IntOp.addi x 20000#32) x) 19999#32) = 1#1 := by
  have hs : IntOp.cmpi .slt x 0#32 = 0#1 := by
    have : ¬ x.toInt < 0 := by omega
    simp [IntOp.cmpi, BitVec.slt, this]
  have hsel : Scalar.select (IntOp.cmpi .slt x 0#32) (IntOp.addi x 20000#32) x = x := by
    rw [hs]; simp [Scalar.select]
  rw [hsel, IntOp.andi_eq_one]
  have h19 : (19999#32 : BitVec 32).toInt = 19999 := by decide
  constructor
  · simp [IntOp.cmpi, BitVec.sle, h0]
  · have : x.toInt ≤ 19999 := by omega
    simp [IntOp.cmpi, BitVec.sle, h19, this]

/-- A left fold by `and` from 1 over words that are all 1 is 1. -/
theorem foldl_andi_one {ι : Type} (l : List ι) :
    l.foldl (fun (r : BitVec 1) (_ : ι) => IntOp.andi r 1#1) 1#1 = 1#1 := by
  induction l with
  | nil => rfl
  | cons a l ih => simpa [List.foldl_cons, IntOp.andi] using ih

/-- With every index in 0 … 19999 each row passes the range test. -/
theorem inRange_wrapIdx (idx : IVec S480000 32) (hidx : ∀ i, 0 ≤ (idx i).toInt ∧ (idx i).toInt < 20000)
    (p : S480000.Idx) : inRange (wrapIdx idx) p = 1#1 := by
  unfold inRange
  have hx : (andi (cmpi .sge (wrapIdx idx) (broadcastInDim S480000x1 ![] bcast_S_S480000x1 (constantI S_ 32 0#32)))
      (cmpi .sle (wrapIdx idx) (broadcastInDim S480000x1 ![0, 1] bcast_S1x1_S480000x1_0_1
        (broadcastInDim S1x1 ![1] bcast_S1_S1x1_1 (constantI S1 32 19999#32))))) = fun _ => 1#1 := by
    funext q
    simp only [andi, cmpi, wrapIdx, select, addi, broadcastInDim, constantI]
    exact wrap_inRange_word _ (hidx _).1 (hidx _).2
  rw [hx, Host.reduce_eq_foldl]
  exact foldl_andi_one _

/-- With every index in 0 … 19999 nothing is replaced. -/
theorem takeRows_eq_gatherRows (h : FVec Ideal S20000x128 .f32) (idx : IVec S480000 32)
    (hidx : ∀ i, 0 ≤ (idx i).toInt ∧ (idx i).toInt < 20000) : takeRows h idx = gatherRows h idx := by
  funext i
  unfold takeRows
  simp only [select, broadcastInDim, Scalar.select]
  exact if_pos (inRange_wrapIdx idx hidx _)

/-- Every looked-up entry is an entry of the table: real if the table is. -/
theorem gatherRows_real (h : FVec Ideal S20000x128 .f32) (hh : ∀ i, ∃ v : ℝ, h i = (v : EReal)) (idx : IVec S480000 32) :
    ∀ i, ∃ v : ℝ, gatherRows h idx i = (v : EReal) := by
  intro i
  unfold gatherRows Host.gather
  exact hh _

end Cert.KernelIdeal.Take

end
-- ==== Proof.Spec.lean ====
/-
  The edge layer, as functions of indices over the extended reals.

  One edge row r carries three 128-wide feature rows (the source node's, the destination node's, the edge's own); the
  linear layer sends it to 256 columns, z r j = Σₖ row r k · W k j + b j.  Written as three partial products over the three
  128-row slabs of W it is `lin3`; written over the concatenated 384-wide row it is `lin1`.

  Batch normalisation over the 480000 edge rows, column by column.  One program accumulates, in two groups of one hundred
  blocks of 2400 rows, the column sums of z and of z², and forms mean = Σz / n, var = Σz² / n − mean², then the affine
  z ↦ z · (γ · rsqrt (var + ε)) + (β − mean · (γ · rsqrt (var + ε)))  (`normK`).  The other forms mean = Σz / n,
  var = Σ (z − mean)² / n and z ↦ ((z − mean) · rsqrt (var + ε)) · γ + β  (`normR`).

  The message of an edge is sigmoid (first 128 normalised columns) · softplus (last 128 normalised columns).
-/
import Idealize.ShloMosaic.PureOps.Ideal
import Idealize.ShloMosaic.Lib.ValueIdx

noncomputable section

open Idealize.ShloMosaic
open scoped BigOperators

namespace Cert.EdgeLayer

/-- A rank-2 array read at (row, column). -/
abbrev cur2 {α : Type} {n0 n1 : Nat} (x : (⟨2, ![n0, n1]⟩ : Shape).Idx → α) : Fin n0 → Fin n1 → α :=
  fun a b => x (ValueIdx.ix2 a b)

/-- The number of edge rows, as the f32 word both programs divide by (480000). -/
def nEdges : EReal := Ideal.ofBits .f32 0x48EA6000#32
/-- The variance offset ε, as the f32 word both programs add. -/
def eps : EReal := Ideal.ofBits .f32 0x3727C5AC#32
/-- The f32 zero word. -/
def zero : EReal := Ideal.ofBits .f32 0x00000000#32
/-- The f32 one word. -/
def one : EReal := Ideal.ofBits .f32 0x3F800000#32

/-! ## The linear layer -/

/-- Three partial products over the three slabs of the weight, then the bias. -/
def lin3 (hs hd ee : Fin 480000 → Fin 128 → EReal) (W1 W2 W3 : Fin 128 → Fin 256 → EReal) (b : Fin 256 → EReal)
    (r : Fin 480000) (j : Fin 256) : EReal :=
  ((∑ k : Fin 128, hs r k * W1 k j) + (∑ k : Fin 128, hd r k * W2 k j) + (∑ k : Fin 128, ee r k * W3 k j)) + b j

/-- One product over the concatenated row, then the bias. -/
def lin1 (cat : Fin 480000 → Fin 384 → EReal) (W : Fin 384 → Fin 256 → EReal) (b : Fin 256 → EReal)
    (r : Fin 480000) (j : Fin 256) : EReal :=
  (∑ k : Fin 384, cat r k * W k j) + b j

/-- Rows `o … o+127` of the weight: one of its three 128-row slabs. -/
def slab (o : ℕ) (ho : o + 128 ≤ 384) (W : Fin 384 → Fin 256 → EReal) : Fin 128 → Fin 256 → EReal :=
  fun k j => W ⟨o + k.val, by have := k.isLt; omega⟩ j

/-- The three feature rows of an edge laid side by side. -/
def catRow (hs hd ee : Fin 480000 → Fin 128 → EReal) : Fin 480000 → Fin 384 → EReal :=
  fun r k =>
    if h1 : k.val < 128 then hs r ⟨k.val, h1⟩
    else if h2 : k.val < 256 then hd r ⟨k.val - 128, by omega⟩
    else ee r ⟨k.val - 256, by have := k.isLt; omega⟩

/-- Every entry is a real number. -/
def Real2 {n0 n1 : Nat} (x : Fin n0 → Fin n1 → EReal) : Prop := ∀ a b, ∃ v : ℝ, x a b = (v : EReal)
def Real1 {n0 : Nat} (x : Fin n0 → EReal) : Prop := ∀ a, ∃ v : ℝ, x a = (v : EReal)

/-! ## Column sums, block by block in two groups of one hundred -/

/-- The sum of `f` over the 2400 rows of block `n` (nothing past the two hundredth block). -/
def blockSum (f : Fin 480000 → EReal) (n : ℕ) : EReal :=
  if h : n < 200 then ∑ q : Fin 2400, f ⟨2400 * n + q.val, by have := q.isLt; omega⟩ else 0

/-- What an accumulator holds after grid position `n`: it restarts from zero at the first of each hundred positions. -/
def running (g : ℕ → EReal) : ℕ → EReal
  | 0 => zero + g 0
  | n + 1 => if (n + 1) % 100 = 0 then zero + g (n + 1) else running g n + g (n + 1)

/-- Group `g`'s partial sum: the accumulator after the group's last position. -/
def groupSum (f : Fin 480000 → EReal) (g : Fin 2) : EReal := running (blockSum f) (100 * g.val + 99)

/-- The two groups' partial sums added from zero. -/
def total (f : Fin 480000 → EReal) : EReal := zero + ∑ g : Fin 2, groupSum f g

/-! ## Batch normalisation, two ways -/

section Norm
variable (z : Fin 480000 → Fin 256 → EReal) (γ β : Fin 256 → EReal)

def meanK (j : Fin 256) : EReal := Ideal.div (total fun r => z r j) nEdges
def msqK (j : Fin 256) : EReal := Ideal.div (total fun r => z r j * z r j) nEdges
def varK (j : Fin 256) : EReal := msqK z j - meanK z j * meanK z j
def scaleK (j : Fin 256) : EReal := γ j * Ideal.rsqrt (varK z j + eps)
def shiftK (j : Fin 256) : EReal := β j - meanK z j * scaleK z γ j
/-- Scale and shift folded into one affine map per column. -/
def normK (r : Fin 480000) (j : Fin 256) : EReal := z r j * scaleK z γ j + shiftK z γ β j

def meanR (j : Fin 256) : EReal := Ideal.div (zero + ∑ r : Fin 480000, z r j) nEdges
def varR (j : Fin 256) : EReal :=
  Ideal.div (zero + ∑ r : Fin 480000, (z r j - meanR z j) * (z r j - meanR z j)) nEdges
/-- Centre, scale by the reciprocal deviation, then by γ, then add β. -/
def normR (r : Fin 480000) (j : Fin 256) : EReal :=
  ((z r j - meanR z j) * Ideal.rsqrt (varR z j + eps)) * γ j + β j
end Norm

/-! ## The gate -/

/-- softplus as max (x, 0) + log1p (exp (0 − |x − 0|)), the not-a-number branch kept as written. -/
def softplusK (x : EReal) : EReal :=
  if Ideal.cmp .one (x - zero) (x - zero) = 1 then x + zero
  else max x zero + Ideal.log1p (Ideal.exp (zero - max (x - zero) (-(x - zero))))

/-- softplus as max (x, 0) + log1p (exp (−|x − 0|)), the not-a-number branch kept as written. -/
def softplusR (x : EReal) : EReal :=
  if Ideal.cmp .une (x - zero) (x - zero) = 1 then x + zero
  else max x zero + Ideal.log1p (Ideal.exp (-(max (x - zero) (-(x - zero)))))

/-- sigmoid (filter) · softplus (core), the sigmoid as one operation. -/
def gateK (f c : EReal) : EReal := Ideal.logistic f * softplusK c
/-- sigmoid (filter) · softplus (core), the sigmoid as 1 / (1 + exp (−f)). -/
def gateR (f c : EReal) : EReal := Ideal.div one (one + Ideal.exp (-f)) * softplusR c

/-- Column `j` of the first half and of the second half of the 256 normalised columns. -/
def lo (j : Fin 128) : Fin 256 := ⟨j.val, by have := j.isLt; omega⟩
def hi (j : Fin 128) : Fin 256 := ⟨128 + j.val, by have := j.isLt; omega⟩

end Cert.EdgeLayer

end
-- ==== Proof.HostValue.lean ====
/-
  The host stretches of the kernel's program, read as values.

  Before the first region the program looks up the node rows at the source and at the destination indices, cuts the
  weight into its three 128-row slabs and lays the bias out as a row.  Between the two regions it turns the accumulated
  column sums into one scale and one shift per column.  After the second region it adds the messages into their
  destination rows, adds the node features and applies softplus; that last chain is carried as one function.
-/
import proofs.«412280_j46102178955276_1_alg».proof.Proof.Gen.KernelIdeal.Frame
import proofs.«412280_j46102178955276_1_alg».proof.Proof.Take
import proofs.«412280_j46102178955276_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx (ix1 ix2 ix3)
open scoped BigOperators

namespace Cert.KernelIdeal.HostValue

open Cert.KernelIdeal Cert.KernelIdeal.Gen Cert.KernelIdeal.Take Cert.EdgeLayer

variable (m : (ℓ : Loc nD τ sig) → Buf (Elt Ideal) ℓ) (ρ : Dev nD → PrngReg)

/-! ## The values the stretches form -/

/-- The two groups' partial sums added from zero, then divided by the number of rows: one value per column. -/
def avgRow (s : FVec Ideal S2x1x256 .f32) : FVec Ideal S1x256 .f32 :=
  Host.divf (Host.reduceAdd s (constant (F := Ideal) S_ .f32 0x00000000#32) reducesTo_S2x1x256_S1x256_d0 h_S_)
    (broadcastInDim S1x256 ![] bcast_S_S1x256 (constant (F := Ideal) S_ .f32 0x48EA6000#32))

/-- γ · rsqrt (mean of squares − mean² + ε), column by column. -/
def scaleRow (s7 s8 : FVec Ideal S2x1x256 .f32) (γ : FVec Ideal S256 .f32) : FVec Ideal S1x256 .f32 :=
  mulf (shapeCast S1x256 γ shapeCasts_S256_S1x256)
    (Host.rsqrt (addf (subf (avgRow s8) (mulf (avgRow s7) (avgRow s7)))
      (broadcastInDim S1x256 ![] bcast_S_S1x256 (constant (F := Ideal) S_ .f32 0x3727C5AC#32))))

/-- β − mean · scale, column by column. -/
def shiftRow (s7 s8 : FVec Ideal S2x1x256 .f32) (γ β : FVec Ideal S256 .f32) : FVec Ideal S1x256 .f32 :=
  subf (shapeCast S1x256 β shapeCasts_S256_S1x256) (mulf (avgRow s7) (scaleRow s7 s8 γ))

/-- The messages added into their destination rows from zero, then the node features added. -/
def gathered (h : FVec Ideal S20000x128 .f32) (dst : IVec S480000 32) (msg : FVec Ideal S480000x128 .f32) :
    FVec Ideal S20000x128 .f32 :=
  addf h (Host.scatterAdd scatter_S20000x128_S480000x1_S480000x128_1_0_0_1
    (broadcastInDim S20000x128 ![] bcast_S_S20000x128 (constant (F := Ideal) S_ .f32 0x00000000#32))
    (broadcastInDim S480000x1 ![0] bcast_S480000_S480000x1_0 dst) msg)

/-- softplus of every entry, as the program spells it. -/
def softplusAll (x : FVec Ideal S20000x128 .f32) : FVec Ideal S20000x128 .f32 :=
  select
    (cmpf .une
      (subf x (broadcastInDim S20000x128 ![] bcast_S_S20000x128 (constant (F := Ideal) S_ .f32 0x00000000#32)))
      (subf x (broadcastInDim S20000x128 ![] bcast_S_S20000x128 (constant (F := Ideal) S_ .f32 0x00000000#32))))
    (addf x (broadcastInDim S20000x128 ![] bcast_S_S20000x128 (constant (F := Ideal) S_ .f32 0x00000000#32)))
    (addf (maximumf x (broadcastInDim S20000x128 ![] bcast_S_S20000x128 (constant (F := Ideal) S_ .f32 0x00000000#32)))
      (Host.log1p (Host.exp (Host.negf (Host.absf
        (subf x (broadcastInDim S20000x128 ![] bcast_S_S20000x128 (constant (F := Ideal) S_ .f32 0x00000000#32))))))))

/-- What the program's last two stretches make of the node features, the destination indices and the messages. -/
def tail (h : FVec Ideal S20000x128 .f32) (dst : IVec S480000 32) (msg : FVec Ideal S480000x128 .f32) :
    FVec Ideal S20000x128 .f32 :=
  softplusAll (gathered h dst msg)

/-! ## Each stretch's results, from any contents -/

section Stretches

variable (V0 : Valuation τ sig (Elt Ideal))

/-- The first lookup: the node features at the source indices. -/
theorem take0 : StableHlo.after hostOps0 V0 (Proc.devRef .tc main_v0)
    = takeRows (V0 (Proc.devRef .tc main_arg0)) (V0 (Proc.devRef .tc main_arg2)) := by
  after_results_simp
  simp only [StableHlo.TRef.ofBuf, StableHlo.TRef.toBuf, cast_eq]
  rfl

/-- The second lookup: the node features at the destination indices. -/
theorem take1 : StableHlo.after hostOps0_1 V0 (Proc.devRef .tc main_v1)
    = takeRows (V0 (Proc.devRef .tc main_arg0)) (V0 (Proc.devRef .tc main_arg3)) := by
  after_results_simp
  simp only [StableHlo.TRef.ofBuf, StableHlo.TRef.toBuf, cast_eq]
  rfl

/-- The weight's three slabs and the bias as a row. -/
theorem slab0 : StableHlo.after hostOps0_2 V0 (Proc.devRef .tc main_v2)
    = extractStridedSlice S128x256 ![0, 0] (V0 (Proc.devRef .tc main_arg4)) slices_S384x256_S128x256_0_0 := by
  after_results <;> rfl

theorem slab1 : StableHlo.after hostOps0_2 V0 (Proc.devRef .tc main_v3)
    = extractStridedSlice S128x256 ![128, 0] (V0 (Proc.devRef .tc main_arg4)) slices_S384x256_S128x256_128_0 := by
  after_results <;> rfl

theorem slab2 : StableHlo.after hostOps0_2 V0 (Proc.devRef .tc main_v4)
    = extractStridedSlice S128x256 ![256, 0] (V0 (Proc.devRef .tc main_arg4)) slices_S384x256_S128x256_256_0 := by
  after_results <;> rfl

theorem biasRow : StableHlo.after hostOps0_2 V0 (Proc.devRef .tc main_v5)
    = shapeCast S1x256 (V0 (Proc.devRef .tc main_arg5)) shapeCasts_S256_S1x256 := by
  after_results <;> rfl

/-- The scale and the shift, from the two accumulated outputs and the affine parameters. -/
theorem scale_of : StableHlo.after hostOps1 V0 (Proc.devRef .tc main_v19)
    = scaleRow (V0 (Proc.devRef .tc main_v6_0)) (V0 (Proc.devRef .tc main_v6_1)) (V0 (Proc.devRef .tc main_arg6)) := by
  after_results_simp
  rfl

theorem shift_of : StableHlo.after hostOps1 V0 (Proc.devRef .tc main_v22)
    = shiftRow (V0 (Proc.devRef .tc main_v6_0)) (V0 (Proc.devRef .tc main_v6_1)) (V0 (Proc.devRef .tc main_arg6))
        (V0 (Proc.devRef .tc main_arg7)) := by
  after_results_simp
  rfl

/-- The last two stretches together. -/
theorem tail_of : StableHlo.after hostOps2_1 (StableHlo.after hostOps2 V0) (Proc.devRef .tc main_v28)
    = tail (V0 (Proc.devRef .tc main_arg0)) (V0 (Proc.devRef .tc main_arg3)) (V0 (Proc.devRef .tc main_v23)) := by
  after_results_simp
  simp only [StableHlo.TRef.ofBuf, StableHlo.TRef.toBuf, cast_eq]
  rfl

end Stretches

/-! ## The arguments stay as launched -/

/-- No operation of a host stretch writes the reference, so the stretch leaves its contents as they were. -/
local macro "host_keeps" : tactic => `(tactic| (
  refine StableHlo.after_of_forall_not_mem _ _ (List.forall_iff_forall_mem.mp ?_)
  simp only [hostOps0, hostOps0_1, hostOps0_2, hostOps1, hostOps2, hostOps2_1, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The first lookup's stretch leaves the node features and the destination indices as launched. -/
theorem W1_arg0 (c : Dev nD) : W1 m ρ c (Proc.devRef .tc main_arg0) = m ((c.tc : Thread nD τ).loc main_arg0) := by
  host_keeps
theorem W1_arg3 (c : Dev nD) : W1 m ρ c (Proc.devRef .tc main_arg3) = m ((c.tc : Thread nD τ).loc main_arg3) := by
  host_keeps

/-- Both lookups' stretches leave the weight and the bias as launched. -/
theorem W2_arg4 (c : Dev nD) : W2 m ρ c (Proc.devRef .tc main_arg4) = m ((c.tc : Thread nD τ).loc main_arg4) := by
  have e : W1 m ρ c (Proc.devRef .tc main_arg4) = m ((c.tc : Thread nD τ).loc main_arg4) := by host_keeps
  refine Eq.trans ?_ e
  host_keeps
theorem W2_arg5 (c : Dev nD) : W2 m ρ c (Proc.devRef .tc main_arg5) = m ((c.tc : Thread nD τ).loc main_arg5) := by
  have e : W1 m ρ c (Proc.devRef .tc main_arg5) = m ((c.tc : Thread nD τ).loc main_arg5) := by host_keeps
  refine Eq.trans ?_ e
  host_keeps

/-- All three stretches before the first region leave these arguments as launched. -/
theorem W3_arg0 (c : Dev nD) : W3 m ρ c (Proc.devRef .tc main_arg0) = m ((c.tc : Thread nD τ).loc main_arg0) := by
  have e2 : W2 m ρ c (Proc.devRef .tc main_arg0) = W1 m ρ c (Proc.devRef .tc main_arg0) := by host_keeps
  refine Eq.trans ?_ (e2.trans (W1_arg0 m ρ c))
  host_keeps
theorem W3_arg1 (c : Dev nD) : W3 m ρ c (Proc.devRef .tc main_arg1) = m ((c.tc : Thread nD τ).loc main_arg1) := by
  have e1 : W1 m ρ c (Proc.devRef .tc main_arg1) = m ((c.tc : Thread nD τ).loc main_arg1) := by host_keeps
  have e2 : W2 m ρ c (Proc.devRef .tc main_arg1) = W1 m ρ c (Proc.devRef .tc main_arg1) := by host_keeps
  refine Eq.trans ?_ (e2.trans e1)
  host_keeps
theorem W3_arg3 (c : Dev nD) : W3 m ρ c (Proc.devRef .tc main_arg3) = m ((c.tc : Thread nD τ).loc main_arg3) := by
  have e2 : W2 m ρ c (Proc.devRef .tc main_arg3) = W1 m ρ c (Proc.devRef .tc main_arg3) := by host_keeps
  refine Eq.trans ?_ (e2.trans (W1_arg3 m ρ c))
  host_keeps
theorem W3_arg6 (c : Dev nD) : W3 m ρ c (Proc.devRef .tc main_arg6) = m ((c.tc : Thread nD τ).loc main_arg6) := by
  have e1 : W1 m ρ c (Proc.devRef .tc main_arg6) = m ((c.tc : Thread nD τ).loc main_arg6) := by host_keeps
  have e2 : W2 m ρ c (Proc.devRef .tc main_arg6) = W1 m ρ c (Proc.devRef .tc main_arg6) := by host_keeps
  refine Eq.trans ?_ (e2.trans e1)
  host_keeps
theorem W3_arg7 (c : Dev nD) : W3 m ρ c (Proc.devRef .tc main_arg7) = m ((c.tc : Thread nD τ).loc main_arg7) := by
  have e1 : W1 m ρ c (Proc.devRef .tc main_arg7) = m ((c.tc : Thread nD τ).loc main_arg7) := by host_keeps
  have e2 : W2 m ρ c (Proc.devRef .tc main_arg7) = W1 m ρ c (Proc.devRef .tc main_arg7) := by host_keeps
  refine Eq.trans ?_ (e2.trans e1)
  host_keeps

/-! ## Before the first region -/

theorem in0_0 (c : Dev nD) :
    V3 m ρ c (Pipeline.arrRef spec0 0)
      = takeRows (m ((c.tc : Thread nD τ).loc main_arg0)) (m ((c.tc : Thread nD τ).loc main_arg2)) := by
  have e2 : W3 m ρ c (Proc.devRef .tc main_v0) = W2 m ρ c (Proc.devRef .tc main_v0) := by host_keeps
  have e1 : W2 m ρ c (Proc.devRef .tc main_v0) = W1 m ρ c (Proc.devRef .tc main_v0) := by host_keeps
  exact (e2.trans e1).trans (take0 (W0 m ρ c))

theorem in0_1 (c : Dev nD) :
    V3 m ρ c (Pipeline.arrRef spec0 1)
      = takeRows (m ((c.tc : Thread nD τ).loc main_arg0)) (m ((c.tc : Thread nD τ).loc main_arg3)) := by
  have e2 : W3 m ρ c (Proc.devRef .tc main_v1) = W2 m ρ c (Proc.devRef .tc main_v1) := by host_keeps
  refine (e2.trans (take1 (W1 m ρ c))).trans ?_
  rw [W1_arg0 m ρ c, W1_arg3 m ρ c]

theorem in0_2 (c : Dev nD) :
    V3 m ρ c (Pipeline.arrRef spec0 2) = m ((c.tc : Thread nD τ).loc main_arg1) :=
  W3_arg1 m ρ c

theorem in0_3 (c : Dev nD) :
    V3 m ρ c (Pipeline.arrRef spec0 3)
      = extractStridedSlice S128x256 ![0, 0] (m ((c.tc : Thread nD τ).loc main_arg4)) slices_S384x256_S128x256_0_0 := by
  refine (slab0 (W2 m ρ c)).trans ?_
  rw [W2_arg4 m ρ c]

theorem in0_4 (c : Dev nD) :
    V3 m ρ c (Pipeline.arrRef spec0 4)
      = extractStridedSlice S128x256 ![128, 0] (m ((c.tc : Thread nD τ).loc main_arg4)) slices_S384x256_S128x256_128_0 := by
  refine (slab1 (W2 m ρ c)).trans ?_
  rw [W2_arg4 m ρ c]

theorem in0_5 (c : Dev nD) :
    V3 m ρ c (Pipeline.arrRef spec0 5)
      = extractStridedSlice S128x256 ![256, 0] (m ((c.tc : Thread nD τ).loc main_arg4)) slices_S384x256_S128x256_256_0 := by
  refine (slab2 (W2 m ρ c)).trans ?_
  rw [W2_arg4 m ρ c]

theorem in0_6 (c : Dev nD) :
    V3 m ρ c (Pipeline.arrRef spec0 6)
      = shapeCast S1x256 (m ((c.tc : Thread nD τ).loc main_arg5)) shapeCasts_S256_S1x256 := by
  refine (biasRow (W2 m ρ c)).trans ?_
  rw [W2_arg5 m ρ c]

/-! ## Between the regions: the same seven arrays, untouched

The first region only reads them, and the stretch between the regions writes none of them. -/

/-- An input array of the first region leaves it as it entered. -/
theorem W4_in (c : Dev nD) (w : Fin cfg0.W) (hin : (cfg0.win w).isOut = false) :
    W4 m ρ c (Proc.devRef .tc (Pipeline.arrRef spec0 w)) = V3 m ρ c (Pipeline.arrRef spec0 w) :=
  (W4_arr m ρ c w).trans (((dat0 (V3 m ρ) c).arrAt_in w hin _).trans (A_eq0 (V3 m ρ) c w))

theorem in1_0 (c : Dev nD) :
    V5 m ρ c (Pipeline.arrRef spec1 0)
      = takeRows (m ((c.tc : Thread nD τ).loc main_arg0)) (m ((c.tc : Thread nD τ).loc main_arg2)) := by
  have e : W5 m ρ c (Proc.devRef .tc main_v0) = W4 m ρ c (Proc.devRef .tc main_v0) := by host_keeps
  exact (e.trans (W4_in m ρ c 0 rfl)).trans (in0_0 m ρ c)

theorem in1_1 (c : Dev nD) :
    V5 m ρ c (Pipeline.arrRef spec1 1)
      = takeRows (m ((c.tc : Thread nD τ).loc main_arg0)) (m ((c.tc : Thread nD τ).loc main_arg3)) := by
  have e : W5 m ρ c (Proc.devRef .tc main_v1) = W4 m ρ c (Proc.devRef .tc main_v1) := by host_keeps
  exact (e.trans (W4_in m ρ c 1 rfl)).trans (in0_1 m ρ c)

theorem in1_2 (c : Dev nD) :
    V5 m ρ c (Pipeline.arrRef spec1 2) = m ((c.tc : Thread nD τ).loc main_arg1) := by
  have e : W5 m ρ c (Proc.devRef .tc main_arg1) = W4 m ρ c (Proc.devRef .tc main_arg1) := by host_keeps
  exact (e.trans (W4_in m ρ c 2 rfl)).trans (in0_2 m ρ c)

theorem in1_3 (c : Dev nD) :
    V5 m ρ c (Pipeline.arrRef spec1 3)
      = extractStridedSlice S128x256 ![0, 0] (m ((c.tc : Thread nD τ).loc main_arg4)) slices_S384x256_S128x256_0_0 := by
  have e : W5 m ρ c (Proc.devRef .tc main_v2) = W4 m ρ c (Proc.devRef .tc main_v2) := by host_keeps
  exact (e.trans (W4_in m ρ c 3 rfl)).trans (in0_3 m ρ c)

theorem in1_4 (c : Dev nD) :
    V5 m ρ c (Pipeline.arrRef spec1 4)
      = extractStridedSlice S128x256 ![128, 0] (m ((c.tc : Thread nD τ).loc main_arg4)) slices_S384x256_S128x256_128_0 := by
  have e : W5 m ρ c (Proc.devRef .tc main_v3) = W4 m ρ c (Proc.devRef .tc main_v3) := by host_keeps
  exact (e.trans (W4_in m ρ c 4 rfl)).trans (in0_4 m ρ c)

theorem in1_5 (c : Dev nD) :
    V5 m ρ c (Pipeline.arrRef spec1 5)
      = extractStridedSlice S128x256 ![256, 0] (m ((c.tc : Thread nD τ).loc main_arg4)) slices_S384x256_S128x256_256_0 := by
  have e : W5 m ρ c (Proc.devRef .tc main_v4) = W4 m ρ c (Proc.devRef .tc main_v4) := by host_keeps
  exact (e.trans (W4_in m ρ c 5 rfl)).trans (in0_5 m ρ c)

theorem in1_6 (c : Dev nD) :
    V5 m ρ c (Pipeline.arrRef spec1 6)
      = shapeCast S1x256 (m ((c.tc : Thread nD τ).loc main_arg5)) shapeCasts_S256_S1x256 := by
  have e : W5 m ρ c (Proc.devRef .tc main_v5) = W4 m ρ c (Proc.devRef .tc main_v5) := by host_keeps
  exact (e.trans (W4_in m ρ c 6 rfl)).trans (in0_6 m ρ c)

/-! ## Between the regions: scale and shift from the accumulated sums -/

/-- An argument that is no array of the first region comes out of it as launched. -/
theorem W4_arg (c : Dev nD) (b : Ref sig .tc) (hw : ∀ w, Pipeline.arrRef spec0 w ≠ b)
    (h3 : W3 m ρ c (Proc.devRef .tc b) = m ((c.tc : Thread nD τ).loc b)) :
    W4 m ρ c (Proc.devRef .tc b) = m ((c.tc : Thread nD τ).loc b) :=
  (W4_of_ne m ρ c b hw).trans h3

theorem in1_7 (c : Dev nD) :
    V5 m ρ c (Pipeline.arrRef spec1 7)
      = scaleRow ((dat0 (V3 m ρ) c).arrAt 7 cfg0.N) ((dat0 (V3 m ρ) c).arrAt 8 cfg0.N)
          (m ((c.tc : Thread nD τ).loc main_arg6)) := by
  have h7 : W4 m ρ c (Proc.devRef .tc main_v6_0) = (dat0 (V3 m ρ) c).arrAt 7 cfg0.N := W4_arr m ρ c 7
  have h8 : W4 m ρ c (Proc.devRef .tc main_v6_1) = (dat0 (V3 m ρ) c).arrAt 8 cfg0.N := W4_arr m ρ c 8
  refine (scale_of (W4 m ρ c)).trans ?_
  rw [h7, h8, W4_arg m ρ c main_arg6 (by decide) (W3_arg6 m ρ c)]

theorem in1_8 (c : Dev nD) :
    V5 m ρ c (Pipeline.arrRef spec1 8)
      = shiftRow ((dat0 (V3 m ρ) c).arrAt 7 cfg0.N) ((dat0 (V3 m ρ) c).arrAt 8 cfg0.N)
          (m ((c.tc : Thread nD τ).loc main_arg6)) (m ((c.tc : Thread nD τ).loc main_arg7)) := by
  have h7 : W4 m ρ c (Proc.devRef .tc main_v6_0) = (dat0 (V3 m ρ) c).arrAt 7 cfg0.N := W4_arr m ρ c 7
  have h8 : W4 m ρ c (Proc.devRef .tc main_v6_1) = (dat0 (V3 m ρ) c).arrAt 8 cfg0.N := W4_arr m ρ c 8
  refine (shift_of (W4 m ρ c)).trans ?_
  rw [h7, h8, W4_arg m ρ c main_arg6 (by decide) (W3_arg6 m ρ c), W4_arg m ρ c main_arg7 (by decide) (W3_arg7 m ρ c)]

/-- The mean row at a column: the two partial sums added from zero, over the number of rows. -/
theorem avgRow_apply (s : FVec Ideal S2x1x256 .f32) (j : Fin 256) :
    avgRow s (ix2 0 j) = Ideal.div (zero + ∑ g : Fin 2, s (ix3 g 0 j)) nEdges := by
  have hred : Shape.Reduces S2x1x256 [0] S1x256 := by decide
  have hsum : Ideal.hostReduceAdd reducesTo_S2x1x256_S1x256_d0 s zero (ix2 0 j) = zero + ∑ g : Fin 2, s (ix3 g 0 j) := by
    rw [Ideal.hostReduceAdd_single reducesTo_S2x1x256_S1x256_d0 hred s zero (ix2 0 j)]
    refine congrArg (zero + ·) (Finset.sum_congr rfl fun g _ => congrArg s ?_)
    funext d
    match d with
    | ⟨0, _⟩ => exact Fin.ext rfl
    | ⟨1, _⟩ => exact Fin.ext rfl
    | ⟨2, _⟩ => exact Fin.ext rfl
  have hn : broadcastInDim S1x256 ![] bcast_S_S1x256 (constant (F := Ideal) S_ .f32 0x48EA6000#32) (ix2 0 j) = nEdges :=
    StableHlo.Predicate.bcast_scalar bcast_S_S1x256 h_S_ _ _
  show Ideal.div (Ideal.hostReduceAdd reducesTo_S2x1x256_S1x256_d0 s zero (ix2 0 j))
    (broadcastInDim S1x256 ![] bcast_S_S1x256 (constant (F := Ideal) S_ .f32 0x48EA6000#32) (ix2 0 j)) = _
  rw [hsum, hn]

theorem scaleRow_apply (s7 s8 : FVec Ideal S2x1x256 .f32) (γ : FVec Ideal S256 .f32) (j : Fin 256) :
    scaleRow s7 s8 γ (ix2 0 j)
      = γ (ix1 j) * Ideal.rsqrt ((Ideal.div (zero + ∑ g : Fin 2, s8 (ix3 g 0 j)) nEdges
          - Ideal.div (zero + ∑ g : Fin 2, s7 (ix3 g 0 j)) nEdges * Ideal.div (zero + ∑ g : Fin 2, s7 (ix3 g 0 j)) nEdges)
          + eps) := by
  have hε : broadcastInDim S1x256 ![] bcast_S_S1x256 (constant (F := Ideal) S_ .f32 0x3727C5AC#32) (ix2 0 j) = eps :=
    StableHlo.Predicate.bcast_scalar bcast_S_S1x256 h_S_ _ _
  show shapeCast S1x256 γ shapeCasts_S256_S1x256 (ix2 0 j)
      * Ideal.rsqrt ((avgRow s8 (ix2 0 j) - avgRow s7 (ix2 0 j) * avgRow s7 (ix2 0 j))
        + broadcastInDim S1x256 ![] bcast_S_S1x256 (constant (F := Ideal) S_ .f32 0x3727C5AC#32) (ix2 0 j)) = _
  rw [ValueIdx.shapeCast_a_1a_apply, avgRow_apply, avgRow_apply, hε]

theorem shiftRow_apply (s7 s8 : FVec Ideal S2x1x256 .f32) (γ β : FVec Ideal S256 .f32) (j : Fin 256) :
    shiftRow s7 s8 γ β (ix2 0 j)
      = β (ix1 j) - Ideal.div (zero + ∑ g : Fin 2, s7 (ix3 g 0 j)) nEdges * scaleRow s7 s8 γ (ix2 0 j) := by
  show shapeCast S1x256 β shapeCasts_S256_S1x256 (ix2 0 j) - avgRow s7 (ix2 0 j) * scaleRow s7 s8 γ (ix2 0 j) = _
  rw [ValueIdx.shapeCast_a_1a_apply, avgRow_apply]

/-! ## After the second region -/

/-- An argument that is an array of neither region reaches the second region's exit as launched. -/
theorem W6_arg (c : Dev nD) (b : Ref sig .tc) (hw0 : ∀ w, Pipeline.arrRef spec0 w ≠ b)
    (hw1 : ∀ w, Pipeline.arrRef spec1 w ≠ b)
    (h1 : W5 m ρ c (Proc.devRef .tc b) = W4 m ρ c (Proc.devRef .tc b))
    (h3 : W3 m ρ c (Proc.devRef .tc b) = m ((c.tc : Thread nD τ).loc b)) :
    W6 m ρ c (Proc.devRef .tc b) = m ((c.tc : Thread nD τ).loc b) :=
  ((W6_of_ne m ρ c b hw1).trans h1).trans (W4_arg m ρ c b hw0 h3)

theorem out (c : Dev nD) :
    W8 m ρ c (Proc.devRef .tc main_v28)
      = tail (m ((c.tc : Thread nD τ).loc main_arg0)) (m ((c.tc : Thread nD τ).loc main_arg3))
          ((dat1 (V5 m ρ) c).arrAt 9 cfg1.N) := by
  have h0 : W6 m ρ c (Proc.devRef .tc main_arg0) = m ((c.tc : Thread nD τ).loc main_arg0) :=
    W6_arg m ρ c main_arg0 (by decide) (by decide) (by host_keeps) (W3_arg0 m ρ c)
  have h3 : W6 m ρ c (Proc.devRef .tc main_arg3) = m ((c.tc : Thread nD τ).loc main_arg3) :=
    W6_arg m ρ c main_arg3 (by decide) (by decide) (by host_keeps) (W3_arg3 m ρ c)
  have h23 : W6 m ρ c (Proc.devRef .tc main_v23) = (dat1 (V5 m ρ) c).arrAt 9 cfg1.N := W6_arr m ρ c 9
  refine (tail_of (W6 m ρ c)).trans ?_
  rw [h0, h3, h23]

end Cert.KernelIdeal.HostValue

end
-- ==== Proof.StatsValue.lean ====
/-
  Region 0: the two accumulated outputs, read index by index.
-/
import proofs.«412280_j46102178955276_1_alg».proof.Proof.Gen.KernelIdeal.Frame
import proofs.«412280_j46102178955276_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx (ix1 ix2 ix3)

namespace Cert.KernelIdeal.StatsValue

open Cert.KernelIdeal Cert.KernelIdeal.Gen Cert.EdgeLayer

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from a group's first position the body leaves in output 7's buffer, which held `xo7`, the one store's
    payload: the buffer's contents plus the column sums of the block's linear layer. -/
theorem piece_B_7 (c : Dev nD) (i : grid0.Coords) (a2 : Memref sig .tc .vmem S2400x128 .f32) (h2 : a2.IsWhole)
    (a3 : Memref sig .tc .vmem S2400x128 .f32) (h3 : a3.IsWhole) (a4 : Memref sig .tc .vmem S2400x128 .f32) (h4 : a4.IsWhole)
    (a5 : Memref sig .tc .vmem S128x256 .f32) (h5 : a5.IsWhole) (a6 : Memref sig .tc .vmem S128x256 .f32) (h6 : a6.IsWhole)
    (a7 : Memref sig .tc .vmem S128x256 .f32) (h7 : a7.IsWhole) (a8 : Memref sig .tc .vmem S1x256 .f32) (h8 : a8.IsWhole)
    (a9 : Memref sig .tc .vmem S1x1x256 .f32) (h9 : a9.IsWhole) (a10 : Memref sig .tc .vmem S1x1x256 .f32) (h10 : a10.IsWhole)
    (hc : ¬cond0_0 i) (x0 x1 x2 : Vec F S2400x128 .f32) (x3 x4 x5 : Vec F S128x256 .f32) (x6 : Vec F S1x256 .f32) (xo7 xo8 : Vec F S1x1x256 .f32) :
    out0_B_7 c i a2 h2 a3 h3 a4 h4 a5 h5 a6 h6 a7 h7 a8 h8 a9 h9 a10 h10 hc x0 x1 x2 x3 x4 x5 x6 xo7 xo8
      = k0_pay1 (k0_pay6 x0 x1 x2 x3 x4 x5 x6 xo7) := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xo7 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread,
    View.ld_unit_zero (S := S2400x128) hz2, View.ld_unit_zero (S := S128x256) hz2, View.ld_unit_zero (S := S1x256) hz2, View.ld_unit_zero (S := S1x1x256) hz3]

/-- The same for output 8, which held `xo8`: plus the column sums of the squares. -/
theorem piece_B_8 (c : Dev nD) (i : grid0.Coords) (a2 : Memref sig .tc .vmem S2400x128 .f32) (h2 : a2.IsWhole)
    (a3 : Memref sig .tc .vmem S2400x128 .f32) (h3 : a3.IsWhole) (a4 : Memref sig .tc .vmem S2400x128 .f32) (h4 : a4.IsWhole)
    (a5 : Memref sig .tc .vmem S128x256 .f32) (h5 : a5.IsWhole) (a6 : Memref sig .tc .vmem S128x256 .f32) (h6 : a6.IsWhole)
    (a7 : Memref sig .tc .vmem S128x256 .f32) (h7 : a7.IsWhole) (a8 : Memref sig .tc .vmem S1x256 .f32) (h8 : a8.IsWhole)
    (a9 : Memref sig .tc .vmem S1x1x256 .f32) (h9 : a9.IsWhole) (a10 : Memref sig .tc .vmem S1x1x256 .f32) (h10 : a10.IsWhole)
    (hc : ¬cond0_0 i) (x0 x1 x2 : Vec F S2400x128 .f32) (x3 x4 x5 : Vec F S128x256 .f32) (x6 : Vec F S1x256 .f32) (xo7 xo8 : Vec F S1x1x256 .f32) :
    out0_B_8 c i a2 h2 a3 h3 a4 h4 a5 h5 a6 h6 a7 h7 a8 h8 a9 h9 a10 h10 hc x0 x1 x2 x3 x4 x5 x6 xo7 xo8
      = k0_pay2 (k0_pay5 x0 x1 x2 x3 x4 x5 x6) xo8 := by
  unfold out0_B_8
  rw [View.read_writes_eq_canon _ _ _ (cover0_B_8 c i a2 h2 a3 h3 a4 h4 a5 h5 a6 h6 a7 h7 a8 h8 a9 h9 a10 h10 hc x0 x1 x2 x3 x4 x5 x6 xo7 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread,
    View.ld_unit_zero (S := S2400x128) hz2, View.ld_unit_zero (S := S128x256) hz2, View.ld_unit_zero (S := S1x256) hz2, View.ld_unit_zero (S := S1x1x256) hz3]

/-- At a group's first position the body first stores the zero block, reads it back, and leaves zero plus the
    column sums. -/
theorem piece_A_7 (c : Dev nD) (i : grid0.Coords) (a2 : Memref sig .tc .vmem S2400x128 .f32) (h2 : a2.IsWhole)
    (a3 : Memref sig .tc .vmem S2400x128 .f32) (h3 : a3.IsWhole) (a4 : Memref sig .tc .vmem S2400x128 .f32) (h4 : a4.IsWhole)
    (a5 : Memref sig .tc .vmem S128x256 .f32) (h5 : a5.IsWhole) (a6 : Memref sig .tc .vmem S128x256 .f32) (h6 : a6.IsWhole)
    (a7 : Memref sig .tc .vmem S128x256 .f32) (h7 : a7.IsWhole) (a8 : Memref sig .tc .vmem S1x256 .f32) (h8 : a8.IsWhole)
    (a9 : Memref sig .tc .vmem S1x1x256 .f32) (h9 : a9.IsWhole) (a10 : Memref sig .tc .vmem S1x1x256 .f32) (h10 : a10.IsWhole)
    (hc : cond0_0 i) (x0 x1 x2 : Vec F S2400x128 .f32) (x3 x4 x5 : Vec F S128x256 .f32) (x6 : Vec F S1x256 .f32) :
    out0_A_7 c i a2 h2 a3 h3 a4 h4 a5 h5 a6 h6 a7 h7 a8 h8 a9 h9 a10 h10 hc x0 x1 x2 x3 x4 x5 x6
      = k0_pay1 (k0_pay6 x0 x1 x2 x3 x4 x5 x6 k0_pay3) := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, h7.read_unread, h8.read_unread, h9.read_unread, h10.read_unread,
    View.ld_unit_zero (S := S2400x128) hz2, View.ld_unit_zero (S := S128x256) hz2, View.ld_unit_zero (S := S1x256) hz2, View.ld_unit_zero (S := S1x1x256) hz3]

theorem piece_A_8 (c : Dev nD) (i : grid0.Coords) (a2 : Memref sig .tc .vmem S2400x128 .f32) (h2 : a2.IsWhole)
    (a3 : Memref sig .tc .vmem S2400x128 .f32) (h3 : a3.IsWhole) (a4 : Memref sig .tc .vmem S2400x128 .f32) (h4 : a4.IsWhole)
    (a5 : Memref sig .tc .vmem S128x256 .f32) (h5 : a5.IsWhole) (a6 : Memref sig .tc .vmem S128x256 .f32) (h6 : a6.IsWhole)
    (a7 : Memref sig .tc .vmem S128x256 .f32) (h7 : a7.IsWhole) (a8 : Memref sig .tc .vmem S1x256 .f32) (h8 : a8.IsWhole)
    (a9 : Memref sig .tc .vmem S1x1x256 .f32) (h9 : a9.IsWhole) (a10 : Memref sig .tc .vmem S1x1x256 .f32) (h10 : a10.IsWhole)
    (hc : cond0_0 i) (x0 x1 x2 : Vec F S2400x128 .f32) (x3 x4 x5 : Vec F S128x256 .f32) (x6 : Vec F S1x256 .f32) :
    out0_A_8 c i a2 h2 a3 h3 a4 h4 a5 h5 a6 h6 a7 h7 a8 h8 a9 h9 a10 h10 hc x0 x1 x2 x3 x4 x5 x6
      = k0_pay2 (k0_pay5 x0 x1 x2 x3 x4 x5 x6) k0_pay4 := by
  unfold out0_A_8
  rw [View.read_writes_eq_canon _ _ _ (cover0_A_8 c i a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, h7.read_unread, h8.read_unread, h9.read_unread, h10.read_unread,
    View.ld_unit_zero (S := S2400x128) hz2, View.ld_unit_zero (S := S128x256) hz2, View.ld_unit_zero (S := S1x256) hz2, View.ld_unit_zero (S := S1x1x256) hz3]

end Pieces

section Payloads

/-! ## The body's arithmetic read at an index, at the ideal values -/

theorem lhs_dot_0 (i : S2400x256.Idx) (q : dot_S2400x128_S128x256_S2400x256_1_0_0_1_n_n.contr.Idx) :
    (dot_S2400x128_S128x256_S2400x256_1_0_0_1_n_n.lhsIdx i q 0).val = (i 0).val := by
  unfold DotDims.lhsIdx
  rw [dif_neg (show ¬(0 : Fin S2400x128.rank) ∈ dot_S2400x128_S128x256_S2400x256_1_0_0_1_n_n.lhsBatch by decide), dif_pos (show (0 : Fin S2400x128.rank) ∈ dot_S2400x128_S128x256_S2400x256_1_0_0_1_n_n.lhsNonContracting by decide)]
  rfl
theorem lhs_dot_1 (i : S2400x256.Idx) (q : dot_S2400x128_S128x256_S2400x256_1_0_0_1_n_n.contr.Idx) :
    (dot_S2400x128_S128x256_S2400x256_1_0_0_1_n_n.lhsIdx i q 1).val = (q ⟨0, by decide⟩).val :=
  dot_S2400x128_S128x256_S2400x256_1_0_0_1_n_n.lhsIdx_val_of_single rfl i q
theorem rhs_dot_0 (i : S2400x256.Idx) (q : dot_S2400x128_S128x256_S2400x256_1_0_0_1_n_n.contr.Idx) :
    (dot_S2400x128_S128x256_S2400x256_1_0_0_1_n_n.rhsIdx i q 0).val = (q ⟨0, by decide⟩).val :=
  dot_S2400x128_S128x256_S2400x256_1_0_0_1_n_n.rhsIdx_val_of_single rfl i q
theorem rhs_dot_1 (i : S2400x256.Idx) (q : dot_S2400x128_S128x256_S2400x256_1_0_0_1_n_n.contr.Idx) :
    (dot_S2400x128_S128x256_S2400x256_1_0_0_1_n_n.rhsIdx i q 1).val = (i 1).val := by
  unfold DotDims.rhsIdx
  rw [dif_neg (show ¬(1 : Fin S128x256.rank) ∈ dot_S2400x128_S128x256_S2400x256_1_0_0_1_n_n.rhsBatch by decide), dif_pos (show (1 : Fin S128x256.rank) ∈ dot_S2400x128_S128x256_S2400x256_1_0_0_1_n_n.rhsNonContracting by decide)]
  rfl

/-- A block times a weight into the zero accumulator: entry (q, j) is the row-by-column product. -/
theorem matmul_zero_apply {φ₁ φ₂ : FTy} (x : FVec Ideal S2400x128 φ₁) (w : FVec Ideal S128x256 φ₂) (q : Fin 2400) (j : Fin 256) :
    matmul dot_S2400x128_S128x256_S2400x256_1_0_0_1_n_n none x w (constant (F := Ideal) S2400x256 .f32 0x00000000#32) (ix2 q j)
      = ∑ k : Fin 128, x (ix2 q k) * w (ix2 k j) := by
  simp only [matmul]
  rw [Ideal.matmul_constant_zero_apply, ← Equiv.sum_comp (ValueIdx.contrEquiv1 dot_S2400x128_S128x256_S2400x256_1_0_0_1_n_n 128 rfl rfl).symm]
  refine Finset.sum_congr rfl fun k _ => ?_
  have hk := ValueIdx.contrEquiv1_symm_val dot_S2400x128_S128x256_S2400x256_1_0_0_1_n_n 128 rfl rfl k
  have el : dot_S2400x128_S128x256_S2400x256_1_0_0_1_n_n.lhsIdx (ix2 q j) ((ValueIdx.contrEquiv1 dot_S2400x128_S128x256_S2400x256_1_0_0_1_n_n 128 rfl rfl).symm k) = ix2 q k := funext fun a => Fin.ext (by
    match a with
    | ⟨0, _⟩ => exact lhs_dot_0 _ _
    | ⟨1, _⟩ => exact (lhs_dot_1 _ _).trans hk)
  have er : dot_S2400x128_S128x256_S2400x256_1_0_0_1_n_n.rhsIdx (ix2 q j) ((ValueIdx.contrEquiv1 dot_S2400x128_S128x256_S2400x256_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- The block of the linear layer: entry (q, j) is the three row-by-column products added left to right, then the bias. -/
theorem pay5_apply (x0 x1 x2 : Vec Ideal S2400x128 .f32) (x3 x4 x5 : Vec Ideal S128x256 .f32) (x6 : Vec Ideal S1x256 .f32)
    (q : Fin 2400) (j : Fin 256) :
    k0_pay5 x0 x1 x2 x3 x4 x5 x6 (ix2 q j)
      = ((∑ k : Fin 128, x0 (ix2 q k) * x3 (ix2 k j)) + (∑ k : Fin 128, x1 (ix2 q k) * x4 (ix2 k j))
          + ∑ k : Fin 128, x2 (ix2 q k) * x5 (ix2 k j)) + x6 (ix2 0 j) := by
  unfold k0_pay5
  simp only [shapeCast_self]
  rw [ValueIdx.addf_apply, ValueIdx.addf_apply, ValueIdx.addf_apply, matmul_zero_apply, matmul_zero_apply, matmul_zero_apply,
    ValueIdx.broadcastTo_1b_ab_apply]
  rfl

/-- A sum over the rows of a block, column by column. -/
theorem colsum_apply (v : FVec Ideal S2400x256 .f32) (hφ : FKind.Formats .f32) (hacc : (0x00000000#32 : BitVec 32) = 0x00000000#32) (j : Fin 256) :
    multiReduction .add [0] S256 v 0x00000000#32 reduces_S2400x256_S256 hφ hacc (ix1 j) = ∑ q : Fin 2400, v (ix2 q j) := by
  refine (Ideal.multiReduction_add_single v 0x00000000#32 reduces_S2400x256_S256 hφ hacc (ix1 j)).trans ?_
  refine Finset.sum_congr rfl fun q _ => congrArg v ?_
  funext a
  match a with
  | ⟨0, _⟩ => rfl
  | ⟨1, _⟩ => rfl

end Payloads

section Payloads2

/-- What the body stores into output 7: at column j, the buffer's entry plus the block's column sum. -/
theorem pay16_apply (x0 x1 x2 : Vec Ideal S2400x128 .f32) (x3 x4 x5 : Vec Ideal S128x256 .f32) (x6 : Vec Ideal S1x256 .f32)
    (acc : Vec Ideal S1x1x256 .f32) (j : Fin 256) :
    k0_pay1 (k0_pay6 x0 x1 x2 x3 x4 x5 x6 acc) (ix3 0 0 j)
      = acc (ix3 0 0 j) + ∑ q : Fin 2400, k0_pay5 x0 x1 x2 x3 x4 x5 x6 (ix2 q j) := by
  unfold k0_pay1 k0_pay6
  refine (ValueIdx.shapeCast_ab_1ab_apply _ _ 0 0 j).trans ?_
  refine (ValueIdx.addf_apply _ _ _).trans ?_
  refine congrArg₂ (· + ·) (ValueIdx.shapeCast_1ab_ab_apply _ _ 0 j) ?_
  refine (ValueIdx.shapeCast_a_1a_apply _ _ 0 j).trans ?_
  exact colsum_apply _ _ _ j

/-- What the body stores into output 8: the buffer's entry plus the column sum of the squares. -/
theorem pay2_apply (v : FVec Ideal S2400x256 .f32) (acc : Vec Ideal S1x1x256 .f32) (j : Fin 256) :
    k0_pay2 v acc (ix3 0 0 j) = acc (ix3 0 0 j) + ∑ q : Fin 2400, v (ix2 q j) * v (ix2 q j) := by
  unfold k0_pay2
  refine (ValueIdx.shapeCast_ab_1ab_apply _ _ 0 0 j).trans ?_
  refine (ValueIdx.addf_apply _ _ _).trans ?_
  refine congrArg₂ (· + ·) (ValueIdx.shapeCast_1ab_ab_apply _ _ 0 j) ?_
  refine (ValueIdx.shapeCast_a_1a_apply _ _ 0 j).trans ?_
  refine (colsum_apply _ _ _ j).trans ?_
  rfl

/-- The block a group's first position stores first is zero everywhere. -/
theorem pay3_apply (j : Fin 256) : (k0_pay3 (F := Ideal)) (ix3 0 0 j) = zero := by
  unfold k0_pay3
  refine (ValueIdx.shapeCast_ab_1ab_apply _ _ 0 0 j).trans ?_
  rfl
theorem pay4_apply (j : Fin 256) : (k0_pay4 (F := Ideal)) (ix3 0 0 j) = zero := by
  unfold k0_pay4
  refine (ValueIdx.shapeCast_ab_1ab_apply _ _ 0 0 j).trans ?_
  rfl

end Payloads2

variable (V : (c : Dev nD) → (b : Ref sig .tc) → Buf (Elt Ideal) ((c : Thread nD τ).loc b))

/-- The seven arrays the region reads, as it finds them. -/
abbrev aS (c : Dev nD) : Vec Ideal S480000x128 .f32 := V c (Pipeline.arrRef spec0 0)
abbrev aD (c : Dev nD) : Vec Ideal S480000x128 .f32 := V c (Pipeline.arrRef spec0 1)
abbrev aE (c : Dev nD) : Vec Ideal S480000x128 .f32 := V c (Pipeline.arrRef spec0 2)
abbrev aW1 (c : Dev nD) : Vec Ideal S128x256 .f32 := V c (Pipeline.arrRef spec0 3)
abbrev aW2 (c : Dev nD) : Vec Ideal S128x256 .f32 := V c (Pipeline.arrRef spec0 4)
abbrev aW3 (c : Dev nD) : Vec Ideal S128x256 .f32 := V c (Pipeline.arrRef spec0 5)
abbrev aB (c : Dev nD) : Vec Ideal S1x256 .f32 := V c (Pipeline.arrRef spec0 6)

/-- The linear layer of those arrays: row r, column j. -/
def z (c : Dev nD) : Fin 480000 → Fin 256 → EReal :=
  lin3 (cur2 (aS V c)) (cur2 (aD V c)) (cur2 (aE V c)) (cur2 (aW1 V c)) (cur2 (aW2 V c)) (cur2 (aW3 V c))
    (fun j => aB V c (ix2 0 j))

/-! ## The blocks the body reads, and what they are of the arrays -/

/-- The blocks the body reads at position `t`, by their literal types. -/
abbrev bS (c : Dev nD) (t : Fin cfg0.N) : Vec Ideal S2400x128 .f32 := iblk0 V c 0 t
abbrev bD (c : Dev nD) (t : Fin cfg0.N) : Vec Ideal S2400x128 .f32 := iblk0 V c 1 t
abbrev bE (c : Dev nD) (t : Fin cfg0.N) : Vec Ideal S2400x128 .f32 := iblk0 V c 2 t
abbrev bW1 (c : Dev nD) (t : Fin cfg0.N) : Vec Ideal S128x256 .f32 := iblk0 V c 3 t
abbrev bW2 (c : Dev nD) (t : Fin cfg0.N) : Vec Ideal S128x256 .f32 := iblk0 V c 4 t
abbrev bW3 (c : Dev nD) (t : Fin cfg0.N) : Vec Ideal S128x256 .f32 := iblk0 V c 5 t
abbrev bB (c : Dev nD) (t : Fin cfg0.N) : Vec Ideal S1x256 .f32 := iblk0 V c 6 t

/-- The block indices of the seven input windows at every position: the three row-blocked arrays are at block `t`,
    the weights and the bias at block zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Row q of block `t` of a row-blocked array is row 2400·t + q of the array. -/
theorem bS_apply (c : Dev nD) (t : Fin cfg0.N) (q : Fin 2400) (k : Fin 128) (hq : 2400 * t.val + q.val < 480000) :
    bS V c t (ix2 q k) = aS V c (ix2 ⟨2400 * t.val + q.val, hq⟩ k) := by
  obtain ⟨⟨s0, s1⟩, ⟨d0, d1⟩, ⟨e0, e1⟩, -⟩ := idx_facts t
  unfold bS iblk0
  rw [View.read_apply]
  show V c (Pipeline.arrRef spec0 0) _ = V c (Pipeline.arrRef spec0 0) _
  congr 1
  funext a
  apply Fin.ext
  match a with
  | ⟨0, _⟩ => show win0_0.index t 0 * 2400 + 1 * q.val = 2400 * t.val + q.val; rw [s0]; omega
  | ⟨1, _⟩ => show win0_0.index t 1 * 128 + 1 * k.val = k.val; rw [s1]; omega

theorem bD_apply (c : Dev nD) (t : Fin cfg0.N) (q : Fin 2400) (k : Fin 128) (hq : 2400 * t.val + q.val < 480000) :
    bD V c t (ix2 q k) = aD V c (ix2 ⟨2400 * t.val + q.val, hq⟩ k) := by
  obtain ⟨⟨s0, s1⟩, ⟨d0, d1⟩, ⟨e0, e1⟩, -⟩ := idx_facts t
  unfold bD iblk0
  rw [View.read_apply]
  show V c (Pipeline.arrRef spec0 1) _ = V c (Pipeline.arrRef spec0 1) _
  congr 1
  funext a
  apply Fin.ext
  match a with
  | ⟨0, _⟩ => show win0_1.index t 0 * 2400 + 1 * q.val = 2400 * t.val + q.val; rw [d0]; omega
  | ⟨1, _⟩ => show win0_1.index t 1 * 128 + 1 * k.val = k.val; rw [d1]; omega

theorem bE_apply (c : Dev nD) (t : Fin cfg0.N) (q : Fin 2400) (k : Fin 128) (hq : 2400 * t.val + q.val < 480000) :
    bE V c t (ix2 q k) = aE V c (ix2 ⟨2400 * t.val + q.val, hq⟩ k) := by
  obtain ⟨⟨s0, s1⟩, ⟨d0, d1⟩, ⟨e0, e1⟩, -⟩ := idx_facts t
  unfold bE iblk0
  rw [View.read_apply]
  show V c (Pipeline.arrRef spec0 2) _ = V c (Pipeline.arrRef spec0 2) _
  congr 1
  funext a
  apply Fin.ext
  match a with
  | ⟨0, _⟩ => show win0_2.index t 0 * 2400 + 1 * q.val = 2400 * t.val + q.val; rw [e0]; omega
  | ⟨1, _⟩ => show win0_2.index t 1 * 128 + 1 * k.val = k.val; rw [e1]; omega

/-- A weight's one block is the weight. -/
theorem bW1_apply (c : Dev nD) (t : Fin cfg0.N) (k : Fin 128) (j : Fin 256) :
    bW1 V c t (ix2 k j) = aW1 V c (ix2 k j) := by
  obtain ⟨-, -, -, ⟨p0, p1⟩, ⟨q0, q1⟩, ⟨r0, r1⟩, -⟩ := idx_facts t
  unfold bW1 iblk0
  rw [View.read_apply]
  show V c (Pipeline.arrRef spec0 3) _ = V c (Pipeline.arrRef spec0 3) _
  congr 1
  funext a
  apply Fin.ext
  match a with
  | ⟨0, _⟩ => show win0_3.index t 0 * 128 + 1 * k.val = k.val; rw [p0]; omega
  | ⟨1, _⟩ => show win0_3.index t 1 * 256 + 1 * j.val = j.val; rw [p1]; omega

theorem bW2_apply (c : Dev nD) (t : Fin cfg0.N) (k : Fin 128) (j : Fin 256) :
    bW2 V c t (ix2 k j) = aW2 V c (ix2 k j) := by
  obtain ⟨-, -, -, ⟨p0, p1⟩, ⟨q0, q1⟩, ⟨r0, r1⟩, -⟩ := idx_facts t
  unfold bW2 iblk0
  rw [View.read_apply]
  show V c (Pipeline.arrRef spec0 4) _ = V c (Pipeline.arrRef spec0 4) _
  congr 1
  funext a
  apply Fin.ext
  match a with
  | ⟨0, _⟩ => show win0_4.index t 0 * 128 + 1 * k.val = k.val; rw [q0]; omega
  | ⟨1, _⟩ => show win0_4.index t 1 * 256 + 1 * j.val = j.val; rw [q1]; omega

theorem bW3_apply (c : Dev nD) (t : Fin cfg0.N) (k : Fin 128) (j : Fin 256) :
    bW3 V c t (ix2 k j) = aW3 V c (ix2 k j) := by
  obtain ⟨-, -, -, ⟨p0, p1⟩, ⟨q0, q1⟩, ⟨r0, r1⟩, -⟩ := idx_facts t
  unfold bW3 iblk0
  rw [View.read_apply]
  show V c (Pipeline.arrRef spec0 5) _ = V c (Pipeline.arrRef spec0 5) _
  congr 1
  funext a
  apply Fin.ext
  match a with
  | ⟨0, _⟩ => show win0_5.index t 0 * 128 + 1 * k.val = k.val; rw [r0]; omega
  | ⟨1, _⟩ => show win0_5.index t 1 * 256 + 1 * j.val = j.val; rw [r1]; omega

/-- The bias row's one block is the bias row. -/
theorem bB_apply (c : Dev nD) (t : Fin cfg0.N) (j : Fin 256) :
    bB V c t (ix2 0 j) = aB V c (ix2 0 j) := by
  obtain ⟨-, -, -, -, -, -, ⟨b0, b1⟩⟩ := idx_facts t
  unfold bB iblk0
  rw [View.read_apply]
  show V c (Pipeline.arrRef spec0 6) _ = V c (Pipeline.arrRef spec0 6) _
  congr 1
  funext a
  apply Fin.ext
  match a with
  | ⟨0, _⟩ => show win0_6.index t 0 * 1 + 1 * 0 = 0; rw [b0]
  | ⟨1, _⟩ => show win0_6.index t 1 * 256 + 1 * j.val = j.val; rw [b1]; omega

/-! ## The body's linear layer on block `t` is rows 2400·t … 2400·t + 2399 of z -/

theorem zblk_apply (c : Dev nD) (t : Fin cfg0.N) (q : Fin 2400) (j : Fin 256) (hq : 2400 * t.val + q.val < 480000) :
    k0_pay5 (bS V c t) (bD V c t) (bE V c t) (bW1 V c t) (bW2 V c t) (bW3 V c t) (bB V c t) (ix2 q j) = z V c ⟨2400 * t.val + q.val, hq⟩ j := by
  refine (pay5_apply _ _ _ _ _ _ _ q j).trans ?_
  unfold z lin3
  refine congrArg₂ (· + ·) (congrArg₂ (· + ·) (congrArg₂ (· + ·) (Finset.sum_congr rfl fun k _ => ?_)
    (Finset.sum_congr rfl fun k _ => ?_)) (Finset.sum_congr rfl fun k _ => ?_)) (bB_apply V c t j)
  · exact congrArg₂ (· * ·) (bS_apply V c t q k hq) (bW1_apply V c t k j)
  · exact congrArg₂ (· * ·) (bD_apply V c t q k hq) (bW2_apply V c t k j)
  · exact congrArg₂ (· * ·) (bE_apply V c t q k hq) (bW3_apply V c t k j)

/-- Its column sum is the sum of z over block `t`'s rows. -/
theorem zsum_eq (c : Dev nD) (t : Fin cfg0.N) (j : Fin 256) :
    ∑ q : Fin 2400, k0_pay5 (bS V c t) (bD V c t) (bE V c t) (bW1 V c t) (bW2 V c t) (bW3 V c t) (bB V c t) (ix2 q j) = blockSum (fun r => z V c r j) t.val := by
  have hN : t.val < 200 := lt_of_lt_of_eq t.isLt (show cfg0.N = 200 from N_0)
  unfold blockSum
  rw [dif_pos hN]
  exact Finset.sum_congr rfl fun q _ => zblk_apply V c t q j _

/-- The column sum of its squares is the sum of z² over block `t`'s rows. -/
theorem zsqsum_eq (c : Dev nD) (t : Fin cfg0.N) (j : Fin 256) :
    ∑ q : Fin 2400, k0_pay5 (bS V c t) (bD V c t) (bE V c t) (bW1 V c t) (bW2 V c t) (bW3 V c t) (bB V c t) (ix2 q j) * k0_pay5 (bS V c t) (bD V c t) (bE V c t) (bW1 V c t) (bW2 V c t) (bW3 V c t) (bB V c t) (ix2 q j)
      = blockSum (fun r => z V c r j * z V c r j) t.val := by
  have hN : t.val < 200 := lt_of_lt_of_eq t.isLt (show cfg0.N = 200 from N_0)
  unfold blockSum
  rw [dif_pos hN]
  exact Finset.sum_congr rfl fun q _ => by rw [zblk_apply V c t q j _]

/-! ## The accumulators after each position -/

theorem running_zero (g : ℕ → EReal) : running g 0 = zero + g 0 := rfl
theorem running_reset (g : ℕ → EReal) (n : ℕ) (h : (n + 1) % 100 = 0) : running g (n + 1) = zero + g (n + 1) := by
  show (if (n + 1) % 100 = 0 then zero + g (n + 1) else running g n + g (n + 1)) = _
  exact if_pos h
theorem running_step (g : ℕ → EReal) (n : ℕ) (h : ¬(n + 1) % 100 = 0) : running g (n + 1) = running g n + g (n + 1) := by
  show (if (n + 1) % 100 = 0 then zero + g (n + 1) else running g n + g (n + 1)) = _
  exact if_neg h

/-- At a group's first position output 7's buffer is left at zero plus the block's sum. -/
theorem first7 (c : Dev nD) (t : Fin cfg0.N) (h0 : t.val % 100 = 0) (j : Fin 256) :
    (outsAt0 V c t.val t.isLt).1 (ix3 0 0 j) = zero + blockSum (fun r => z V c r j) t.val := by
  rw [outsAt0_A V c t h0]
  dsimp only
  refine (congrFun (piece_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (bS V c t) (bD V c t) (bE V c t) (bW1 V c t) (bW2 V c t) (bW3 V c t) (bB V c t)) (ix3 0 0 j)).trans ?_
  refine (pay16_apply _ _ _ _ _ _ _ _ j).trans ?_
  rw [pay3_apply, zsum_eq]

theorem first8 (c : Dev nD) (t : Fin cfg0.N) (h0 : t.val % 100 = 0) (j : Fin 256) :
    (outsAt0 V c t.val t.isLt).2 (ix3 0 0 j) = zero + blockSum (fun r => z V c r j * z V c r j) t.val := by
  rw [outsAt0_A V c t h0]
  dsimp only
  refine (congrFun (piece_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (bS V c t) (bD V c t) (bE V c t) (bW1 V c t) (bW2 V c t) (bW3 V c t) (bB V c t)) (ix3 0 0 j)).trans ?_
  refine (pay2_apply _ _ j).trans ?_
  rw [pay4_apply, zsqsum_eq]

/-- At any other position it is left at what the position before left plus the block's sum. -/
theorem next7 (c : Dev nD) (n : ℕ) (hn : n + 1 < cfg0.N) (h0 : ¬(n + 1) % 100 = 0) (j : Fin 256) :
    (outsAt0 V c (n + 1) hn).1 (ix3 0 0 j)
      = (outsAt0 V c n (Nat.lt_of_succ_lt hn)).1 (ix3 0 0 j) + blockSum (fun r => z V c r j) (n + 1) := by
  rw [outsAt0_B V c ⟨n + 1, hn⟩ h0]
  dsimp only
  refine (congrFun (piece_B_7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (bS V c ⟨n + 1, hn⟩) (bD V c ⟨n + 1, hn⟩) (bE V c ⟨n + 1, hn⟩) (bW1 V c ⟨n + 1, hn⟩) (bW2 V c ⟨n + 1, hn⟩) (bW3 V c ⟨n + 1, hn⟩) (bB V c ⟨n + 1, hn⟩)
    (outsAt0 V c n (Nat.lt_of_succ_lt hn)).1 (outsAt0 V c n (Nat.lt_of_succ_lt hn)).2) (ix3 0 0 j)).trans ?_
  refine (pay16_apply _ _ _ _ _ _ _ _ j).trans ?_
  rw [zsum_eq]

theorem next8 (c : Dev nD) (n : ℕ) (hn : n + 1 < cfg0.N) (h0 : ¬(n + 1) % 100 = 0) (j : Fin 256) :
    (outsAt0 V c (n + 1) hn).2 (ix3 0 0 j)
      = (outsAt0 V c n (Nat.lt_of_succ_lt hn)).2 (ix3 0 0 j) + blockSum (fun r => z V c r j * z V c r j) (n + 1) := by
  rw [outsAt0_B V c ⟨n + 1, hn⟩ h0]
  dsimp only
  refine (congrFun (piece_B_8 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (bS V c ⟨n + 1, hn⟩) (bD V c ⟨n + 1, hn⟩) (bE V c ⟨n + 1, hn⟩) (bW1 V c ⟨n + 1, hn⟩) (bW2 V c ⟨n + 1, hn⟩) (bW3 V c ⟨n + 1, hn⟩) (bB V c ⟨n + 1, hn⟩)
    (outsAt0 V c n (Nat.lt_of_succ_lt hn)).1 (outsAt0 V c n (Nat.lt_of_succ_lt hn)).2) (ix3 0 0 j)).trans ?_
  refine (pay2_apply _ _ j).trans ?_
  rw [zsqsum_eq]

/-- So after position `n` output 7's buffer holds, at column j, the running sum of the blocks' sums of z. -/
theorem acc7 (c : Dev nD) (j : Fin 256) : ∀ (n : ℕ) (hn : n < cfg0.N),
    (outsAt0 V c n hn).1 (ix3 0 0 j) = running (blockSum fun r => z V c r j) n
  | 0, hn => first7 V c ⟨0, hn⟩ rfl j
  | n + 1, hn => by
    by_cases h0 : (n + 1) % 100 = 0
    · exact (first7 V c ⟨n + 1, hn⟩ h0 j).trans (running_reset _ n h0).symm
    · rw [next7 V c n hn h0 j, running_step _ n h0, acc7 c j n]

/-- And output 8's the running sum of the blocks' sums of z². -/
theorem acc8 (c : Dev nD) (j : Fin 256) : ∀ (n : ℕ) (hn : n < cfg0.N),
    (outsAt0 V c n hn).2 (ix3 0 0 j) = running (blockSum fun r => z V c r j * z V c r j) n
  | 0, hn => first8 V c ⟨0, hn⟩ rfl j
  | n + 1, hn => by
    by_cases h0 : (n + 1) % 100 = 0
    · exact (first8 V c ⟨n + 1, hn⟩ h0 j).trans (running_reset _ n h0).symm
    · rw [next8 V c n hn h0 j, running_step _ n h0, acc8 c j n]

/-! ## From the buffers to the arrays -/

/-- The block indices of the two output windows: row t / 100, the one block of the other two axes. -/
theorem idx_facts78 : ∀ t : Fin cfg0.N,
    (win0_7.index t (0 : Fin 3) = t.val / 100 ∧ win0_7.index t (1 : Fin 3) = 0 ∧ win0_7.index t (2 : Fin 3) = 0)
    ∧ (win0_8.index t (0 : Fin 3) = t.val / 100 ∧ win0_8.index t (1 : Fin 3) = 0 ∧ win0_8.index t (2 : Fin 3) = 0) :=
  (by decide +kernel : ∀ t : Fin grid0.N, _)

/-- What output 7's array ends holding: row g, column j is the accumulator after group g's last position. -/
def G7 (c : Dev nD) : Vec Ideal S2x1x256 .f32 :=
  fun i => running (blockSum fun r => z V c r (i 2)) (100 * (i 0).val + 99)
/-- The same for output 8, of z². -/
def G8 (c : Dev nD) : Vec Ideal S2x1x256 .f32 :=
  fun i => running (blockSum fun r => z V c r (i 2) * z V c r (i 2)) (100 * (i 0).val + 99)

theorem flushed7_at (c : Dev nD) (t : Fin cfg0.N) (h99 : t.val % 100 = 99) (y : S1x1x256.Idx) :
    (outsAt0 V c t.val t.isLt).1 y = G7 V c (((cfg0.win 7).blk t).view.emb y) := by
  have hN : t.val < 200 := lt_of_lt_of_eq t.isLt (show cfg0.N = 200 from N_0)
  obtain ⟨a, b, j, rfl⟩ : ∃ (a : Fin 1) (b : Fin 1) (j : Fin 256), y = ix3 a b j := ⟨y 0, y 1, y 2, ValueIdx.eq_ix3 y⟩
  obtain rfl : a = 0 := Subsingleton.elim _ _
  obtain rfl : b = 0 := Subsingleton.elim _ _
  have e0 := (idx_facts78 t).1
  have he : ((cfg0.win 7).blk t).view.emb (ix3 0 0 j) = (ix3 ⟨t.val / 100, by omega⟩ 0 j : S2x1x256.Idx) := by
    funext d
    apply Fin.ext
    match d with
    | ⟨0, _⟩ => show win0_7.index t 0 * 1 + 1 * 0 = t.val / 100; rw [e0.1]; omega
    | ⟨1, _⟩ => show win0_7.index t 1 * 1 + 1 * 0 = 0; rw [e0.2.1]
    | ⟨2, _⟩ => show win0_7.index t 2 * 256 + 1 * j.val = j.val; rw [e0.2.2]; omega
  rw [he, acc7 V c j t.val t.isLt]
  show _ = running (blockSum fun r => z V c r j) (100 * (t.val / 100) + 99)
  rw [show 100 * (t.val / 100) + 99 = t.val by omega]

theorem flushed8_at (c : Dev nD) (t : Fin cfg0.N) (h99 : t.val % 100 = 99) (y : S1x1x256.Idx) :
    (outsAt0 V c t.val t.isLt).2 y = G8 V c (((cfg0.win 8).blk t).view.emb y) := by
  have hN : t.val < 200 := lt_of_lt_of_eq t.isLt (show cfg0.N = 200 from N_0)
  obtain ⟨a, b, j, rfl⟩ : ∃ (a : Fin 1) (b : Fin 1) (j : Fin 256), y = ix3 a b j := ⟨y 0, y 1, y 2, ValueIdx.eq_ix3 y⟩
  obtain rfl : a = 0 := Subsingleton.elim _ _
  obtain rfl : b = 0 := Subsingleton.elim _ _
  have e0 := (idx_facts78 t).2
  have he : ((cfg0.win 8).blk t).view.emb (ix3 0 0 j) = (ix3 ⟨t.val / 100, by omega⟩ 0 j : S2x1x256.Idx) := by
    funext d
    apply Fin.ext
    match d with
    | ⟨0, _⟩ => show win0_8.index t 0 * 1 + 1 * 0 = t.val / 100; rw [e0.1]; omega
    | ⟨1, _⟩ => show win0_8.index t 1 * 1 + 1 * 0 = 0; rw [e0.2.1]
    | ⟨2, _⟩ => show win0_8.index t 2 * 256 + 1 * j.val = j.val; rw [e0.2.2]; omega
  rw [he, acc8 V c j t.val t.isLt]
  show _ = running (blockSum fun r => z V c r j * z V c r j) (100 * (t.val / 100) + 99)
  rw [show 100 * (t.val / 100) + 99 = t.val by omega]

/-- What a group's last position writes back is row g = t / 100 of that array. -/
theorem flushed7_eq (c : Dev nD) (t : Fin cfg0.N) (hf : (cfg0.win 7).flush t = true) :
    (dat0 V c).flushed 7 t = ((cfg0.win 7).blk t).view.read (Elt Ideal) (G7 V c) := by
  have hN : t.val < 200 := lt_of_lt_of_eq t.isLt (show cfg0.N = 200 from N_0)
  have h99 : t.val % 100 = 99 := (flush0_7 t).mp hf
  show (cfg0.win 7).cut (grid0.coords t) ((dat0 V c).after 7 t) = _
  rw [after0_7]
  exact funext fun y => flushed7_at V c t h99 y

/-- What a group's last position writes back is row g = t / 100 of that array. -/
theorem flushed8_eq (c : Dev nD) (t : Fin cfg0.N) (hf : (cfg0.win 8).flush t = true) :
    (dat0 V c).flushed 8 t = ((cfg0.win 8).blk t).view.read (Elt Ideal) (G8 V c) := by
  have hN : t.val < 200 := lt_of_lt_of_eq t.isLt (show cfg0.N = 200 from N_0)
  have h99 : t.val % 100 = 99 := (flush0_8 t).mp hf
  show (cfg0.win 8).cut (grid0.coords t) ((dat0 V c).after 8 t) = _
  rw [after0_8]
  exact funext fun y => flushed8_at V c t h99 y

/-- An index of output 7's array is in position `t`'s block iff each coordinate is in the block's range. -/
theorem mem_blk7 (t : Fin cfg0.N) (i : S2x1x256.Idx) :
    i ∈ ((cfg0.win 7).blk t).view.set ↔ ∀ a : Fin 3, win0_7.index t a * S1x1x256.size a ≤ (i a).val ∧ (i a).val < win0_7.index t a * S1x1x256.size a + S1x1x256.size a := by
  show i ∈ ((View.whole main_v6_0).slice (win0_7.rect t)).set ↔ _
  rw [View.set_slice_whole, Rect.mem_set_unit]
  exact Iff.rfl

/-- Row g is written back by position 100·g + 99, so the array ends as that function. -/
theorem final7 (c : Dev nD) : (dat0 V c).arrAt 7 cfg0.N = G7 V c :=
  (dat0 V c).arrAt_eq_of_cover 7 (G7 V c) (flushed7_eq V c) fun i => by
    have hi0 : (i 0).val < 2 := (i 0).isLt
    have hi1 : (i 1).val < 1 := (i 1).isLt
    have hi2 : (i 2).val < 256 := (i 2).isLt
    have hN : cfg0.N = 200 := N_0
    have e0 := (idx_facts78 ⟨100 * (i 0).val + 99, by omega⟩).1
    refine ⟨⟨100 * (i 0).val + 99, by omega⟩, (flush0_7 _).mpr (by dsimp only; omega), ?_⟩
    rw [mem_blk7]
    intro a
    match a with
    | ⟨0, _⟩ => show win0_7.index _ 0 * 1 ≤ (i 0).val ∧ (i 0).val < win0_7.index _ 0 * 1 + 1; rw [e0.1]; dsimp only; omega
    | ⟨1, _⟩ => show win0_7.index _ 1 * 1 ≤ (i 1).val ∧ (i 1).val < win0_7.index _ 1 * 1 + 1; rw [e0.2.1]; omega
    | ⟨2, _⟩ => show win0_7.index _ 2 * 256 ≤ (i 2).val ∧ (i 2).val < win0_7.index _ 2 * 256 + 256; rw [e0.2.2]; omega

/-- An index of output 8's array is in position `t`'s block iff each coordinate is in the block's range. -/
theorem mem_blk8 (t : Fin cfg0.N) (i : S2x1x256.Idx) :
    i ∈ ((cfg0.win 8).blk t).view.set ↔ ∀ a : Fin 3, win0_8.index t a * S1x1x256.size a ≤ (i a).val ∧ (i a).val < win0_8.index t a * S1x1x256.size a + S1x1x256.size a := by
  show i ∈ ((View.whole main_v6_1).slice (win0_8.rect t)).set ↔ _
  rw [View.set_slice_whole, Rect.mem_set_unit]
  exact Iff.rfl

/-- Row g is written back by position 100·g + 99, so the array ends as that function. -/
theorem final8 (c : Dev nD) : (dat0 V c).arrAt 8 cfg0.N = G8 V c :=
  (dat0 V c).arrAt_eq_of_cover 8 (G8 V c) (flushed8_eq V c) fun i => by
    have hi0 : (i 0).val < 2 := (i 0).isLt
    have hi1 : (i 1).val < 1 := (i 1).isLt
    have hi2 : (i 2).val < 256 := (i 2).isLt
    have hN : cfg0.N = 200 := N_0
    have e0 := (idx_facts78 ⟨100 * (i 0).val + 99, by omega⟩).2
    refine ⟨⟨100 * (i 0).val + 99, by omega⟩, (flush0_8 _).mpr (by dsimp only; omega), ?_⟩
    rw [mem_blk8]
    intro a
    match a with
    | ⟨0, _⟩ => show win0_8.index _ 0 * 1 ≤ (i 0).val ∧ (i 0).val < win0_8.index _ 0 * 1 + 1; rw [e0.1]; dsimp only; omega
    | ⟨1, _⟩ => show win0_8.index _ 1 * 1 ≤ (i 1).val ∧ (i 1).val < win0_8.index _ 1 * 1 + 1; rw [e0.2.1]; omega
    | ⟨2, _⟩ => show win0_8.index _ 2 * 256 ≤ (i 2).val ∧ (i 2).val < win0_8.index _ 2 * 256 + 256; rw [e0.2.2]; omega

/-- Output 7 ends holding, at group g and column j, the group's accumulated column sum of z. -/
theorem sums (c : Dev nD) (g : Fin 2) (j : Fin 256) :
    ((dat0 V c).arrAt 7 cfg0.N : Vec Ideal S2x1x256 .f32) (ix3 g 0 j) = groupSum (fun r => z V c r j) g :=
  (congrFun (final7 V c) (ix3 g 0 j)).trans rfl

/-- Output 8 ends holding the group's accumulated column sum of z². -/
theorem sumsqs (c : Dev nD) (g : Fin 2) (j : Fin 256) :
    ((dat0 V c).arrAt 8 cfg0.N : Vec Ideal S2x1x256 .f32) (ix3 g 0 j) = groupSum (fun r => z V c r j * z V c r j) g :=
  (congrFun (final8 V c) (ix3 g 0 j)).trans rfl

end Cert.KernelIdeal.StatsValue

end
-- ==== Proof.MsgValue.lean ====
/-
  Region 1: the message array, read index by index.
-/
import proofs.«412280_j46102178955276_1_alg».proof.Proof.Gen.KernelIdeal.Frame
import proofs.«412280_j46102178955276_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx (ix1 ix2 ix3)

namespace Cert.KernelIdeal.MsgValue

open Cert.KernelIdeal Cert.KernelIdeal.Gen Cert.EdgeLayer

variable (V : (c : Dev nD) → (b : Ref sig .tc) → Buf (Elt Ideal) ((c : Thread nD τ).loc b))

/-- The nine arrays the region reads, as it finds them. -/
abbrev aS (c : Dev nD) : Vec Ideal S480000x128 .f32 := V c (Pipeline.arrRef spec1 0)
abbrev aD (c : Dev nD) : Vec Ideal S480000x128 .f32 := V c (Pipeline.arrRef spec1 1)
abbrev aE (c : Dev nD) : Vec Ideal S480000x128 .f32 := V c (Pipeline.arrRef spec1 2)
abbrev aW1 (c : Dev nD) : Vec Ideal S128x256 .f32 := V c (Pipeline.arrRef spec1 3)
abbrev aW2 (c : Dev nD) : Vec Ideal S128x256 .f32 := V c (Pipeline.arrRef spec1 4)
abbrev aW3 (c : Dev nD) : Vec Ideal S128x256 .f32 := V c (Pipeline.arrRef spec1 5)
abbrev aB (c : Dev nD) : Vec Ideal S1x256 .f32 := V c (Pipeline.arrRef spec1 6)
abbrev aScale (c : Dev nD) : Vec Ideal S1x256 .f32 := V c (Pipeline.arrRef spec1 7)
abbrev aShift (c : Dev nD) : Vec Ideal S1x256 .f32 := V c (Pipeline.arrRef spec1 8)

/-- The linear layer of those arrays: row r, column j. -/
def z (c : Dev nD) : Fin 480000 → Fin 256 → EReal :=
  lin3 (cur2 (aS V c)) (cur2 (aD V c)) (cur2 (aE V c)) (cur2 (aW1 V c)) (cur2 (aW2 V c)) (cur2 (aW3 V c))
    (fun j => aB V c (ix2 0 j))

/-- The normalised value the region forms: z · scale + shift, column by column. -/
def normed (c : Dev nD) (r : Fin 480000) (j : Fin 256) : EReal :=
  z V c r j * aScale V c (ix2 0 j) + aShift V c (ix2 0 j)

theorem hz : (![0, 0] : Fin 2 → Nat) = fun _ => 0 := funext fun a => by fin_cases a <;> rfl

theorem mm_lhs_0 (i : S2400x256.Idx) (q : dot_S2400x128_S128x256_S2400x256_1_0_0_1_n_n.contr.Idx) :
    (dot_S2400x128_S128x256_S2400x256_1_0_0_1_n_n.lhsIdx i q 0).val = (i 0).val := by
  unfold DotDims.lhsIdx
  rw [dif_neg (show ¬(0 : Fin S2400x128.rank) ∈ dot_S2400x128_S128x256_S2400x256_1_0_0_1_n_n.lhsBatch by decide), dif_pos (show (0 : Fin S2400x128.rank) ∈ dot_S2400x128_S128x256_S2400x256_1_0_0_1_n_n.lhsNonContracting by decide)]
  rfl
theorem mm_lhs_1 (i : S2400x256.Idx) (q : dot_S2400x128_S128x256_S2400x256_1_0_0_1_n_n.contr.Idx) :
    (dot_S2400x128_S128x256_S2400x256_1_0_0_1_n_n.lhsIdx i q 1).val = (q ⟨0, by decide⟩).val :=
  dot_S2400x128_S128x256_S2400x256_1_0_0_1_n_n.lhsIdx_val_of_single rfl i q
theorem mm_rhs_0 (i : S2400x256.Idx) (q : dot_S2400x128_S128x256_S2400x256_1_0_0_1_n_n.contr.Idx) :
    (dot_S2400x128_S128x256_S2400x256_1_0_0_1_n_n.rhsIdx i q 0).val = (q ⟨0, by decide⟩).val :=
  dot_S2400x128_S128x256_S2400x256_1_0_0_1_n_n.rhsIdx_val_of_single rfl i q
theorem mm_rhs_1 (i : S2400x256.Idx) (q : dot_S2400x128_S128x256_S2400x256_1_0_0_1_n_n.contr.Idx) :
    (dot_S2400x128_S128x256_S2400x256_1_0_0_1_n_n.rhsIdx i q 1).val = (i 1).val := by
  unfold DotDims.rhsIdx
  rw [dif_neg (show ¬(1 : Fin S128x256.rank) ∈ dot_S2400x128_S128x256_S2400x256_1_0_0_1_n_n.rhsBatch by decide), dif_pos (show (1 : Fin S128x256.rank) ∈ dot_S2400x128_S128x256_S2400x256_1_0_0_1_n_n.rhsNonContracting by decide)]
  rfl

/-- A 2400-row block times a 128-by-256 weight into the zero splat, at row q and column j: the sum over the 128 shared columns. -/
theorem mm_apply (a : FVec Ideal S2400x128 .bf16) (b : FVec Ideal S128x256 .bf16) (q : Fin 2400) (j : Fin 256) :
    matmul dot_S2400x128_S128x256_S2400x256_1_0_0_1_n_n none a b (constant (F := Ideal) S2400x256 .f32 0x00000000#32) (ix2 q j)
      = ∑ k : Fin 128, a (ix2 q k) * b (ix2 k j) := by
  refine (Ideal.matmul_constant_zero_apply dot_S2400x128_S128x256_S2400x256_1_0_0_1_n_n none a b (ix2 q j)).trans ?_
  rw [← Equiv.sum_comp (ValueIdx.contrEquiv1 dot_S2400x128_S128x256_S2400x256_1_0_0_1_n_n 128 rfl rfl).symm]
  refine Finset.sum_congr rfl fun k _ => ?_
  have hk := ValueIdx.contrEquiv1_symm_val dot_S2400x128_S128x256_S2400x256_1_0_0_1_n_n 128 rfl rfl k
  have el : dot_S2400x128_S128x256_S2400x256_1_0_0_1_n_n.lhsIdx (ix2 q j) ((ValueIdx.contrEquiv1 dot_S2400x128_S128x256_S2400x256_1_0_0_1_n_n 128 rfl rfl).symm k) = ix2 q k := funext fun a => Fin.ext (by
    match a with
    | ⟨0, _⟩ => exact mm_lhs_0 _ _
    | ⟨1, _⟩ => exact (mm_lhs_1 _ _).trans hk)
  have er : dot_S2400x128_S128x256_S2400x256_1_0_0_1_n_n.rhsIdx (ix2 q j) ((ValueIdx.contrEquiv1 dot_S2400x128_S128x256_S2400x256_1_0_0_1_n_n 128 rfl rfl).symm k) = ix2 k j := funext fun a => Fin.ext (by
    match a with
    | ⟨0, _⟩ => exact (mm_rhs_0 _ _).trans hk
    | ⟨1, _⟩ => exact mm_rhs_1 _ _)
  rw [el, er]

/-- A one-row array spread over the 2400 rows reads its one row at the column. -/
theorem row_bcast {α : Type} (x : S1x256.Idx → α) (q : Fin 2400) (j : Fin 256) :
    broadcastTo S2400x256 x broadcasts_S1x256_S2400x256 (ix2 q j) = x (ix2 0 j) :=
  ValueIdx.broadcastTo_1b_ab_apply x broadcasts_S1x256_S2400x256 q j

/-- What the body forms of nine loaded blocks before the gate: the three partial products added in order, the bias row,
    then the scale row and the shift row; at row q and column j of the 256. -/
def zn (x0 x1 x2 : Vec Ideal S2400x128 .f32) (x3 x4 x5 : Vec Ideal S128x256 .f32) (x6 x7 x8 : Vec Ideal S1x256 .f32)
    (q : Fin 2400) (j : Fin 256) : EReal :=
  ((((∑ k : Fin 128, x0 (ix2 q k) * x3 (ix2 k j)) + ∑ k : Fin 128, x1 (ix2 q k) * x4 (ix2 k j))
      + ∑ k : Fin 128, x2 (ix2 q k) * x5 (ix2 k j)) + x6 (ix2 0 j)) * x7 (ix2 0 j) + x8 (ix2 0 j)

theorem zn_apply (x0 x1 x2 : Vec Ideal S2400x128 .f32) (x3 x4 x5 : Vec Ideal S128x256 .f32) (x6 x7 x8 : Vec Ideal S1x256 .f32)
    (q : Fin 2400) (j : Fin 256) :
    k1_pay2 (F := Ideal) x0 x1 x2 x3 x4 x5 x6 x7 x8 (ix2 q j) = zn x0 x1 x2 x3 x4 x5 x6 x7 x8 q j := by
  unfold k1_pay2 zn
  simp only [shapeCast_self, ValueIdx.addf_apply, ValueIdx.mulf_apply, mm_apply, row_bcast, ValueIdx.truncf_apply]

/-- The upper 128 columns of the normalised block. -/
theorem core_apply (x0 x1 x2 : Vec Ideal S2400x128 .f32) (x3 x4 x5 : Vec Ideal S128x256 .f32) (x6 x7 x8 : Vec Ideal S1x256 .f32)
    (q : Fin 2400) (j : Fin 128) :
    k1_pay3 (F := Ideal) x0 x1 x2 x3 x4 x5 x6 x7 x8 (ix2 q j) = k1_pay2 (F := Ideal) x0 x1 x2 x3 x4 x5 x6 x7 x8 (ix2 q (hi j)) := by
  unfold k1_pay3
  exact ValueIdx.slice2_axis1_apply 128 _ slices_S2400x256_o0_128_S2400x128 q j (hi j) rfl

/-- The logistic of the lower 128 columns of the normalised block. -/
theorem filt_apply (x0 x1 x2 : Vec Ideal S2400x128 .f32) (x3 x4 x5 : Vec Ideal S128x256 .f32) (x6 x7 x8 : Vec Ideal S1x256 .f32)
    (q : Fin 2400) (j : Fin 128) :
    k1_pay4 (F := Ideal) x0 x1 x2 x3 x4 x5 x6 x7 x8 (ix2 q j) = Ideal.logistic (k1_pay2 (F := Ideal) x0 x1 x2 x3 x4 x5 x6 x7 x8 (ix2 q (lo j))) := by
  unfold k1_pay4
  exact congrArg Ideal.logistic (ValueIdx.slice2_axis1_apply 0 _ slices_S2400x256_o0_0_S2400x128 q j (lo j) (Nat.zero_add _).symm)

/-- The stored product, entry by entry: the second operand times the softplus chain of the first. -/
theorem gate_apply (u v : FVec Ideal S2400x128 .f32) (i : S2400x128.Idx) :
    k1_pay1 (F := Ideal) u v (Scalar.ofBits .f32 0x00000000#32) i = v i * softplusK (u i) := rfl

/-- What the body stores, at row q and column j of its block. -/
theorem out_apply (x0 x1 x2 : Vec Ideal S2400x128 .f32) (x3 x4 x5 : Vec Ideal S128x256 .f32) (x6 x7 x8 : Vec Ideal S1x256 .f32)
    (q : Fin 2400) (j : Fin 128) :
    k1_pay1 (F := Ideal) (k1_pay3 x0 x1 x2 x3 x4 x5 x6 x7 x8) (k1_pay4 x0 x1 x2 x3 x4 x5 x6 x7 x8) (Scalar.ofBits .f32 0x00000000#32) (ix2 q j)
      = gateK (zn x0 x1 x2 x3 x4 x5 x6 x7 x8 q (lo j)) (zn x0 x1 x2 x3 x4 x5 x6 x7 x8 q (hi j)) := by
  rw [gate_apply, core_apply, filt_apply, zn_apply, zn_apply]
  rfl

/-- If row q of each of the three input blocks is row r of an array, the body's normalised value at row q is the linear
    layer of those arrays at row r, scaled and shifted. -/
theorem zn_of_rows (x0 x1 x2 : Vec Ideal S2400x128 .f32) (x3 x4 x5 : Vec Ideal S128x256 .f32) (x6 x7 x8 : Vec Ideal S1x256 .f32)
    (A0 A1 A2 : Vec Ideal S480000x128 .f32) (W1 W2 W3 : Vec Ideal S128x256 .f32) (b s h : Vec Ideal S1x256 .f32)
    (q : Fin 2400) (r : Fin 480000)
    (h0 : ∀ k, x0 (ix2 q k) = A0 (ix2 r k)) (h1 : ∀ k, x1 (ix2 q k) = A1 (ix2 r k)) (h2 : ∀ k, x2 (ix2 q k) = A2 (ix2 r k))
    (h3 : x3 = W1) (h4 : x4 = W2) (h5 : x5 = W3) (h6 : x6 = b) (h7 : x7 = s) (h8 : x8 = h) (j : Fin 256) :
    zn x0 x1 x2 x3 x4 x5 x6 x7 x8 q j
      = lin3 (cur2 A0) (cur2 A1) (cur2 A2) (cur2 W1) (cur2 W2) (cur2 W3) (fun j => b (ix2 0 j)) r j * s (ix2 0 j) + h (ix2 0 j) := by
  subst h3 h4 h5 h6 h7 h8
  unfold zn lin3
  simp only [h0, h1, h2]
/-- Where each window's block sits at grid position t: the three edge inputs and the output at row block t, the six
    small operands whole. Decided over the two hundred positions. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row q of position t's block of the first edge input is row 2400·t + q of its array. -/
theorem rowS (c : Dev nD) (t : Fin cfg1.N) (q : Fin 2400) (r : Fin 480000) (hr : r.val = 2400 * t.val + q.val) (k : Fin 128) :
    (iblk1 V c 0 t : Vec Ideal S2400x128 .f32) (ix2 q k) = aS V c (ix2 r k) := by
  obtain ⟨e0, e1⟩ := (idx_facts t).1
  unfold iblk1
  rw [View.read_apply]
  show V c (Pipeline.arrRef spec1 0) (((cfg1.win 0).blk t).view.emb (ix2 q k)) = V c (Pipeline.arrRef spec1 0) (ix2 r k)
  refine congrArg (V c (Pipeline.arrRef spec1 0)) (funext fun a => Fin.ext ?_)
  match a with
  | ⟨0, _⟩ => show win1_0.index t (0 : Fin 2) * 2400 + 1 * q.val = r.val; rw [e0, hr]; omega
  | ⟨1, _⟩ => show win1_0.index t (1 : Fin 2) * 128 + 1 * k.val = k.val; rw [e1]; omega

/-- The same for the second edge input. -/
theorem rowD (c : Dev nD) (t : Fin cfg1.N) (q : Fin 2400) (r : Fin 480000) (hr : r.val = 2400 * t.val + q.val) (k : Fin 128) :
    (iblk1 V c 1 t : Vec Ideal S2400x128 .f32) (ix2 q k) = aD V c (ix2 r k) := by
  obtain ⟨e0, e1⟩ := (idx_facts t).2.1
  unfold iblk1
  rw [View.read_apply]
  show V c (Pipeline.arrRef spec1 1) (((cfg1.win 1).blk t).view.emb (ix2 q k)) = V c (Pipeline.arrRef spec1 1) (ix2 r k)
  refine congrArg (V c (Pipeline.arrRef spec1 1)) (funext fun a => Fin.ext ?_)
  match a with
  | ⟨0, _⟩ => show win1_1.index t (0 : Fin 2) * 2400 + 1 * q.val = r.val; rw [e0, hr]; omega
  | ⟨1, _⟩ => show win1_1.index t (1 : Fin 2) * 128 + 1 * k.val = k.val; rw [e1]; omega

/-- The same for the third edge input. -/
theorem rowE (c : Dev nD) (t : Fin cfg1.N) (q : Fin 2400) (r : Fin 480000) (hr : r.val = 2400 * t.val + q.val) (k : Fin 128) :
    (iblk1 V c 2 t : Vec Ideal S2400x128 .f32) (ix2 q k) = aE V c (ix2 r k) := by
  obtain ⟨e0, e1⟩ := (idx_facts t).2.2.1
  unfold iblk1
  rw [View.read_apply]
  show V c (Pipeline.arrRef spec1 2) (((cfg1.win 2).blk t).view.emb (ix2 q k)) = V c (Pipeline.arrRef spec1 2) (ix2 r k)
  refine congrArg (V c (Pipeline.arrRef spec1 2)) (funext fun a => Fin.ext ?_)
  match a with
  | ⟨0, _⟩ => show win1_2.index t (0 : Fin 2) * 2400 + 1 * q.val = r.val; rw [e0, hr]; omega
  | ⟨1, _⟩ => show win1_2.index t (1 : Fin 2) * 128 + 1 * k.val = k.val; rw [e1]; omega

/-- The first weight's block is the whole weight at every position. -/
theorem wholeW1 (c : Dev nD) (t : Fin cfg1.N) : (iblk1 V c 3 t : Vec Ideal S128x256 .f32) = aW1 V c := by
  obtain ⟨e0, e1⟩ := (idx_facts t).2.2.2.1
  refine funext fun (y : S128x256.Idx) => ?_
  unfold iblk1
  rw [View.read_apply]
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 128 + 1 * (y 0).val = (y 0).val; rw [e0]; omega
  | ⟨1, _⟩ => show win1_3.index t (1 : Fin 2) * 256 + 1 * (y 1).val = (y 1).val; rw [e1]; omega

/-- The second weight's block is the whole weight. -/
theorem wholeW2 (c : Dev nD) (t : Fin cfg1.N) : (iblk1 V c 4 t : Vec Ideal S128x256 .f32) = aW2 V c := by
  obtain ⟨e0, e1⟩ := (idx_facts t).2.2.2.2.1
  refine funext fun (y : S128x256.Idx) => ?_
  unfold iblk1
  rw [View.read_apply]
  show V c (Pipeline.arrRef spec1 4) (((cfg1.win 4).blk t).view.emb y) = V c (Pipeline.arrRef spec1 4) y
  refine congrArg (V c (Pipeline.arrRef spec1 4)) (funext fun a => Fin.ext ?_)
  match a with
  | ⟨0, _⟩ => show win1_4.index t (0 : Fin 2) * 128 + 1 * (y 0).val = (y 0).val; rw [e0]; omega
  | ⟨1, _⟩ => show win1_4.index t (1 : Fin 2) * 256 + 1 * (y 1).val = (y 1).val; rw [e1]; omega

/-- The third weight's block is the whole weight. -/
theorem wholeW3 (c : Dev nD) (t : Fin cfg1.N) : (iblk1 V c 5 t : Vec Ideal S128x256 .f32) = aW3 V c := by
  obtain ⟨e0, e1⟩ := (idx_facts t).2.2.2.2.2.1
  refine funext fun (y : S128x256.Idx) => ?_
  unfold iblk1
  rw [View.read_apply]
  show V c (Pipeline.arrRef spec1 5) (((cfg1.win 5).blk t).view.emb y) = V c (Pipeline.arrRef spec1 5) y
  refine congrArg (V c (Pipeline.arrRef spec1 5)) (funext fun a => Fin.ext ?_)
  match a with
  | ⟨0, _⟩ => show win1_5.index t (0 : Fin 2) * 128 + 1 * (y 0).val = (y 0).val; rw [e0]; omega
  | ⟨1, _⟩ => show win1_5.index t (1 : Fin 2) * 256 + 1 * (y 1).val = (y 1).val; rw [e1]; omega

/-- The bias row's block is the whole row. -/
theorem wholeB (c : Dev nD) (t : Fin cfg1.N) : (iblk1 V c 6 t : Vec Ideal S1x256 .f32) = aB V c := by
  obtain ⟨e0, e1⟩ := (idx_facts t).2.2.2.2.2.2.1
  refine funext fun (y : S1x256.Idx) => ?_
  unfold iblk1
  rw [View.read_apply]
  show V c (Pipeline.arrRef spec1 6) (((cfg1.win 6).blk t).view.emb y) = V c (Pipeline.arrRef spec1 6) y
  refine congrArg (V c (Pipeline.arrRef spec1 6)) (funext fun a => Fin.ext ?_)
  match a with
  | ⟨0, _⟩ => show win1_6.index t (0 : Fin 2) * 1 + 1 * (y 0).val = (y 0).val; rw [e0]; omega
  | ⟨1, _⟩ => show win1_6.index t (1 : Fin 2) * 256 + 1 * (y 1).val = (y 1).val; rw [e1]; omega

/-- The scale row's block is the whole row. -/
theorem wholeScale (c : Dev nD) (t : Fin cfg1.N) : (iblk1 V c 7 t : Vec Ideal S1x256 .f32) = aScale V c := by
  obtain ⟨e0, e1⟩ := (idx_facts t).2.2.2.2.2.2.2.1
  refine funext fun (y : S1x256.Idx) => ?_
  unfold iblk1
  rw [View.read_apply]
  show V c (Pipeline.arrRef spec1 7) (((cfg1.win 7).blk t).view.emb y) = V c (Pipeline.arrRef spec1 7) y
  refine congrArg (V c (Pipeline.arrRef spec1 7)) (funext fun a => Fin.ext ?_)
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- The shift row's block is the whole row. -/
theorem wholeShift (c : Dev nD) (t : Fin cfg1.N) : (iblk1 V c 8 t : Vec Ideal S1x256 .f32) = aShift V c := by
  obtain ⟨e0, e1⟩ := (idx_facts t).2.2.2.2.2.2.2.2.1
  refine funext fun (y : S1x256.Idx) => ?_
  unfold iblk1
  rw [View.read_apply]
  show V c (Pipeline.arrRef spec1 8) (((cfg1.win 8).blk t).view.emb y) = V c (Pipeline.arrRef spec1 8) y
  refine congrArg (V c (Pipeline.arrRef spec1 8)) (funext fun a => Fin.ext ?_)
  match a with
  | ⟨0, _⟩ => show win1_8.index t (0 : Fin 2) * 1 + 1 * (y 0).val = (y 0).val; rw [e0]; omega
  | ⟨1, _⟩ => show win1_8.index t (1 : Fin 2) * 256 + 1 * (y 1).val = (y 1).val; rw [e1]; omega

/-- At position t the body's normalised value at row q of its block is the normalised value of the arrays at row 2400·t + q. -/
theorem zn_blocks (c : Dev nD) (t : Fin cfg1.N) (q : Fin 2400) (r : Fin 480000) (hr : r.val = 2400 * t.val + q.val) (j : Fin 256) :
    zn (iblk1 V c 0 t) (iblk1 V c 1 t) (iblk1 V c 2 t) (iblk1 V c 3 t) (iblk1 V c 4 t) (iblk1 V c 5 t) (iblk1 V c 6 t) (iblk1 V c 7 t) (iblk1 V c 8 t) q j
      = normed V c r j :=
  zn_of_rows (iblk1 V c 0 t) (iblk1 V c 1 t) (iblk1 V c 2 t) (iblk1 V c 3 t) (iblk1 V c 4 t) (iblk1 V c 5 t) (iblk1 V c 6 t) (iblk1 V c 7 t) (iblk1 V c 8 t)
    (aS V c) (aD V c) (aE V c) (aW1 V c) (aW2 V c) (aW3 V c) (aB V c) (aScale V c) (aShift V c) q r
    (rowS V c t q r hr) (rowD V c t q r hr) (rowE V c t q r hr)
    (wholeW1 V c t) (wholeW2 V c t) (wholeW3 V c t) (wholeB V c t) (wholeScale V c t) (wholeShift V c t) j

/-- The whole message array as one function of the nine arrays: at edge r and column j the gate of the normalised
    columns j and 128 + j. -/
def gated (c : Dev nD) : Vec Ideal S480000x128 .f32 :=
  fun i => gateK (normed V c (i 0) (lo (i 1))) (normed V c (i 0) (hi (i 1)))

/-- What position t writes back is its block of that function: rows 2400·t … 2400·t + 2399. -/
theorem flushed_eq (c : Dev nD) (t : Fin cfg1.N) :
    (dat1 V c).flushed 9 t = ((cfg1.win 9).blk t).view.read (Elt Ideal) (gated V c) := by
  obtain ⟨e0, e1⟩ := (idx_facts t).2.2.2.2.2.2.2.2.2
  have ht : t.val < 200 := Nat.lt_of_lt_of_eq t.isLt N_1
  show (cfg1.win 9).cut (grid1.coords t) ((dat1 V c).after 9 t) = _
  rw [after1_9]
  unfold out1_9
  rw [View.canon_unit_zero hz]
  simp only [View.ld_unit_zero (S := S2400x128) hz, View.ld_unit_zero (S := S128x256) hz, View.ld_unit_zero (S := S1x256) hz]
  refine funext fun (y : S2400x128.Idx) => ?_
  obtain ⟨q, j, rfl⟩ : ∃ (q : Fin 2400) (j : Fin 128), y = ix2 q j := ⟨y 0, y 1, ValueIdx.eq_ix2 y⟩
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) q j).trans ?_
  have hq : q.val < 2400 := q.isLt
  have hemb : ((cfg1.win 9).blk t).view.emb (ix2 q j) = (ix2 (⟨2400 * t.val + q.val, by omega⟩ : Fin 480000) j : S480000x128.Idx) :=
    funext fun a => Fin.ext (by
      match a with
      | ⟨0, _⟩ => show win1_9.index t (0 : Fin 2) * 2400 + 1 * q.val = 2400 * t.val + q.val; rw [e0]; omega
      | ⟨1, _⟩ => show win1_9.index t (1 : Fin 2) * 128 + 1 * j.val = j.val; rw [e1]; omega)
  rw [View.read_apply, hemb, zn_blocks V c t q ⟨2400 * t.val + q.val, by omega⟩ rfl (lo j), zn_blocks V c t q ⟨2400 * t.val + q.val, by omega⟩ rfl (hi j)]
  rfl

/-- An index of the message array lies in position t's block iff each coordinate lies in the block's range. -/
theorem mem_blk (t : Fin cfg1.N) (i : S480000x128.Idx) :
    i ∈ ((cfg1.win 9).blk t).view.set ↔ ∀ a : Fin 2, win1_9.index t a * S2400x128.size a ≤ (i a).val ∧ (i a).val < win1_9.index t a * S2400x128.size a + S2400x128.size a := by
  show i ∈ ((View.whole main_v23).slice (win1_9.rect t)).set ↔ _
  rw [View.set_slice_whole, Rect.mem_set_unit]
  exact Iff.rfl

/-- Every row lies in some position's block: row r in that of position r / 2400. -/
theorem cover (i : S480000x128.Idx) : ∃ t : Fin cfg1.N, (cfg1.win 9).flush t = true ∧ i ∈ ((cfg1.win 9).blk t).view.set := by
  have hi0 : (i 0).val < 480000 := (i 0).isLt
  have hi1 : (i 1).val < 128 := (i 1).isLt
  have hlt : (i 0).val / 2400 < cfg1.N := Nat.lt_of_lt_of_eq (by omega : (i 0).val / 2400 < 200) N_1.symm
  obtain ⟨e0, e1⟩ := (idx_facts ⟨(i 0).val / 2400, hlt⟩).2.2.2.2.2.2.2.2.2
  refine ⟨⟨(i 0).val / 2400, hlt⟩, flush1_9 _, ?_⟩
  rw [mem_blk]
  intro a
  match a with
  | ⟨0, _⟩ =>
    show win1_9.index ⟨(i 0).val / 2400, hlt⟩ (0 : Fin 2) * 2400 ≤ (i 0).val ∧ (i 0).val < win1_9.index ⟨(i 0).val / 2400, hlt⟩ (0 : Fin 2) * 2400 + 2400
    rw [e0]; show (i 0).val / 2400 * 2400 ≤ (i 0).val ∧ (i 0).val < (i 0).val / 2400 * 2400 + 2400; omega
  | ⟨1, _⟩ =>
    show win1_9.index ⟨(i 0).val / 2400, hlt⟩ (1 : Fin 2) * 128 ≤ (i 1).val ∧ (i 1).val < win1_9.index ⟨(i 0).val / 2400, hlt⟩ (1 : Fin 2) * 128 + 128
    rw [e1]; omega

/-- The output ends holding, at edge r and column j, the gate of the normalised columns j and 128 + j. -/
theorem msg (c : Dev nD) (r : Fin 480000) (j : Fin 128) :
    ((dat1 V c).arrAt 9 cfg1.N : Vec Ideal S480000x128 .f32) (ix2 r j) = gateK (normed V c r (lo j)) (normed V c r (hi j)) := by
  exact congrFun ((dat1 V c).arrAt_eq_of_cover 9 (gated V c) (fun t _ => flushed_eq V c t) cover) (ix2 r j)

end Cert.KernelIdeal.MsgValue

end
-- ==== Proof.Pre.lean ====
/-
  What the stated precondition says of the inputs: every float entry is a real number, every index lies in 0 … 19999.
-/
import proofs.«412280_j46102178955276_1_alg».proof.Pre_finite_inputs
import Idealize.ShloMosaic.PureOps.Ideal
import Idealize.ShloMosaic.Lib.ReduceAll
import Idealize.ShloMosaic.Lib.ValueIdx
import Idealize.ShloMosaic.Lib.StableHlo.Predicate
import Idealize.ShloMosaic.Lib.Affine

noncomputable section

open Idealize.ShloMosaic

namespace Cert.Pre_finite_inputs.Decode

open Cert.Pre_finite_inputs

variable [Cert.Pre_finite_inputs.Facts]

/-- A rank-zero array has one index. -/
instance subsingleton_scalar_idx : Subsingleton S_.Idx := ⟨fun a b => funext fun d => d.elim0⟩

/-- An extended real whose absolute value lies strictly below +∞ is a real number: at either infinity the absolute
    value is +∞ itself. -/
theorem real_of_abs_lt_top (x : EReal)
    (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  induction x using EReal.rec with
  | bot => simp [Ideal.cmp] at h
  | coe v => exact ⟨v, rfl⟩
  | top => simp [Ideal.cmp] at h

/-- The printed predicate holding everywhere says: the six float inputs hold real numbers and the two index inputs hold
    indices of the 20000 table rows. -/
theorem decode (a0 : FVec Ideal S20000x128 .f32) (a1 : FVec Ideal S480000x128 .f32) (a2 a3 : IVec S480000 32)
    (a4 : FVec Ideal S384x256 .f32) (a5 a6 a7 : FVec Ideal S256 .f32)
    (hp : fn (F := Ideal) a0 a1 a2 a3 a4 a5 a6 a7 = fun _ => 1#1) :
    (∀ i, ∃ v : ℝ, a0 i = (v : EReal)) ∧ (∀ i, ∃ v : ℝ, a1 i = (v : EReal)) ∧ (∀ i, ∃ v : ℝ, a4 i = (v : EReal))
    ∧ (∀ i, ∃ v : ℝ, a5 i = (v : EReal)) ∧ (∀ i, ∃ v : ℝ, a6 i = (v : EReal)) ∧ (∀ i, ∃ v : ℝ, a7 i = (v : EReal))
    ∧ (∀ i, 0 ≤ (a2 i).toInt ∧ (a2 i).toInt < 20000) ∧ (∀ i, 0 ≤ (a3 i).toInt ∧ (a3 i).toInt < 20000) := by
  -- the predicate's one element is a conjunction of ten "all entries pass" tests
  have h0 := congrFun hp ValueIdx.ix0
  dsimp only [fn, fn_part1, fn_part2, andi] at h0
  simp only [IntOp.andi_eq_one] at h0
  obtain ⟨⟨⟨⟨⟨⟨⟨⟨⟨t0, t1⟩, t4⟩, t5⟩, t6⟩, t7⟩, s2⟩, u2⟩, s3⟩, u3⟩ := h0
  have z0 : (0#32 : BitVec 32).toInt = 0 := by decide
  have z2 : (20000#32 : BitVec 32).toInt = 20000 := by decide
  refine ⟨fun i => real_of_abs_lt_top _ (Host.reduce_andi_all _ _ _ _ _ t0 i),
    fun i => real_of_abs_lt_top _ (Host.reduce_andi_all _ _ _ _ _ t1 i),
    fun i => real_of_abs_lt_top _ (Host.reduce_andi_all _ _ _ _ _ t4 i),
    fun i => real_of_abs_lt_top _ (Host.reduce_andi_all _ _ _ _ _ t5 i),
    fun i => real_of_abs_lt_top _ (Host.reduce_andi_all _ _ _ _ _ t6 i),
    fun i => real_of_abs_lt_top _ (Host.reduce_andi_all _ _ _ _ _ t7 i), fun i => ⟨?_, ?_⟩, fun i => ⟨?_, ?_⟩⟩
  · have hge : (0#32 : BitVec 32).toInt ≤ (a2 i).toInt := IntOp.cmpi_sge.mp (Host.reduce_andi_all _ _ _ _ _ s2 i)
    rwa [z0] at hge
  · have hlt : (a2 i).toInt < (20000#32 : BitVec 32).toInt := IntOp.cmpi_slt.mp (Host.reduce_andi_all _ _ _ _ _ u2 i)
    rwa [z2] at hlt
  · have hge : (0#32 : BitVec 32).toInt ≤ (a3 i).toInt := IntOp.cmpi_sge.mp (Host.reduce_andi_all _ _ _ _ _ s3 i)
    rwa [z0] at hge
  · have hlt : (a3 i).toInt < (20000#32 : BitVec 32).toInt := IntOp.cmpi_slt.mp (Host.reduce_andi_all _ _ _ _ _ u3 i)
    rwa [z2] at hlt

end Cert.Pre_finite_inputs.Decode

end
-- ==== Proof.Math.lean ====
/-
  The algebra that joins the two ways of writing the layer.
-/
import proofs.«412280_j46102178955276_1_alg».proof.Proof.Spec

noncomputable section

open Idealize.ShloMosaic
open scoped BigOperators

namespace Cert.EdgeLayer

/-! ## The linear layer: one sum over 384 indices against three over 128 -/

/-- A sum over 384 indices is the sum of its three 128-long thirds (any commutative monoid). -/
theorem sum_thirds {M : Type} [AddCommMonoid M] (f : Fin 384 → M) :
    ∑ k : Fin 384, f k
      = (∑ k : Fin 128, f ⟨k.val, by have := k.isLt; omega⟩)
        + (∑ k : Fin 128, f ⟨128 + k.val, by have := k.isLt; omega⟩)
        + ∑ k : Fin 128, f ⟨256 + k.val, by have := k.isLt; omega⟩ := by
  have h1 := Fin.sum_univ_add (a := 256) (b := 128) f
  have h2 := Fin.sum_univ_add (a := 128) (b := 128) (fun i => f (Fin.castAdd 128 i))
  rw [h1, h2]
  rfl

/-- The first third of the concatenated row is the source node's row, against the first slab. -/
theorem cat_first (hs hd ee : Fin 480000 → Fin 128 → EReal) (W : Fin 384 → Fin 256 → EReal) (r : Fin 480000)
    (j : Fin 256) (k : Fin 128) (hk : k.val < 384) :
    catRow hs hd ee r ⟨k.val, hk⟩ * W ⟨k.val, hk⟩ j = hs r k * slab 0 (by omega) W k j := by
  have h1 : k.val < 128 := k.isLt
  have hW : (⟨0 + k.val, by omega⟩ : Fin 384) = ⟨k.val, hk⟩ := Fin.ext (Nat.zero_add _)
  simp only [catRow, slab, dif_pos h1, hW]

/-- The second third is the destination node's row, against the second slab. -/
theorem cat_second (hs hd ee : Fin 480000 → Fin 128 → EReal) (W : Fin 384 → Fin 256 → EReal) (r : Fin 480000)
    (j : Fin 256) (k : Fin 128) (hk : 128 + k.val < 384) :
    catRow hs hd ee r ⟨128 + k.val, hk⟩ * W ⟨128 + k.val, hk⟩ j = hd r k * slab 128 (by omega) W k j := by
  have h0 : k.val < 128 := k.isLt
  have h1 : ¬ 128 + k.val < 128 := by omega
  have h2 : 128 + k.val < 256 := by omega
  have hk' : (⟨128 + k.val - 128, by omega⟩ : Fin 128) = k := Fin.ext (Nat.add_sub_cancel_left _ _)
  simp only [catRow, slab, dif_neg h1, dif_pos h2, hk']

/-- The last third is the edge's own row, against the third slab. -/
theorem cat_third (hs hd ee : Fin 480000 → Fin 128 → EReal) (W : Fin 384 → Fin 256 → EReal) (r : Fin 480000)
    (j : Fin 256) (k : Fin 128) (hk : 256 + k.val < 384) :
    catRow hs hd ee r ⟨256 + k.val, hk⟩ * W ⟨256 + k.val, hk⟩ j = ee r k * slab 256 (by omega) W k j := by
  have h1 : ¬ 256 + k.val < 128 := by omega
  have h2 : ¬ 256 + k.val < 256 := by omega
  have hk' : (⟨256 + k.val - 256, by have := k.isLt; omega⟩ : Fin 128) = k := Fin.ext (Nat.add_sub_cancel_left _ _)
  simp only [catRow, slab, dif_neg h1, dif_neg h2, hk']

/-- One product over the 384-wide row is the three products over its 128-wide thirds. -/
theorem lin3_eq_lin1 (hs hd ee : Fin 480000 → Fin 128 → EReal) (W : Fin 384 → Fin 256 → EReal) (b : Fin 256 → EReal) :
    lin3 hs hd ee (slab 0 (by omega) W) (slab 128 (by omega) W) (slab 256 (by omega) W) b = lin1 (catRow hs hd ee) W b := by
  funext r j
  unfold lin3 lin1
  rw [sum_thirds (fun k => catRow hs hd ee r k * W k j)]
  simp only [cat_first, cat_second, cat_third]

/-! ## Real entries stay real -/

/-- The coercion of a finite real sum is the sum of the coercions. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of reals is a real. -/
theorem real_dot {n : Nat} (x y : Fin n → EReal) (hx : ∀ k, ∃ v : ℝ, x k = (v : EReal)) (hy : ∀ k, ∃ v : ℝ, y k = (v : EReal)) :
    ∃ v : ℝ, (∑ k : Fin n, x k * y k) = (v : EReal) := by
  choose u hu using hx
  choose w hw using hy
  refine ⟨∑ k : Fin n, u k * w k, ?_⟩
  rw [coe_sum]
  exact Finset.sum_congr rfl fun k _ => by rw [hu k, hw k, EReal.coe_mul]

/-- Real inputs give a real linear layer. -/
theorem lin3_real {hs hd ee : Fin 480000 → Fin 128 → EReal} {W1 W2 W3 : Fin 128 → Fin 256 → EReal} {b : Fin 256 → EReal}
    (h1 : Real2 hs) (h2 : Real2 hd) (h3 : Real2 ee) (w1 : Real2 W1) (w2 : Real2 W2) (w3 : Real2 W3) (hb : Real1 b) :
    Real2 (lin3 hs hd ee W1 W2 W3 b) := by
  intro r j
  obtain ⟨a1, e1⟩ := real_dot (fun k => hs r k) (fun k => W1 k j) (fun k => h1 r k) (fun k => w1 k j)
  obtain ⟨a2, e2⟩ := real_dot (fun k => hd r k) (fun k => W2 k j) (fun k => h2 r k) (fun k => w2 k j)
  obtain ⟨a3, e3⟩ := real_dot (fun k => ee r k) (fun k => W3 k j) (fun k => h3 r k) (fun k => w3 k j)
  obtain ⟨c, ec⟩ := hb j
  refine ⟨a1 + a2 + a3 + c, ?_⟩
  unfold lin3
  rw [e1, e2, e3, ec, EReal.coe_add, EReal.coe_add, EReal.coe_add]

/-! ## The four constant words -/

/-- The zero word is the number zero. -/
theorem zero_eq : zero = 0 := by simp [zero, Ideal.ofBits, Ideal.ieee]

/-- The one word is the number one. -/
theorem one_eq : one = 1 := by
  simp [one, Ideal.ofBits, Ideal.ieee, -EReal.coe_mul]; norm_num

/-- The row-count word is 480000 = (2²³ + 6971392) · 2⁻⁵. -/
theorem nEdges_eq : nEdges = ((480000 : ℝ) : EReal) := by
  simp [nEdges, Ideal.ofBits, Ideal.ieee, -EReal.coe_mul]
  norm_num

/-- The offset word is a positive real, (2²³ + 2606508) · 2⁻⁴⁰. -/
theorem eps_eq : ∃ e : ℝ, 0 < e ∧ eps = (e : EReal) := by
  refine ⟨10995116 * (2 ^ 40)⁻¹, by positivity, ?_⟩
  simp [eps, Ideal.ofBits, Ideal.ieee, -EReal.coe_mul]

/-! ## The accumulator: two groups of one hundred blocks are all the rows -/

/-- At the first position of a group the accumulator restarts. -/
theorem running_restart (h : ℕ → EReal) (n : ℕ) (hn : n % 100 = 0) : running h n = h n := by
  cases n with
  | zero => rw [running, zero_eq, zero_add]
  | succ n => rw [running, if_pos hn, zero_eq, zero_add]

/-- Elsewhere it adds the position's term. -/
theorem running_step (h : ℕ → EReal) (n : ℕ) (hn : (n + 1) % 100 ≠ 0) : running h (n + 1) = running h n + h (n + 1) := by
  rw [running, if_neg hn]

/-- Inside a group the accumulator is the sum of the group's terms so far. -/
theorem running_group (h : ℕ → EReal) (a i : ℕ) (hi : i < 100) :
    running h (100 * a + i) = ∑ t ∈ Finset.range (i + 1), h (100 * a + t) := by
  induction i with
  | zero => rw [running_restart h _ (by omega), Finset.sum_range_one]
  | succ i ih =>
    have hne : (100 * a + i + 1) % 100 ≠ 0 := by omega
    rw [Finset.sum_range_succ, ← ih (by omega)]
    exact running_step h (100 * a + i) hne

/-- A group's partial sum is the sum of its hundred blocks. -/
theorem groupSum_eq (f : Fin 480000 → EReal) (g : Fin 2) :
    groupSum f g = ∑ t : Fin 100, blockSum f (100 * g.val + t.val) := by
  rw [groupSum, running_group _ _ _ (by omega), Fin.sum_univ_eq_sum_range (fun t => blockSum f (100 * g.val + t)) 100]

/-- A sum over m·n indices, as m blocks of n (any commutative monoid). -/
theorem sum_blocks {M : Type} [AddCommMonoid M] (m n : ℕ) (f : Fin (m * n) → M) :
    ∑ r, f r = ∑ i : Fin m, ∑ q : Fin n, f (finProdFinEquiv (i, q)) := by
  rw [← finProdFinEquiv.sum_comp, Fintype.sum_prod_type]

/-- Block t of group g, written out. -/
theorem blockSum_at (f : Fin 480000 → EReal) (g : Fin 2) (t : Fin 100) :
    blockSum f (100 * g.val + t.val)
      = ∑ q : Fin 2400, f (finProdFinEquiv (m := 200) (n := 2400) (finProdFinEquiv (m := 2) (n := 100) (g, t), q)) := by
  have hlt : 100 * g.val + t.val < 200 := by have := g.isLt; have := t.isLt; omega
  rw [blockSum, dif_pos hlt]
  refine Finset.sum_congr rfl fun q _ => congrArg f (Fin.ext ?_)
  show 2400 * (100 * g.val + t.val) + q.val = q.val + 2400 * (t.val + 100 * g.val)
  omega

/-- The two groups' partial sums are the sum over all rows. -/
theorem total_eq (f : Fin 480000 → EReal) : total f = ∑ r : Fin 480000, f r := by
  rw [total, zero_eq, zero_add]
  rw [sum_blocks 200 2400 f, sum_blocks 2 100 (fun i => ∑ q : Fin 2400, f (finProdFinEquiv (i, q)))]
  refine Finset.sum_congr rfl fun g _ => ?_
  rw [groupSum_eq]
  exact Finset.sum_congr rfl fun t _ => blockSum_at f g t

/-! ## Batch normalisation over the reals -/

/-- The mean of a real column. -/
def colMean (x : Fin 480000 → ℝ) : ℝ := (∑ i, x i) * (1 / 480000)
/-- The mean of the centred squares of a real column. -/
def colVar (x : Fin 480000 → ℝ) : ℝ := (∑ i, (x i - colMean x) * (x i - colMean x)) * (1 / 480000)

/-- With μ the mean, the centred squares sum to the squares' sum less n·μ². -/
theorem centred_squares (x : Fin 480000 → ℝ) (μ : ℝ) (hμ : ∑ i, x i = 480000 * μ) :
    ∑ i, (x i - μ) * (x i - μ) = (∑ i, x i * x i) - 480000 * (μ * μ) := by
  have h1 : ∀ i, (x i - μ) * (x i - μ) = x i * x i - 2 * μ * x i + μ * μ := fun i => by ring
  simp only [h1, Finset.sum_add_distrib, Finset.sum_sub_distrib, ← Finset.mul_sum, Finset.sum_const, Finset.card_univ,
    Fintype.card_fin, nsmul_eq_mul]
  rw [hμ]
  push_cast
  ring

/-- Mean of squares less squared mean is the mean of the centred squares. -/
theorem variance_identity (x : Fin 480000 → ℝ) :
    (∑ i, x i * x i) * (1 / 480000) - colMean x * colMean x = colVar x := by
  rw [colVar, centred_squares x (colMean x) (by rw [colMean]; ring)]
  ring

/-- The mean of the centred squares is not negative. -/
theorem colVar_nonneg (x : Fin 480000 → ℝ) : 0 ≤ colVar x :=
  mul_nonneg (Finset.sum_nonneg fun i _ => mul_self_nonneg _) (by norm_num)

/-- The reciprocal square root at a positive real is the real one. -/
theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

section Column
variable (z : Fin 480000 → Fin 256 → EReal) (j : Fin 256) (x : Fin 480000 → ℝ) (hx : ∀ r, z r j = (x r : EReal))
include hx

/-- The column's sum is the real sum. -/
theorem sum_col : ∑ r, z r j = ((∑ r, x r : ℝ) : EReal) := by
  rw [coe_sum]; exact Finset.sum_congr rfl fun r _ => hx r

/-- The column's sum of squares is the real one. -/
theorem sum_col_sq : ∑ r, z r j * z r j = ((∑ r, x r * x r : ℝ) : EReal) := by
  rw [coe_sum]; exact Finset.sum_congr rfl fun r _ => by rw [hx r, EReal.coe_mul]

/-- The column's sum of centred squares is the real one. -/
theorem sum_col_centred (μ : ℝ) :
    ∑ r, (z r j - (μ : EReal)) * (z r j - (μ : EReal)) = ((∑ r, (x r - μ) * (x r - μ) : ℝ) : EReal) := by
  rw [coe_sum]; exact Finset.sum_congr rfl fun r _ => by rw [hx r, EReal.coe_mul, EReal.coe_sub]

theorem meanR_coe : meanR z j = (colMean x : EReal) := by
  rw [meanR, zero_eq, zero_add, nEdges_eq, Ideal.div_coe (by norm_num), sum_col z j x hx, ← EReal.coe_mul, colMean]

theorem meanK_coe : meanK z j = (colMean x : EReal) := by
  rw [meanK, total_eq, nEdges_eq, Ideal.div_coe (by norm_num), sum_col z j x hx, ← EReal.coe_mul, colMean]

theorem msqK_coe : msqK z j = (((∑ r, x r * x r) * (1 / 480000) : ℝ) : EReal) := by
  rw [msqK, total_eq, nEdges_eq, Ideal.div_coe (by norm_num), sum_col_sq z j x hx, ← EReal.coe_mul]

theorem varR_coe : varR z j = (colVar x : EReal) := by
  rw [varR, zero_eq, zero_add, nEdges_eq, Ideal.div_coe (by norm_num), meanR_coe z j x hx,
    sum_col_centred z j x hx, ← EReal.coe_mul, colVar]

theorem varK_coe : varK z j = (colVar x : EReal) := by
  rw [varK, msqK_coe z j x hx, meanK_coe z j x hx, ← EReal.coe_mul, ← EReal.coe_sub, variance_identity]

/-- Both programs' reciprocal deviation is one real number. -/
theorem rsqrt_var :
    ∃ ρ : ℝ, Ideal.rsqrt (varK z j + eps) = (ρ : EReal) ∧ Ideal.rsqrt (varR z j + eps) = (ρ : EReal) := by
  obtain ⟨e, he, hee⟩ := eps_eq
  have hv := colVar_nonneg x
  have hpos : 0 < colVar x + e := by linarith
  refine ⟨(Real.sqrt (colVar x + e))⁻¹, ?_, ?_⟩
  · rw [varK_coe z j x hx, hee, ← EReal.coe_add, rsqrt_pos hpos]
  · rw [varR_coe z j x hx, hee, ← EReal.coe_add, rsqrt_pos hpos]

/-- One entry: the folded affine map is centre, scale, γ, β. -/
theorem norm_entry (γ β : Fin 256 → EReal) (g b : ℝ) (hg : γ j = (g : EReal)) (hb : β j = (b : EReal)) (r : Fin 480000) :
    normK z γ β r j = normR z γ β r j := by
  obtain ⟨ρ, hK, hR⟩ := rsqrt_var z j x hx
  rw [normK, shiftK, scaleK, normR, hK, hR, meanK_coe z j x hx, meanR_coe z j x hx, hx r, hg, hb]
  simp only [← EReal.coe_mul, ← EReal.coe_sub, ← EReal.coe_add]
  refine congrArg Real.toEReal ?_
  ring

end Column

/-- On real entries the two normalisations are one function. -/
theorem normK_eq_normR (z : Fin 480000 → Fin 256 → EReal) (γ β : Fin 256 → EReal) (hz : Real2 z) (hγ : Real1 γ) (hβ : Real1 β) :
    normK z γ β = normR z γ β := by
  funext r j
  choose x hx using hz
  obtain ⟨g, hg⟩ := hγ j
  obtain ⟨b, hb⟩ := hβ j
  exact norm_entry z j (fun r => x r j) (fun r => hx r j) γ β g b hg hb r

/-! ## The gate -/

/-- The two spellings of softplus are one function. -/
theorem softplusK_eq_softplusR (x : EReal) : softplusK x = softplusR x := by
  unfold softplusK softplusR
  rw [zero_eq, zero_sub]
  rfl

/-- The two spellings of the gate are one function on all extended reals. -/
theorem gateK_eq_gateR (f c : EReal) : gateK f c = gateR f c := by
  rw [gateK, gateR, softplusK_eq_softplusR, one_eq]
  rfl

end Cert.EdgeLayer

end
-- ==== Proof.Layout.lean ====
/-
  Two layout facts: a 128-row slice of the weight is one of its slabs; a vector reshaped to a one-row matrix reads the
  vector.
-/
import proofs.«412280_j46102178955276_1_alg».proof.Proof.Spec
import Idealize.ShloMosaic.Lib.Pipeline.Value
import Idealize.ShloMosaic.Lib.ValueIdx
import Idealize.ShloMosaic.Lib.ValueLayout

noncomputable section

open Idealize.ShloMosaic
open Idealize.ShloMosaic.ValueIdx (ix1 ix2)

namespace Cert.EdgeLayer

/-- A [128, 256] block cut from a [384, 256] array at row offset o reads, at (a, c), the array at (o + a, c);
    entries of any type. -/
theorem slice_rows_apply {α : Type} (W : (⟨2, ![384, 256]⟩ : Shape).Idx → α) (o : ℕ) (ho : o + 128 ≤ 384)
    (h : (⟨2, ![384, 256]⟩ : Shape).Slices ![o, 0] ⟨2, ![128, 256]⟩) (a : Fin 128) (c : Fin 256) :
    extractStridedSlice (⟨2, ![128, 256]⟩ : Shape) ![o, 0] W h (ix2 a c)
      = W (ix2 (⟨o + a.val, by have := a.isLt; omega⟩ : Fin 384) c) := by
  refine extractStridedSlice_apply _ W h _ _ fun ax => ?_
  match ax with
  | ⟨0, _⟩ => rfl
  | ⟨1, _⟩ => show c.val = 0 + c.val; omega

/-- Rows o … o+127 of a [384, 256] array, cut out as a [128, 256] array, are its slab at o. -/
theorem slice_slab (W : (⟨2, ![384, 256]⟩ : Shape).Idx → EReal) (o : ℕ) (ho : o + 128 ≤ 384)
    (h : (⟨2, ![384, 256]⟩ : Shape).Slices ![o, 0] ⟨2, ![128, 256]⟩) :
    cur2 (extractStridedSlice (⟨2, ![128, 256]⟩ : Shape) ![o, 0] W h) = slab o ho (cur2 W) := by
  funext a c
  exact slice_rows_apply W o ho h a c

/-- A [256] vector recast as a [1, 256] matrix reads, at (0, j), the vector at j. -/
theorem row_of_vec (b : (⟨1, ![256]⟩ : Shape).Idx → EReal) (h : (⟨1, ![256]⟩ : Shape).ShapeCasts ⟨2, ![1, 256]⟩) (j : Fin 256) :
    shapeCast (⟨2, ![1, 256]⟩ : Shape) b h (ix2 0 j) = b (ix1 j) :=
  ValueIdx.shapeCast_a_1a_apply b h 0 j

end Cert.EdgeLayer

end
-- ==== Proof.RefValue.lean ====
/-
  The reference program's result, read index by index.

  Row r of the linear layer's input is the three 128-wide feature rows laid side by side (the two gathered node rows are
  kept as they stand); the layer's value at (r, j) is the sum over the 384 columns plus the bias.  The two column
  reductions give the mean and the centred second moment; the normalised value, the gate and the message follow
  elementwise.  The last operations (the scatter-add by destination, the residual and the closing softplus) are carried as
  one function of the message array.
-/
import proofs.«412280_j46102178955276_1_alg».proof.Defs
import proofs.«412280_j46102178955276_1_alg».proof.Proof.RefRead
import proofs.«412280_j46102178955276_1_alg».proof.Proof.Spec

noncomputable section

namespace Cert.ReferenceIdeal.RefValue

open Idealize.ShloMosaic Idealize.ShloMosaic.StableHlo
open Cert.ReferenceIdeal Cert.ReferenceIdeal.Gen Cert.ReferenceIdeal.Read Cert.EdgeLayer
open Idealize.ShloMosaic.ValueIdx (ix1 ix2)
open scoped BigOperators

variable (x0 : FVec Ideal S20000x128 .f32) (x1 : FVec Ideal S480000x128 .f32) (x2 x3 : IVec S480000 32)
  (x4 : FVec Ideal S384x256 .f32) (x5 x6 x7 : FVec Ideal S256 .f32)

/-- The linear layer over the concatenated row: the gathered source row, the gathered destination row, the edge's row. -/
def zR : Fin 480000 → Fin 256 → EReal :=
  lin1 (catRow (cur2 (val_main_v6 (F := Ideal) x0 x2)) (cur2 (val_main_v13 (F := Ideal) x0 x3)) (cur2 x1)) (cur2 x4)
    (fun j => x5 (ix1 j))

/-! ## Index equations: the composed index functions of the stages, at coordinates -/

theorem lidx15 (r : Fin 480000) (j : Fin 256) (k : Fin 384) : lidx_main_v15 (ix2 r j) k = ix2 r k :=
  funext fun a => Fin.ext (by match a with | ⟨0, _⟩ => rfl | ⟨1, _⟩ => rfl)

theorem ridx15 (r : Fin 480000) (j : Fin 256) (k : Fin 384) : ridx_main_v15 (ix2 r j) k = ix2 k j :=
  funext fun a => Fin.ext (by match a with | ⟨0, _⟩ => rfl | ⟨1, _⟩ => rfl)

/-- A row vector broadcast down the 480000 rows is read at its column. -/
theorem idx_row (r : Fin 480000) (j : Fin 256) : idx_main_v16 (idx_main_v17 (ix2 r j)) = ix1 j :=
  funext fun a => Fin.ext (by match a with | ⟨0, _⟩ => rfl)

/-- The reduction over the rows reads column j at row k. -/
theorem idx_red (j : Fin 256) (k : Fin 480000) : idx_main_v19 (ix1 j) k = ix2 k j :=
  funext fun a => Fin.ext (by match a with | ⟨0, _⟩ => rfl | ⟨1, _⟩ => rfl)

theorem idx_lo (r : Fin 480000) (j : Fin 128) : idx_main_v44 (ix2 r j) = ix2 r (lo j) :=
  funext fun a => Fin.ext (by match a with | ⟨0, _⟩ => rfl | ⟨1, _⟩ => rfl)

theorem idx_hi (r : Fin 480000) (j : Fin 128) : idx_main_v45 (ix2 r j) = ix2 r (hi j) :=
  funext fun a => Fin.ext (by match a with | ⟨0, _⟩ => rfl | ⟨1, _⟩ => rfl)

/-! ## The concatenated row -/

/-- Column k of row r of the concatenation comes from the piece whose 128-column span holds k. -/
theorem cat_apply (r : Fin 480000) (k : Fin 384) :
    val_main_v14 (F := Ideal) x0 x1 x2 x3 (ix2 r k)
      = catRow (cur2 (val_main_v6 (F := Ideal) x0 x2)) (cur2 (val_main_v13 (F := Ideal) x0 x3)) (cur2 x1) r k := by
  unfold val_main_v14 catRow
  generalize val_main_v6 (F := Ideal) x0 x2 = u0
  generalize val_main_v13 (F := Ideal) x0 x3 = u1
  have hk := k.isLt
  by_cases h1 : k.val < 128
  · rw [dif_pos h1]
    exact concatenate_apply_piece 1 _ _ (ix2 r k) 0 (by show 0 < 3; omega) S480000x128 u0 rfl rfl 0 rfl (ix2 r ⟨k.val, h1⟩)
      (fun b hb => by match b with | ⟨0, _⟩ => rfl | ⟨1, _⟩ => exact absurd rfl hb) (Nat.zero_add _)
  · rw [dif_neg h1]
    by_cases h2 : k.val < 256
    · rw [dif_pos h2]
      exact concatenate_apply_piece 1 _ _ (ix2 r k) 1 (by show 1 < 3; omega) S480000x128 u1 rfl rfl 128 rfl
        (ix2 r ⟨k.val - 128, by omega⟩)
        (fun b hb => by match b with | ⟨0, _⟩ => rfl | ⟨1, _⟩ => exact absurd rfl hb)
        (by show 128 + (k.val - 128) = k.val; omega)
    · rw [dif_neg h2]
      exact concatenate_apply_piece 1 _ _ (ix2 r k) 2 (by show 2 < 3; omega) S480000x128 x1 rfl rfl 256 rfl
        (ix2 r ⟨k.val - 256, by omega⟩)
        (fun b hb => by match b with | ⟨0, _⟩ => rfl | ⟨1, _⟩ => exact absurd rfl hb)
        (by show 256 + (k.val - 256) = k.val; omega)

/-! ## The linear layer -/

theorem z_apply (r : Fin 480000) (j : Fin 256) :
    val_main_v18 (F := Ideal) x0 x1 x2 x3 x4 x5 (ix2 r j) = zR x0 x1 x2 x3 x4 x5 r j := by
  rw [val_main_v18_apply, val_main_v15_apply, val_main_v17_apply, val_main_v16_apply]
  simp only [lidx15, ridx15, idx_row, cat_apply, Ideal.addf_def]
  rfl

/-! ## Mean and variance over the rows -/

theorem idx_row22 (r : Fin 480000) (j : Fin 256) : idx_main_v22 (idx_main_v23 (ix2 r j)) = ix1 j :=
  funext fun a => Fin.ext (by match a with | ⟨0, _⟩ => rfl)
theorem idx_row29 (r : Fin 480000) (j : Fin 256) : idx_main_v29 (idx_main_v30 (ix2 r j)) = ix1 j :=
  funext fun a => Fin.ext (by match a with | ⟨0, _⟩ => rfl)
theorem idx_row35 (r : Fin 480000) (j : Fin 256) : idx_main_v35 (idx_main_v36 (ix2 r j)) = ix1 j :=
  funext fun a => Fin.ext (by match a with | ⟨0, _⟩ => rfl)
theorem idx_row38 (r : Fin 480000) (j : Fin 256) : idx_main_v38 (idx_main_v39 (ix2 r j)) = ix1 j :=
  funext fun a => Fin.ext (by match a with | ⟨0, _⟩ => rfl)
theorem idx_row41 (r : Fin 480000) (j : Fin 256) : idx_main_v41 (idx_main_v42 (ix2 r j)) = ix1 j :=
  funext fun a => Fin.ext (by match a with | ⟨0, _⟩ => rfl)

theorem idx_red26 (j : Fin 256) (k : Fin 480000) : idx_main_v26 (ix1 j) k = ix2 k j :=
  funext fun a => Fin.ext (by match a with | ⟨0, _⟩ => rfl | ⟨1, _⟩ => rfl)

/-- The column mean: the sum over the rows from the zero word, over the row count. -/
theorem mean_apply (j : Fin 256) :
    val_main_v21 (F := Ideal) x0 x1 x2 x3 x4 x5 (ix1 j) = meanR (zR x0 x1 x2 x3 x4 x5) j := by
  rw [val_main_v21_apply, val_main_v19_apply, val_main_v20_apply, val_main_cst_3_apply, val_main_cst_apply]
  simp only [idx_red, z_apply, Ideal.hostDivf_def, Ideal.ofBits_def]
  rfl

/-- The column variance: the sum over the rows of the squared centred value, over the row count. -/
theorem var_apply (j : Fin 256) :
    val_main_v28 (F := Ideal) x0 x1 x2 x3 x4 x5 (ix1 j) = varR (zR x0 x1 x2 x3 x4 x5) j := by
  rw [val_main_v28_apply, val_main_v26_apply, val_main_v27_apply, val_main_cst_5_apply, val_main_cst_4_apply]
  simp only [val_main_v25_apply, val_main_v24_apply, val_main_v23_apply, val_main_v22_apply, idx_red26, idx_row22,
    z_apply, mean_apply, Ideal.hostDivf_def, Ideal.mulf_def, Ideal.subf_def, Ideal.ofBits_def]
  rfl

/-! ## The normalised value and the message -/

theorem norm_apply (r : Fin 480000) (j : Fin 256) :
    val_main_v43 (F := Ideal) x0 x1 x2 x3 x4 x5 x6 x7 (ix2 r j)
      = normR (zR x0 x1 x2 x3 x4 x5) (fun j => x6 (ix1 j)) (fun j => x7 (ix1 j)) r j := by
  simp only [val_main_v43_apply, val_main_v42_apply, val_main_v41_apply, val_main_v40_apply, val_main_v39_apply,
    val_main_v38_apply, val_main_v37_apply, val_main_v36_apply, val_main_v35_apply, val_main_v34_apply,
    val_main_v33_apply, val_main_v32_apply, val_main_cst_6_apply, val_main_v31_apply, val_main_v30_apply,
    val_main_v29_apply, idx_row29, idx_row35, idx_row38, idx_row41, z_apply, mean_apply, var_apply,
    Ideal.addf_def, Ideal.subf_def, Ideal.mulf_def, Ideal.hostUnary_rsqrt_def, Ideal.ofBits_def]
  rfl

theorem msg_apply (r : Fin 480000) (j : Fin 128) :
    val_main_v53 (F := Ideal) x0 x1 x2 x3 x4 x5 x6 x7 (ix2 r j)
      = gateR (normR (zR x0 x1 x2 x3 x4 x5) (fun j => x6 (ix1 j)) (fun j => x7 (ix1 j)) r (lo j))
          (normR (zR x0 x1 x2 x3 x4 x5) (fun j => x6 (ix1 j)) (fun j => x7 (ix1 j)) r (hi j)) := by
  simp only [val_main_v53_apply, val_main_v52_apply, val_main_v51_apply, val_main_v50_apply, val_main_cst_8_apply,
    val_main_v49_apply, val_main_v48_apply, val_main_cst_7_apply, val_main_v47_apply, val_main_v46_apply,
    val_main_v44_apply, val_main_call0_v11_apply, val_main_call0_v10_apply, val_main_call0_v9_apply,
    val_main_call0_v8_apply, val_main_call0_v7_apply, val_main_call0_v6_apply, val_main_call0_v5_apply,
    val_main_call0_v4_apply, val_main_call0_v3_apply, val_main_call0_v2_apply, val_main_call0_v1_apply,
    val_main_call0_v0_apply, val_main_call0_cst_apply, val_main_v45_apply, idx_lo, idx_hi, norm_apply,
    Ideal.mulf_def, Ideal.hostDivf_def, Ideal.addf_def, Ideal.subf_def, Ideal.hostUnary_exp_def,
    Ideal.hostUnary_log1p_def, Ideal.hostNegf_def, Ideal.negf_def, Ideal.hostAbsf_def, Ideal.maximumf_def,
    Ideal.ofBits_def]
  rfl

/-- softplus of a whole node array, operation by operation as the program spells it. -/
def softplusArr (s : FVec Ideal S20000x128 .f32) : FVec Ideal S20000x128 .f32 :=
  select
    (cmpf .une
      (subf s (broadcastInDim S20000x128 ![] bcast_S_S20000x128 (constant (F := Ideal) S_ .f32 0x00000000#32)))
      (subf s (broadcastInDim S20000x128 ![] bcast_S_S20000x128 (constant (F := Ideal) S_ .f32 0x00000000#32))))
    (addf s (broadcastInDim S20000x128 ![] bcast_S_S20000x128 (constant (F := Ideal) S_ .f32 0x00000000#32)))
    (addf
      (maximumf s (broadcastInDim S20000x128 ![] bcast_S_S20000x128 (constant (F := Ideal) S_ .f32 0x00000000#32)))
      (Host.log1p (Host.exp (Host.negf (Host.absf
        (subf s (broadcastInDim S20000x128 ![] bcast_S_S20000x128 (constant (F := Ideal) S_ .f32 0x00000000#32))))))))

/-- The last operations as one function of the message array: scatter-add the messages by destination into zeros, add the
    node features, softplus. -/
def tailR (h : FVec Ideal S20000x128 .f32) (dst : IVec S480000 32) (msg : FVec Ideal S480000x128 .f32) :
    FVec Ideal S20000x128 .f32 :=
  softplusArr
    (addf h
      (Host.scatterAdd scatter_S20000x128_S480000x1_S480000x128_1_0_0_1
        (broadcastInDim S20000x128 ![] bcast_S_S20000x128 (constant (F := Ideal) S_ .f32 0x00000000#32))
        (broadcastInDim S480000x1 ![0] bcast_S480000_S480000x1_0 dst) msg))

theorem out_eq :
    val_main_v58 (F := Ideal) x0 x1 x2 x3 x4 x5 x6 x7
      = tailR x0 x3 (val_main_v53 (F := Ideal) x0 x1 x2 x3 x4 x5 x6 x7) :=
  rfl

end Cert.ReferenceIdeal.RefValue

end
-- ==== Proof.Bridge.lean ====
/-
  The two programs compute one function of the arguments.

  Kernel side.  With every index in range the masked row lookup is the plain one, the three weight slices are the three
  slabs and the reshaped bias row is the bias, so both regions see the same linear layer z (three partial products).
  The first region leaves the two groups' column sums of z and of z²; the host code between the regions turns them into
  the scale and shift rows; read back through these, what the second region normalises by is the folded form of batch
  normalisation, and its output is the gate of it.  Reference side.  The same layer over the concatenated row, centred and
  scaled; on real entries that is the same function (one product is three partial products; the variance identity; the
  affine rearrangement), and the two spellings of the gate agree everywhere.  The last operations (scatter-add by
  destination, add the node features, softplus) are one function on both sides.
-/
import proofs.«412280_j46102178955276_1_alg».proof.Defs
import proofs.«412280_j46102178955276_1_alg».proof.Proof.HostValue
import proofs.«412280_j46102178955276_1_alg».proof.Proof.StatsValue
import proofs.«412280_j46102178955276_1_alg».proof.Proof.MsgValue
import proofs.«412280_j46102178955276_1_alg».proof.Proof.Take
import proofs.«412280_j46102178955276_1_alg».proof.Proof.Pre
import proofs.«412280_j46102178955276_1_alg».proof.Proof.Math
import proofs.«412280_j46102178955276_1_alg».proof.Proof.Layout
import proofs.«412280_j46102178955276_1_alg».proof.Proof.RefValue

noncomputable section

open Idealize.ShloMosaic Idealize.ShloMosaic.TcCoe Idealize.SL.Sem
open Idealize.ShloMosaic.ValueIdx (ix1 ix2 ix3)
open Cert.EdgeLayer

namespace Cert.Bridge

/-! ## The common layer -/

/-- The linear layer of the arguments, three partial products over the plainly looked-up rows. -/
def zK (h : FVec Ideal Cert.KernelIdeal.S20000x128 .f32) (e : FVec Ideal Cert.KernelIdeal.S480000x128 .f32) (src dst : IVec Cert.KernelIdeal.S480000 32)
    (W : FVec Ideal Cert.KernelIdeal.S384x256 .f32) (b : FVec Ideal Cert.KernelIdeal.S256 .f32) : Fin 480000 → Fin 256 → EReal :=
  lin3 (cur2 (Cert.KernelIdeal.Take.gatherRows h src)) (cur2 (Cert.KernelIdeal.Take.gatherRows h dst)) (cur2 e)
    (slab 0 (by omega) (cur2 W)) (slab 128 (by omega) (cur2 W)) (slab 256 (by omega) (cur2 W)) (fun j => b (ix1 j))

/-- Real arguments give a real layer. -/
theorem zK_real (h : FVec Ideal Cert.KernelIdeal.S20000x128 .f32) (e : FVec Ideal Cert.KernelIdeal.S480000x128 .f32) (src dst : IVec Cert.KernelIdeal.S480000 32)
    (W : FVec Ideal Cert.KernelIdeal.S384x256 .f32) (b : FVec Ideal Cert.KernelIdeal.S256 .f32)
    (hh : ∀ i, ∃ v : ℝ, h i = (v : EReal)) (he : ∀ i, ∃ v : ℝ, e i = (v : EReal))
    (hW : ∀ i, ∃ v : ℝ, W i = (v : EReal)) (hb : ∀ i, ∃ v : ℝ, b i = (v : EReal)) : Real2 (zK h e src dst W b) :=
  lin3_real (fun a k => Cert.KernelIdeal.Take.gatherRows_real h hh src _) (fun a k => Cert.KernelIdeal.Take.gatherRows_real h hh dst _)
    (fun a k => he _) (fun k j => hW _) (fun k j => hW _) (fun k j => hW _) (fun j => hb _)

/-- On real entries: the gate of the centred-and-scaled normalisation of the one-product layer is the gate of the folded
    normalisation of the three-product layer. -/
theorem gate_fold (hs hd ee : Fin 480000 → Fin 128 → EReal) (W : Fin 384 → Fin 256 → EReal) (b γ β : Fin 256 → EReal)
    (hz : Real2 (lin3 hs hd ee (slab 0 (by omega) W) (slab 128 (by omega) W) (slab 256 (by omega) W) b))
    (hγ : Real1 γ) (hβ : Real1 β) (r : Fin 480000) (j : Fin 128) :
    gateR (normR (lin1 (catRow hs hd ee) W b) γ β r (lo j)) (normR (lin1 (catRow hs hd ee) W b) γ β r (hi j))
      = gateK (normK (lin3 hs hd ee (slab 0 (by omega) W) (slab 128 (by omega) W) (slab 256 (by omega) W) b) γ β r (lo j))
          (normK (lin3 hs hd ee (slab 0 (by omega) W) (slab 128 (by omega) W) (slab 256 (by omega) W) b) γ β r (hi j)) := by
  rw [← lin3_eq_lin1, ← normK_eq_normR _ _ _ hz hγ hβ, gateK_eq_gateR]

/-! ## The kernel program -/

section Kernel

open Cert.KernelIdeal Cert.KernelIdeal.Gen Cert.KernelIdeal.Take Cert.KernelIdeal.HostValue

variable (m : (ℓ : Loc nD τ sig) → Buf (Elt Ideal) ℓ) (ρ : Dev nD → PrngReg) (c : Dev nD)
variable (hsrc : ∀ i, 0 ≤ (m ((c.tc : Thread nD τ).loc main_arg2) i).toInt ∧ (m ((c.tc : Thread nD τ).loc main_arg2) i).toInt < 20000)
variable (hdst : ∀ i, 0 ≤ (m ((c.tc : Thread nD τ).loc main_arg3) i).toInt ∧ (m ((c.tc : Thread nD τ).loc main_arg3) i).toInt < 20000)

/-- The layer of the launch arguments. -/
abbrev zArgs : Fin 480000 → Fin 256 → EReal :=
  zK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

include hsrc hdst in
/-- What the first region sees is the layer of the arguments. -/
theorem z0_eq : StatsValue.z (V3 m ρ) c = zArgs m c := by
  have e0 : StatsValue.aS (V3 m ρ) c = gatherRows (m ((c.tc : Thread nD τ).loc main_arg0)) (m ((c.tc : Thread nD τ).loc main_arg2)) :=
    (in0_0 m ρ c).trans (takeRows_eq_gatherRows _ _ hsrc)
  have e1 : StatsValue.aD (V3 m ρ) c = gatherRows (m ((c.tc : Thread nD τ).loc main_arg0)) (m ((c.tc : Thread nD τ).loc main_arg3)) :=
    (in0_1 m ρ c).trans (takeRows_eq_gatherRows _ _ hdst)
  have e2 : StatsValue.aE (V3 m ρ) c = m ((c.tc : Thread nD τ).loc main_arg1) := in0_2 m ρ c
  have e3 : cur2 (StatsValue.aW1 (V3 m ρ) c) = slab 0 (by omega) (cur2 (m ((c.tc : Thread nD τ).loc main_arg4))) :=
    (congrArg cur2 (in0_3 m ρ c)).trans (slice_slab _ 0 (by omega) _)
  have e4 : cur2 (StatsValue.aW2 (V3 m ρ) c) = slab 128 (by omega) (cur2 (m ((c.tc : Thread nD τ).loc main_arg4))) :=
    (congrArg cur2 (in0_4 m ρ c)).trans (slice_slab _ 128 (by omega) _)
  have e5 : cur2 (StatsValue.aW3 (V3 m ρ) c) = slab 256 (by omega) (cur2 (m ((c.tc : Thread nD τ).loc main_arg4))) :=
    (congrArg cur2 (in0_5 m ρ c)).trans (slice_slab _ 256 (by omega) _)
  have e6 : (fun j : Fin 256 => StatsValue.aB (V3 m ρ) c (ix2 0 j)) = fun j => m ((c.tc : Thread nD τ).loc main_arg5) (ix1 j) :=
    funext fun j => (congrFun (in0_6 m ρ c) (ix2 0 j)).trans (row_of_vec _ _ j)
  unfold StatsValue.z zArgs zK
  rw [e0, e1, e2, e3, e4, e5, e6]

include hsrc hdst in
/-- What the second region sees is the same layer. -/
theorem z1_eq : MsgValue.z (V5 m ρ) c = zArgs m c := by
  have e0 : MsgValue.aS (V5 m ρ) c = gatherRows (m ((c.tc : Thread nD τ).loc main_arg0)) (m ((c.tc : Thread nD τ).loc main_arg2)) :=
    (in1_0 m ρ c).trans (takeRows_eq_gatherRows _ _ hsrc)
  have e1 : MsgValue.aD (V5 m ρ) c = gatherRows (m ((c.tc : Thread nD τ).loc main_arg0)) (m ((c.tc : Thread nD τ).loc main_arg3)) :=
    (in1_1 m ρ c).trans (takeRows_eq_gatherRows _ _ hdst)
  have e2 : MsgValue.aE (V5 m ρ) c = m ((c.tc : Thread nD τ).loc main_arg1) := in1_2 m ρ c
  have e3 : cur2 (MsgValue.aW1 (V5 m ρ) c) = slab 0 (by omega) (cur2 (m ((c.tc : Thread nD τ).loc main_arg4))) :=
    (congrArg cur2 (in1_3 m ρ c)).trans (slice_slab _ 0 (by omega) _)
  have e4 : cur2 (MsgValue.aW2 (V5 m ρ) c) = slab 128 (by omega) (cur2 (m ((c.tc : Thread nD τ).loc main_arg4))) :=
    (congrArg cur2 (in1_4 m ρ c)).trans (slice_slab _ 128 (by omega) _)
  have e5 : cur2 (MsgValue.aW3 (V5 m ρ) c) = slab 256 (by omega) (cur2 (m ((c.tc : Thread nD τ).loc main_arg4))) :=
    (congrArg cur2 (in1_5 m ρ c)).trans (slice_slab _ 256 (by omega) _)
  have e6 : (fun j : Fin 256 => MsgValue.aB (V5 m ρ) c (ix2 0 j)) = fun j => m ((c.tc : Thread nD τ).loc main_arg5) (ix1 j) :=
    funext fun j => (congrFun (in1_6 m ρ c) (ix2 0 j)).trans (row_of_vec _ _ j)
  unfold MsgValue.z zArgs zK
  rw [e0, e1, e2, e3, e4, e5, e6]

include hsrc hdst in
/-- The scale and shift rows the second region reads, unfolded through the first region's sums, are the folded
    normalisation of the layer. -/
theorem normed_eq (r : Fin 480000) (j : Fin 256) :
    MsgValue.normed (V5 m ρ) c r j
      = normK (zArgs m c) (fun j => m ((c.tc : Thread nD τ).loc main_arg6) (ix1 j))
          (fun j => m ((c.tc : Thread nD τ).loc main_arg7) (ix1 j)) r j := by
  have es : MsgValue.aScale (V5 m ρ) c (ix2 0 j)
      = scaleRow ((dat0 (V3 m ρ) c).arrAt 7 cfg0.N) ((dat0 (V3 m ρ) c).arrAt 8 cfg0.N) (m ((c.tc : Thread nD τ).loc main_arg6)) (ix2 0 j) :=
    congrFun (in1_7 m ρ c) (ix2 0 j)
  have et : MsgValue.aShift (V5 m ρ) c (ix2 0 j)
      = shiftRow ((dat0 (V3 m ρ) c).arrAt 7 cfg0.N) ((dat0 (V3 m ρ) c).arrAt 8 cfg0.N) (m ((c.tc : Thread nD τ).loc main_arg6))
          (m ((c.tc : Thread nD τ).loc main_arg7)) (ix2 0 j) :=
    congrFun (in1_8 m ρ c) (ix2 0 j)
  have h7 : ∀ g : Fin 2, ((dat0 (V3 m ρ) c).arrAt 7 cfg0.N : Vec Ideal S2x1x256 .f32) (ix3 g 0 j)
      = groupSum (fun r => zArgs m c r j) g := fun g => by
    rw [StatsValue.sums (V3 m ρ) c g j, z0_eq m ρ c hsrc hdst]
  have h8 : ∀ g : Fin 2, ((dat0 (V3 m ρ) c).arrAt 8 cfg0.N : Vec Ideal S2x1x256 .f32) (ix3 g 0 j)
      = groupSum (fun r => zArgs m c r j * zArgs m c r j) g := fun g => by
    rw [StatsValue.sumsqs (V3 m ρ) c g j, z0_eq m ρ c hsrc hdst]
  unfold MsgValue.normed
  rw [z1_eq m ρ c hsrc hdst, es, et, shiftRow_apply, scaleRow_apply]
  simp only [h7, h8]
  rfl

include hsrc hdst in
/-- The second region's output at edge r, column j. -/
theorem msgK_apply (r : Fin 480000) (j : Fin 128) :
    ((dat1 (V5 m ρ) c).arrAt 9 cfg1.N : Vec Ideal S480000x128 .f32) (ix2 r j)
      = gateK (normK (zArgs m c) (fun j => m ((c.tc : Thread nD τ).loc main_arg6) (ix1 j))
            (fun j => m ((c.tc : Thread nD τ).loc main_arg7) (ix1 j)) r (lo j))
          (normK (zArgs m c) (fun j => m ((c.tc : Thread nD τ).loc main_arg6) (ix1 j))
            (fun j => m ((c.tc : Thread nD τ).loc main_arg7) (ix1 j)) r (hi j)) := by
  rw [MsgValue.msg (V5 m ρ) c r j, normed_eq m ρ c hsrc hdst, normed_eq m ρ c hsrc hdst]

end Kernel

/-! ## The reference program, and the two together -/

section Both

open Cert.ReferenceIdeal.Read Cert.ReferenceIdeal.RefValue

/-- The reference's message at edge r, column j, over the kernel's form of the layer (real inputs). -/
theorem msgR_apply (x0 : FVec Ideal Cert.ReferenceIdeal.S20000x128 .f32) (x1 : FVec Ideal Cert.ReferenceIdeal.S480000x128 .f32) (x2 x3 : IVec Cert.ReferenceIdeal.S480000 32)
    (x4 : FVec Ideal Cert.ReferenceIdeal.S384x256 .f32) (x5 x6 x7 : FVec Ideal Cert.ReferenceIdeal.S256 .f32)
    (h0 : ∀ i, ∃ v : ℝ, x0 i = (v : EReal)) (h1 : ∀ i, ∃ v : ℝ, x1 i = (v : EReal))
    (h4 : ∀ i, ∃ v : ℝ, x4 i = (v : EReal)) (h5 : ∀ i, ∃ v : ℝ, x5 i = (v : EReal))
    (h6 : ∀ i, ∃ v : ℝ, x6 i = (v : EReal)) (h7 : ∀ i, ∃ v : ℝ, x7 i = (v : EReal))
    (r : Fin 480000) (j : Fin 128) :
    val_main_v53 (F := Ideal) x0 x1 x2 x3 x4 x5 x6 x7 (ix2 r j)
      = gateK (normK (zK x0 x1 x2 x3 x4 x5) (fun j => x6 (ix1 j)) (fun j => x7 (ix1 j)) r (lo j))
          (normK (zK x0 x1 x2 x3 x4 x5) (fun j => x6 (ix1 j)) (fun j => x7 (ix1 j)) r (hi j)) := by
  rw [msg_apply]
  exact gate_fold (cur2 (Cert.KernelIdeal.Take.gatherRows x0 x2)) (cur2 (Cert.KernelIdeal.Take.gatherRows x0 x3)) (cur2 x1) (cur2 x4)
    (fun j => x5 (ix1 j)) (fun j => x6 (ix1 j)) (fun j => x7 (ix1 j)) (zK_real x0 x1 x2 x3 x4 x5 h0 h1 h4 h5)
    (fun j => h6 _) (fun j => h7 _) r j

open Cert.KernelIdeal.Gen in
/-- The kernel program's result buffer ends holding the reference's result term of the same arguments. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    [Cert.Pre_finite_inputs.Facts]
    (hp : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1) :
    W8 m ρ c (Proc.devRef .tc Cert.KernelIdeal.main_v28)
      = val_main_v58 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨h0, h1, h4, h5, h6, h7, hsrc, hdst⟩ := Cert.Pre_finite_inputs.Decode.decode _ _ _ _ _ _ _ _ hp
  rw [Cert.KernelIdeal.HostValue.out m ρ c, out_eq]
  have hmsg : ((Cert.KernelIdeal.Gen.dat1 (V5 m ρ) c).arrAt 9 Cert.KernelIdeal.cfg1.N : Vec Ideal Cert.KernelIdeal.S480000x128 .f32)
      = val_main_v53 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
    funext i
    obtain ⟨r, j, rfl⟩ : ∃ (r : Fin 480000) (j : Fin 128), i = ix2 r j := ⟨i 0, i 1, ValueIdx.eq_ix2 i⟩
    rw [msgK_apply m ρ c hsrc hdst r j, msgR_apply _ _ _ _ _ _ _ _ h0 h1 h4 h5 h6 h7 r j]
  rw [hmsg]
  rfl

end Both

end Cert.Bridge

end
-- ==== Proof.RefRunStaged.lean ====
/-
  The reference program's run, chunk by chunk.

  @main is a straight line of 97 tensor operations.  Cut into seven stretches, each stretch is read on its own: from any
  contents of the buffers, what the stretch leaves in the few buffers a later stretch reads, as the stage functions of
  the arguments, given what the earlier stretches left; and that it leaves the eight arguments as they were.  The facts
  compose to the whole line, and the run theorem for a straight line gives the result buffer and the arguments at the
  end of every execution.
-/
import proofs.«412280_j46102178955276_1_alg».proof.Proof.RefOps
import proofs.«412280_j46102178955276_1_alg».proof.Proof.RefRead
import Idealize.ShloMosaic.Lib.StableHlo.Run

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The seven stretches -/

/-- Operations 1 to 18: the two index columns, a negative index moved up by the node count, and the two gathered node rows. -/
abbrev c1 : List (HloOp τ sig (Elt F)) :=
  [ nullary main_c (constantI S_ 32 0#32),
    unary main_c main_v0 (broadcastInDim S480000 ![] bcast_S_S480000 : (⟨S_, .i32⟩ : BufTy).Contents (Elt F) → (⟨S480000, .i32⟩ : BufTy).Contents (Elt F)),
    binary main_arg2 main_v0 main_v1 (cmpi .slt : (⟨S480000, .i32⟩ : BufTy).Contents (Elt F) → (⟨S480000, .i32⟩ : BufTy).Contents (Elt F) → (⟨S480000, .i1⟩ : BufTy).Contents (Elt F)),
    nullary main_c_0 (constantI S_ 32 20000#32),
    unary main_c_0 main_v2 (broadcastInDim S480000 ![] bcast_S_S480000 : (⟨S_, .i32⟩ : BufTy).Contents (Elt F) → (⟨S480000, .i32⟩ : BufTy).Contents (Elt F)),
    binary main_arg2 main_v2 main_v3 (addi : (⟨S480000, .i32⟩ : BufTy).Contents (Elt F) → (⟨S480000, .i32⟩ : BufTy).Contents (Elt F) → (⟨S480000, .i32⟩ : BufTy).Contents (Elt F)),
    ternary main_v1 main_v3 main_arg2 main_v4 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v4 main_v5 (broadcastInDim S480000x1 ![0] bcast_S480000_S480000x1_0 : (⟨S480000, .i32⟩ : BufTy).Contents (Elt F) → (⟨S480000x1, .i32⟩ : BufTy).Contents (Elt F)),
    binary main_arg0 main_v5 main_v6 ((fun x i => Host.gather gather_S20000x128_S480000x1_S480000x128_1_0_n_n_0_1_1128 x i) : (⟨S20000x128, .f32⟩ : BufTy).Contents (Elt F) → (⟨S480000x1, .i32⟩ : BufTy).Contents (Elt F) → (⟨S480000x128, .f32⟩ : BufTy).Contents (Elt F)),
    nullary main_c_1 (constantI S_ 32 0#32),
    unary main_c_1 main_v7 (broadcastInDim S480000 ![] bcast_S_S480000 : (⟨S_, .i32⟩ : BufTy).Contents (Elt F) → (⟨S480000, .i32⟩ : BufTy).Contents (Elt F)),
    binary main_arg3 main_v7 main_v8 (cmpi .slt : (⟨S480000, .i32⟩ : BufTy).Contents (Elt F) → (⟨S480000, .i32⟩ : BufTy).Contents (Elt F) → (⟨S480000, .i1⟩ : BufTy).Contents (Elt F)),
    nullary main_c_2 (constantI S_ 32 20000#32),
    unary main_c_2 main_v9 (broadcastInDim S480000 ![] bcast_S_S480000 : (⟨S_, .i32⟩ : BufTy).Contents (Elt F) → (⟨S480000, .i32⟩ : BufTy).Contents (Elt F)),
    binary main_arg3 main_v9 main_v10 (addi : (⟨S480000, .i32⟩ : BufTy).Contents (Elt F) → (⟨S480000, .i32⟩ : BufTy).Contents (Elt F) → (⟨S480000, .i32⟩ : BufTy).Contents (Elt F)),
    ternary main_v8 main_v10 main_arg3 main_v11 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v11 main_v12 (broadcastInDim S480000x1 ![0] bcast_S480000_S480000x1_0 : (⟨S480000, .i32⟩ : BufTy).Contents (Elt F) → (⟨S480000x1, .i32⟩ : BufTy).Contents (Elt F)),
    binary main_arg0 main_v12 main_v13 ((fun x i => Host.gather gather_S20000x128_S480000x1_S480000x128_1_0_n_n_0_1_1128 x i) : (⟨S20000x128, .f32⟩ : BufTy).Contents (Elt F) → (⟨S480000x1, .i32⟩ : BufTy).Contents (Elt F) → (⟨S480000x128, .f32⟩ : BufTy).Contents (Elt F)) ]

/-- Operations 19 to 23: the three feature rows side by side, the product with the weight, the bias. -/
abbrev c2 : List (HloOp τ sig (Elt F)) :=
  [ nary ![main_v6, main_v13, main_arg1] main_v14 (fun u => concatenate S480000x384 1 [⟨S480000x128, u 0⟩, ⟨S480000x128, u 1⟩, ⟨S480000x128, u 2⟩] concatenates_S480000x128_S480000x128_S480000x128_S480000x384_d1),
    binary main_v14 main_arg4 main_v15 ((fun l r => Host.dotGeneral dot_S480000x384_S384x256_S480000x256_1_0_0_1_n_n none l r) : (⟨S480000x384, .f32⟩ : BufTy).Contents (Elt F) → (⟨S384x256, .f32⟩ : BufTy).Contents (Elt F) → (⟨S480000x256, .f32⟩ : BufTy).Contents (Elt F)),
    unary main_arg5 main_v16 (broadcastInDim S1x256 ![1] bcast_S256_S1x256_1 : (⟨S256, .f32⟩ : BufTy).Contents (Elt F) → (⟨S1x256, .f32⟩ : BufTy).Contents (Elt F)),
    unary main_v16 main_v17 (broadcastInDim S480000x256 ![0, 1] bcast_S1x256_S480000x256_0_1 : (⟨S1x256, .f32⟩ : BufTy).Contents (Elt F) → (⟨S480000x256, .f32⟩ : BufTy).Contents (Elt F)),
    binary main_v15 main_v17 main_v18 (addf : (⟨S480000x256, .f32⟩ : BufTy).Contents (Elt F) → (⟨S480000x256, .f32⟩ : BufTy).Contents (Elt F) → (⟨S480000x256, .f32⟩ : BufTy).Contents (Elt F)) ]

/-- Operations 24 to 37: the column mean and the column variance over the edge rows. -/
abbrev c3 : List (HloOp τ sig (Elt F)) :=
  [ nullary main_cst (constant S_ .f32 0x00000000#32),
    binary main_v18 main_cst main_v19 ((fun x v => Host.reduceAdd x v reducesTo_S480000x256_S256_d0 h_S_) : (⟨S480000x256, .f32⟩ : BufTy).Contents (Elt F) → (⟨S_, .f32⟩ : BufTy).Contents (Elt F) → (⟨S256, .f32⟩ : BufTy).Contents (Elt F)),
    nullary main_cst_3 (constant S_ .f32 0x48EA6000#32),
    unary main_cst_3 main_v20 (broadcastInDim S256 ![] bcast_S_S256 : (⟨S_, .f32⟩ : BufTy).Contents (Elt F) → (⟨S256, .f32⟩ : BufTy).Contents (Elt F)),
    binary main_v19 main_v20 main_v21 (Host.divf : (⟨S256, .f32⟩ : BufTy).Contents (Elt F) → (⟨S256, .f32⟩ : BufTy).Contents (Elt F) → (⟨S256, .f32⟩ : BufTy).Contents (Elt F)),
    unary main_v21 main_v22 (broadcastInDim S1x256 ![1] bcast_S256_S1x256_1 : (⟨S256, .f32⟩ : BufTy).Contents (Elt F) → (⟨S1x256, .f32⟩ : BufTy).Contents (Elt F)),
    unary main_v22 main_v23 (broadcastInDim S480000x256 ![0, 1] bcast_S1x256_S480000x256_0_1 : (⟨S1x256, .f32⟩ : BufTy).Contents (Elt F) → (⟨S480000x256, .f32⟩ : BufTy).Contents (Elt F)),
    binary main_v18 main_v23 main_v24 (subf : (⟨S480000x256, .f32⟩ : BufTy).Contents (Elt F) → (⟨S480000x256, .f32⟩ : BufTy).Contents (Elt F) → (⟨S480000x256, .f32⟩ : BufTy).Contents (Elt F)),
    binary main_v24 main_v24 main_v25 (mulf : (⟨S480000x256, .f32⟩ : BufTy).Contents (Elt F) → (⟨S480000x256, .f32⟩ : BufTy).Contents (Elt F) → (⟨S480000x256, .f32⟩ : BufTy).Contents (Elt F)),
    nullary main_cst_4 (constant S_ .f32 0x00000000#32),
    binary main_v25 main_cst_4 main_v26 ((fun x v => Host.reduceAdd x v reducesTo_S480000x256_S256_d0 h_S_) : (⟨S480000x256, .f32⟩ : BufTy).Contents (Elt F) → (⟨S_, .f32⟩ : BufTy).Contents (Elt F) → (⟨S256, .f32⟩ : BufTy).Contents (Elt F)),
    nullary main_cst_5 (constant S_ .f32 0x48EA6000#32),
    unary main_cst_5 main_v27 (broadcastInDim S256 ![] bcast_S_S256 : (⟨S_, .f32⟩ : BufTy).Contents (Elt F) → (⟨S256, .f32⟩ : BufTy).Contents (Elt F)),
    binary main_v26 main_v27 main_v28 (Host.divf : (⟨S256, .f32⟩ : BufTy).Contents (Elt F) → (⟨S256, .f32⟩ : BufTy).Contents (Elt F) → (⟨S256, .f32⟩ : BufTy).Contents (Elt F)) ]

/-- Operations 38 to 53: centre, scale by the reciprocal deviation and by the gain, add the offset. -/
abbrev c4 : List (HloOp τ sig (Elt F)) :=
  [ unary main_v21 main_v29 (broadcastInDim S1x256 ![1] bcast_S256_S1x256_1 : (⟨S256, .f32⟩ : BufTy).Contents (Elt F) → (⟨S1x256, .f32⟩ : BufTy).Contents (Elt F)),
    unary main_v29 main_v30 (broadcastInDim S480000x256 ![0, 1] bcast_S1x256_S480000x256_0_1 : (⟨S1x256, .f32⟩ : BufTy).Contents (Elt F) → (⟨S480000x256, .f32⟩ : BufTy).Contents (Elt F)),
    binary main_v18 main_v30 main_v31 (subf : (⟨S480000x256, .f32⟩ : BufTy).Contents (Elt F) → (⟨S480000x256, .f32⟩ : BufTy).Contents (Elt F) → (⟨S480000x256, .f32⟩ : BufTy).Contents (Elt F)),
    nullary main_cst_6 (constant S_ .f32 0x3727C5AC#32),
    unary main_cst_6 main_v32 (broadcastInDim S256 ![] bcast_S_S256 : (⟨S_, .f32⟩ : BufTy).Contents (Elt F) → (⟨S256, .f32⟩ : BufTy).Contents (Elt F)),
    binary main_v28 main_v32 main_v33 (addf : (⟨S256, .f32⟩ : BufTy).Contents (Elt F) → (⟨S256, .f32⟩ : BufTy).Contents (Elt F) → (⟨S256, .f32⟩ : BufTy).Contents (Elt F)),
    unary main_v33 main_v34 (Host.rsqrt : (⟨S256, .f32⟩ : BufTy).Contents (Elt F) → (⟨S256, .f32⟩ : BufTy).Contents (Elt F)),
    unary main_v34 main_v35 (broadcastInDim S1x256 ![1] bcast_S256_S1x256_1 : (⟨S256, .f32⟩ : BufTy).Contents (Elt F) → (⟨S1x256, .f32⟩ : BufTy).Contents (Elt F)),
    unary main_v35 main_v36 (broadcastInDim S480000x256 ![0, 1] bcast_S1x256_S480000x256_0_1 : (⟨S1x256, .f32⟩ : BufTy).Contents (Elt F) → (⟨S480000x256, .f32⟩ : BufTy).Contents (Elt F)),
    binary main_v31 main_v36 main_v37 (mulf : (⟨S480000x256, .f32⟩ : BufTy).Contents (Elt F) → (⟨S480000x256, .f32⟩ : BufTy).Contents (Elt F) → (⟨S480000x256, .f32⟩ : BufTy).Contents (Elt F)),
    unary main_arg6 main_v38 (broadcastInDim S1x256 ![1] bcast_S256_S1x256_1 : (⟨S256, .f32⟩ : BufTy).Contents (Elt F) → (⟨S1x256, .f32⟩ : BufTy).Contents (Elt F)),
    unary main_v38 main_v39 (broadcastInDim S480000x256 ![0, 1] bcast_S1x256_S480000x256_0_1 : (⟨S1x256, .f32⟩ : BufTy).Contents (Elt F) → (⟨S480000x256, .f32⟩ : BufTy).Contents (Elt F)),
    binary main_v37 main_v39 main_v40 (mulf : (⟨S480000x256, .f32⟩ : BufTy).Contents (Elt F) → (⟨S480000x256, .f32⟩ : BufTy).Contents (Elt F) → (⟨S480000x256, .f32⟩ : BufTy).Contents (Elt F)),
    unary main_arg7 main_v41 (broadcastInDim S1x256 ![1] bcast_S256_S1x256_1 : (⟨S256, .f32⟩ : BufTy).Contents (Elt F) → (⟨S1x256, .f32⟩ : BufTy).Contents (Elt F)),
    unary main_v41 main_v42 (broadcastInDim S480000x256 ![0, 1] bcast_S1x256_S480000x256_0_1 : (⟨S1x256, .f32⟩ : BufTy).Contents (Elt F) → (⟨S480000x256, .f32⟩ : BufTy).Contents (Elt F)),
    binary main_v40 main_v42 main_v43 (addf : (⟨S480000x256, .f32⟩ : BufTy).Contents (Elt F) → (⟨S480000x256, .f32⟩ : BufTy).Contents (Elt F) → (⟨S480000x256, .f32⟩ : BufTy).Contents (Elt F)) ]

/-- Operations 54 to 63: the two halves of the normalised columns, and the sigmoid of the first. -/
abbrev c5 : List (HloOp τ sig (Elt F)) :=
  [ unary main_v43 main_v44 ((extractStridedSlice S480000x128 ![0, 0] · slices_S480000x256_S480000x128_0_0) : (⟨S480000x256, .f32⟩ : BufTy).Contents (Elt F) → (⟨S480000x128, .f32⟩ : BufTy).Contents (Elt F)),
    unary main_v43 main_v45 ((extractStridedSlice S480000x128 ![0, 128] · slices_S480000x256_S480000x128_0_128) : (⟨S480000x256, .f32⟩ : BufTy).Contents (Elt F) → (⟨S480000x128, .f32⟩ : BufTy).Contents (Elt F)),
    unary main_v44 main_v46 (Host.negf : (⟨S480000x128, .f32⟩ : BufTy).Contents (Elt F) → (⟨S480000x128, .f32⟩ : BufTy).Contents (Elt F)),
    unary main_v46 main_v47 (Host.exp : (⟨S480000x128, .f32⟩ : BufTy).Contents (Elt F) → (⟨S480000x128, .f32⟩ : BufTy).Contents (Elt F)),
    nullary main_cst_7 (constant S_ .f32 0x3F800000#32),
    unary main_cst_7 main_v48 (broadcastInDim S480000x128 ![] bcast_S_S480000x128 : (⟨S_, .f32⟩ : BufTy).Contents (Elt F) → (⟨S480000x128, .f32⟩ : BufTy).Contents (Elt F)),
    binary main_v48 main_v47 main_v49 (addf : (⟨S480000x128, .f32⟩ : BufTy).Contents (Elt F) → (⟨S480000x128, .f32⟩ : BufTy).Contents (Elt F) → (⟨S480000x128, .f32⟩ : BufTy).Contents (Elt F)),
    nullary main_cst_8 (constant S_ .f32 0x3F800000#32),
    unary main_cst_8 main_v50 (broadcastInDim S480000x128 ![] bcast_S_S480000x128 : (⟨S_, .f32⟩ : BufTy).Contents (Elt F) → (⟨S480000x128, .f32⟩ : BufTy).Contents (Elt F)),
    binary main_v50 main_v49 main_v51 (Host.divf : (⟨S480000x128, .f32⟩ : BufTy).Contents (Elt F) → (⟨S480000x128, .f32⟩ : BufTy).Contents (Elt F) → (⟨S480000x128, .f32⟩ : BufTy).Contents (Elt F)) ]

/-- Operations 64 to 78: the softplus of the second half, and the message. -/
abbrev c6 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S480000x128, .f32⟩) main_call0_v0) (broadcastInDim S480000x128 ![] bcast_S_S480000x128),
    TRef.binary (TRef.of (T := ⟨S480000x128, .f32⟩) main_v45) (TRef.of (T := ⟨S480000x128, .f32⟩) main_call0_v0) (TRef.of (T := ⟨S480000x128, .f32⟩) main_call0_v1) maximumf,
    TRef.unary (TRef.of (T := ⟨S_, .f32⟩) main_call0_cst) (TRef.of (T := ⟨S480000x128, .f32⟩) main_call0_v2) (broadcastInDim S480000x128 ![] bcast_S_S480000x128),
    TRef.binary (TRef.of (T := ⟨S480000x128, .f32⟩) main_v45) (TRef.of (T := ⟨S480000x128, .f32⟩) main_call0_v2) (TRef.of (T := ⟨S480000x128, .f32⟩) main_call0_v3) subf,
    TRef.binary (TRef.of (T := ⟨S480000x128, .f32⟩) main_call0_v3) (TRef.of (T := ⟨S480000x128, .f32⟩) main_call0_v3) (TRef.of (T := ⟨S480000x128, .i1⟩) main_call0_v4) (cmpf .une),
    TRef.unary (TRef.of (T := ⟨S_, .f32⟩) main_call0_cst) (TRef.of (T := ⟨S480000x128, .f32⟩) main_call0_v5) (broadcastInDim S480000x128 ![] bcast_S_S480000x128),
    TRef.binary (TRef.of (T := ⟨S480000x128, .f32⟩) main_v45) (TRef.of (T := ⟨S480000x128, .f32⟩) main_call0_v5) (TRef.of (T := ⟨S480000x128, .f32⟩) main_call0_v6) addf,
    TRef.unary (TRef.of (T := ⟨S480000x128, .f32⟩) main_call0_v3) (TRef.of (T := ⟨S480000x128, .f32⟩) main_call0_v7) Host.absf,
    TRef.unary (TRef.of (T := ⟨S480000x128, .f32⟩) main_call0_v7) (TRef.of (T := ⟨S480000x128, .f32⟩) main_call0_v8) Host.negf,
    TRef.unary (TRef.of (T := ⟨S480000x128, .f32⟩) main_call0_v8) (TRef.of (T := ⟨S480000x128, .f32⟩) main_call0_v9) Host.exp,
    TRef.unary (TRef.of (T := ⟨S480000x128, .f32⟩) main_call0_v9) (TRef.of (T := ⟨S480000x128, .f32⟩) main_call0_v10) Host.log1p,
    TRef.binary (TRef.of (T := ⟨S480000x128, .f32⟩) main_call0_v1) (TRef.of (T := ⟨S480000x128, .f32⟩) main_call0_v10) (TRef.of (T := ⟨S480000x128, .f32⟩) main_call0_v11) addf,
    TRef.ternary (TRef.of (T := ⟨S480000x128, .i1⟩) main_call0_v4) (TRef.of (T := ⟨S480000x128, .f32⟩) main_call0_v6) (TRef.of (T := ⟨S480000x128, .f32⟩) main_call0_v11) (TRef.of (T := ⟨S480000x128, .f32⟩) main_v52) select,
    binary main_v51 main_v52 main_v53 (mulf : (⟨S480000x128, .f32⟩ : BufTy).Contents (Elt F) → (⟨S480000x128, .f32⟩ : BufTy).Contents (Elt F) → (⟨S480000x128, .f32⟩ : BufTy).Contents (Elt F)) ]

/-- Operations 79 to 97: the scatter-add by destination into zeros, the residual, the closing softplus. -/
abbrev c7 : List (HloOp τ sig (Elt F)) :=
  [ nullary main_cst_9 (constant S_ .f32 0x00000000#32),
    unary main_cst_9 main_v54 (broadcastInDim S20000x128 ![] bcast_S_S20000x128 : (⟨S_, .f32⟩ : BufTy).Contents (Elt F) → (⟨S20000x128, .f32⟩ : BufTy).Contents (Elt F)),
    unary main_arg3 main_v55 (broadcastInDim S480000x1 ![0] bcast_S480000_S480000x1_0 : (⟨S480000, .i32⟩ : BufTy).Contents (Elt F) → (⟨S480000x1, .i32⟩ : BufTy).Contents (Elt F)),
    ternary main_v54 main_v55 main_v53 main_v56 ((fun x i u => Host.scatterAdd scatter_S20000x128_S480000x1_S480000x128_1_0_0_1 x i u) : (⟨S20000x128, .f32⟩ : BufTy).Contents (Elt F) → (⟨S480000x1, .i32⟩ : BufTy).Contents (Elt F) → (⟨S480000x128, .f32⟩ : BufTy).Contents (Elt F) → (⟨S20000x128, .f32⟩ : BufTy).Contents (Elt F)),
    binary main_arg0 main_v56 main_v57 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x128, .f32⟩) main_call1_v0) (broadcastInDim S20000x128 ![] bcast_S_S20000x128),
    TRef.binary (TRef.of (T := ⟨S20000x128, .f32⟩) main_v57) (TRef.of (T := ⟨S20000x128, .f32⟩) main_call1_v0) (TRef.of (T := ⟨S20000x128, .f32⟩) main_call1_v1) maximumf,
    TRef.unary (TRef.of (T := ⟨S_, .f32⟩) main_call1_cst) (TRef.of (T := ⟨S20000x128, .f32⟩) main_call1_v2) (broadcastInDim S20000x128 ![] bcast_S_S20000x128),
    TRef.binary (TRef.of (T := ⟨S20000x128, .f32⟩) main_v57) (TRef.of (T := ⟨S20000x128, .f32⟩) main_call1_v2) (TRef.of (T := ⟨S20000x128, .f32⟩) main_call1_v3) subf,
    TRef.binary (TRef.of (T := ⟨S20000x128, .f32⟩) main_call1_v3) (TRef.of (T := ⟨S20000x128, .f32⟩) main_call1_v3) (TRef.of (T := ⟨S20000x128, .i1⟩) main_call1_v4) (cmpf .une),
    TRef.unary (TRef.of (T := ⟨S_, .f32⟩) main_call1_cst) (TRef.of (T := ⟨S20000x128, .f32⟩) main_call1_v5) (broadcastInDim S20000x128 ![] bcast_S_S20000x128),
    TRef.binary (TRef.of (T := ⟨S20000x128, .f32⟩) main_v57) (TRef.of (T := ⟨S20000x128, .f32⟩) main_call1_v5) (TRef.of (T := ⟨S20000x128, .f32⟩) main_call1_v6) addf,
    TRef.unary (TRef.of (T := ⟨S20000x128, .f32⟩) main_call1_v3) (TRef.of (T := ⟨S20000x128, .f32⟩) main_call1_v7) Host.absf,
    TRef.unary (TRef.of (T := ⟨S20000x128, .f32⟩) main_call1_v7) (TRef.of (T := ⟨S20000x128, .f32⟩) main_call1_v8) Host.negf,
    TRef.unary (TRef.of (T := ⟨S20000x128, .f32⟩) main_call1_v8) (TRef.of (T := ⟨S20000x128, .f32⟩) main_call1_v9) Host.exp,
    TRef.unary (TRef.of (T := ⟨S20000x128, .f32⟩) main_call1_v9) (TRef.of (T := ⟨S20000x128, .f32⟩) main_call1_v10) Host.log1p,
    TRef.binary (TRef.of (T := ⟨S20000x128, .f32⟩) main_call1_v1) (TRef.of (T := ⟨S20000x128, .f32⟩) main_call1_v10) (TRef.of (T := ⟨S20000x128, .f32⟩) main_call1_v11) addf,
    TRef.ternary (TRef.of (T := ⟨S20000x128, .i1⟩) main_call1_v4) (TRef.of (T := ⟨S20000x128, .f32⟩) main_call1_v6) (TRef.of (T := ⟨S20000x128, .f32⟩) main_call1_v11) (TRef.of (T := ⟨S20000x128, .f32⟩) main_v58) select ]

set_option maxRecDepth 8192 in
/-- The line is its stretches in order. -/
theorem ops_eq : (ops : List (HloOp τ sig (Elt F))) = c1 ++ (c2 ++ (c3 ++ (c4 ++ (c5 ++ (c6 ++ c7))))) := rfl

/-! ## The arguments are written by no operation -/

/-- The eight argument buffers hold in `W` what they hold in `V`. -/
def ArgsEq (W V : Valuation τ sig (Elt F)) : Prop :=
  W main_arg0 = V main_arg0 ∧ W main_arg1 = V main_arg1 ∧ W main_arg2 = V main_arg2 ∧ W main_arg3 = V main_arg3 ∧
  W main_arg4 = V main_arg4 ∧ W main_arg5 = V main_arg5 ∧ W main_arg6 = V main_arg6 ∧ W main_arg7 = V main_arg7

theorem ArgsEq.trans {W V U : Valuation τ sig (Elt F)} (h : ArgsEq W V) (k : ArgsEq V U) : ArgsEq W U := by
  obtain ⟨h0, h1, h2, h3, h4, h5, h6, h7⟩ := h
  obtain ⟨k0, k1, k2, k3, k4, k5, k6, k7⟩ := k
  exact ⟨h0.trans k0, h1.trans k1, h2.trans k2, h3.trans k3, h4.trans k4, h5.trans k5, h6.trans k6, h7.trans k7⟩

theorem c1_args (V : Valuation τ sig (Elt F)) : ArgsEq (after c1 V) V := by
  refine ⟨?_, ?_, ?_, ?_, ?_, ?_, ?_, ?_⟩ <;> after_results

theorem c2_args (V : Valuation τ sig (Elt F)) : ArgsEq (after c2 V) V := by
  refine ⟨?_, ?_, ?_, ?_, ?_, ?_, ?_, ?_⟩ <;> after_results

theorem c3_args (V : Valuation τ sig (Elt F)) : ArgsEq (after c3 V) V := by
  refine ⟨?_, ?_, ?_, ?_, ?_, ?_, ?_, ?_⟩ <;> after_results

theorem c4_args (V : Valuation τ sig (Elt F)) : ArgsEq (after c4 V) V := by
  refine ⟨?_, ?_, ?_, ?_, ?_, ?_, ?_, ?_⟩ <;> after_results

theorem c5_args (V : Valuation τ sig (Elt F)) : ArgsEq (after c5 V) V := by
  refine ⟨?_, ?_, ?_, ?_, ?_, ?_, ?_, ?_⟩ <;> after_results

theorem c6_args (V : Valuation τ sig (Elt F)) : ArgsEq (after c6 V) V := by
  refine ⟨?_, ?_, ?_, ?_, ?_, ?_, ?_, ?_⟩ <;> after_results

theorem c7_args (V : Valuation τ sig (Elt F)) : ArgsEq (after c7 V) V := by
  refine ⟨?_, ?_, ?_, ?_, ?_, ?_, ?_, ?_⟩ <;> after_results

/-! ## What each stretch leaves, as the stages of the arguments -/

theorem c1_v6 (V : Valuation τ sig (Elt F)) :
    after c1 V main_v6 = val_main_v6 (F := F) (V main_arg0) (V main_arg2) := by
  after_results <;> rfl

theorem c1_v13 (V : Valuation τ sig (Elt F)) :
    after c1 V main_v13 = val_main_v13 (F := F) (V main_arg0) (V main_arg3) := by
  after_results <;> rfl

/-- The concatenation reads its three operands under a binder, so the stage is opened on the right and the two gathered
    rows and the arguments are put back as buffer contents there. -/
theorem c2_v18 (V V0 : Valuation τ sig (Elt F)) (hA : ArgsEq V V0)
    (h6 : V main_v6 = val_main_v6 (F := F) (V0 main_arg0) (V0 main_arg2))
    (h13 : V main_v13 = val_main_v13 (F := F) (V0 main_arg0) (V0 main_arg3)) :
    after c2 V main_v18 = val_main_v18 (F := F) (V0 main_arg0) (V0 main_arg1) (V0 main_arg2) (V0 main_arg3) (V0 main_arg4) (V0 main_arg5) := by
  obtain ⟨a0, a1, a2, a3, a4, a5, a6, a7⟩ := hA
  unfold val_main_v18 val_main_v15 val_main_v14
  rw [← h6, ← h13, ← a1, ← a4, ← a5]
  after_results <;> rfl

theorem c3_v18 (V : Valuation τ sig (Elt F)) : after c3 V main_v18 = V main_v18 := by
  after_results

theorem c3_v21 (V V0 : Valuation τ sig (Elt F))
    (h18 : V main_v18 = val_main_v18 (F := F) (V0 main_arg0) (V0 main_arg1) (V0 main_arg2) (V0 main_arg3) (V0 main_arg4) (V0 main_arg5)) :
    after c3 V main_v21 = val_main_v21 (F := F) (V0 main_arg0) (V0 main_arg1) (V0 main_arg2) (V0 main_arg3) (V0 main_arg4) (V0 main_arg5) := by
  (after_results; rw [h18]) <;> rfl

theorem c3_v28 (V V0 : Valuation τ sig (Elt F))
    (h18 : V main_v18 = val_main_v18 (F := F) (V0 main_arg0) (V0 main_arg1) (V0 main_arg2) (V0 main_arg3) (V0 main_arg4) (V0 main_arg5)) :
    after c3 V main_v28 = val_main_v28 (F := F) (V0 main_arg0) (V0 main_arg1) (V0 main_arg2) (V0 main_arg3) (V0 main_arg4) (V0 main_arg5) := by
  (after_results; rw [h18]) <;> rfl

set_option maxHeartbeats 4000000 in
theorem c4_v43 (V V0 : Valuation τ sig (Elt F)) (hA : ArgsEq V V0)
    (h18 : V main_v18 = val_main_v18 (F := F) (V0 main_arg0) (V0 main_arg1) (V0 main_arg2) (V0 main_arg3) (V0 main_arg4) (V0 main_arg5))
    (h21 : V main_v21 = val_main_v21 (F := F) (V0 main_arg0) (V0 main_arg1) (V0 main_arg2) (V0 main_arg3) (V0 main_arg4) (V0 main_arg5))
    (h28 : V main_v28 = val_main_v28 (F := F) (V0 main_arg0) (V0 main_arg1) (V0 main_arg2) (V0 main_arg3) (V0 main_arg4) (V0 main_arg5)) :
    after c4 V main_v43 = val_main_v43 (F := F) (V0 main_arg0) (V0 main_arg1) (V0 main_arg2) (V0 main_arg3) (V0 main_arg4) (V0 main_arg5) (V0 main_arg6) (V0 main_arg7) := by
  obtain ⟨a0, a1, a2, a3, a4, a5, a6, a7⟩ := hA
  (after_results_simp; rw [h18, h21, h28, a6, a7]) <;> rfl

theorem c5_v45 (V V0 : Valuation τ sig (Elt F))
    (h43 : V main_v43 = val_main_v43 (F := F) (V0 main_arg0) (V0 main_arg1) (V0 main_arg2) (V0 main_arg3) (V0 main_arg4) (V0 main_arg5) (V0 main_arg6) (V0 main_arg7)) :
    after c5 V main_v45 = val_main_v45 (F := F) (V0 main_arg0) (V0 main_arg1) (V0 main_arg2) (V0 main_arg3) (V0 main_arg4) (V0 main_arg5) (V0 main_arg6) (V0 main_arg7) := by
  (after_results; rw [h43]) <;> rfl

theorem c5_v51 (V V0 : Valuation τ sig (Elt F))
    (h43 : V main_v43 = val_main_v43 (F := F) (V0 main_arg0) (V0 main_arg1) (V0 main_arg2) (V0 main_arg3) (V0 main_arg4) (V0 main_arg5) (V0 main_arg6) (V0 main_arg7)) :
    after c5 V main_v51 = val_main_v51 (F := F) (V0 main_arg0) (V0 main_arg1) (V0 main_arg2) (V0 main_arg3) (V0 main_arg4) (V0 main_arg5) (V0 main_arg6) (V0 main_arg7) := by
  (after_results; rw [h43]) <;> rfl

set_option maxHeartbeats 4000000 in
theorem c6_v53 (V V0 : Valuation τ sig (Elt F))
    (h45 : V main_v45 = val_main_v45 (F := F) (V0 main_arg0) (V0 main_arg1) (V0 main_arg2) (V0 main_arg3) (V0 main_arg4) (V0 main_arg5) (V0 main_arg6) (V0 main_arg7))
    (h51 : V main_v51 = val_main_v51 (F := F) (V0 main_arg0) (V0 main_arg1) (V0 main_arg2) (V0 main_arg3) (V0 main_arg4) (V0 main_arg5) (V0 main_arg6) (V0 main_arg7)) :
    after c6 V main_v53 = val_main_v53 (F := F) (V0 main_arg0) (V0 main_arg1) (V0 main_arg2) (V0 main_arg3) (V0 main_arg4) (V0 main_arg5) (V0 main_arg6) (V0 main_arg7) := by
  (after_results_simp; rw [h45, h51]) <;> rfl

set_option maxHeartbeats 4000000 in
theorem c7_v58 (V V0 : Valuation τ sig (Elt F)) (hA : ArgsEq V V0)
    (h53 : V main_v53 = val_main_v53 (F := F) (V0 main_arg0) (V0 main_arg1) (V0 main_arg2) (V0 main_arg3) (V0 main_arg4) (V0 main_arg5) (V0 main_arg6) (V0 main_arg7)) :
    after c7 V main_v58 = val_main_v58 (F := F) (V0 main_arg0) (V0 main_arg1) (V0 main_arg2) (V0 main_arg3) (V0 main_arg4) (V0 main_arg5) (V0 main_arg6) (V0 main_arg7) := by
  obtain ⟨a0, a1, a2, a3, a4, a5, a6, a7⟩ := hA
  (after_results_simp; rw [h53, a0, a3]) <;> rfl

/-! ## The whole line -/

theorem after_args (V : Valuation τ sig (Elt F)) : ArgsEq (after ops V) V := by
  rw [ops_eq]
  simp only [after_append]
  exact (c7_args _).trans ((c6_args _).trans ((c5_args _).trans ((c4_args _).trans ((c3_args _).trans
    ((c2_args _).trans (c1_args V))))))

theorem after_v58 (V : Valuation τ sig (Elt F)) :
    after ops V main_v58 = val_main_v58 (F := F) (V main_arg0) (V main_arg1) (V main_arg2) (V main_arg3) (V main_arg4) (V main_arg5) (V main_arg6) (V main_arg7) := by
  rw [ops_eq]
  simp only [after_append]
  have A1 := c1_args V
  have h18 := c2_v18 (after c1 V) V A1 (c1_v6 V) (c1_v13 V)
  have A2 := (c2_args (after c1 V)).trans A1
  have h21 := c3_v21 (after c2 (after c1 V)) V h18
  have h28 := c3_v28 (after c2 (after c1 V)) V h18
  have h18' := (c3_v18 (after c2 (after c1 V))).trans h18
  have A3 := (c3_args (after c2 (after c1 V))).trans A2
  have h43 := c4_v43 (after c3 (after c2 (after c1 V))) V A3 h18' h21 h28
  have A4 := (c4_args (after c3 (after c2 (after c1 V)))).trans A3
  have h45 := c5_v45 (after c4 (after c3 (after c2 (after c1 V)))) V h43
  have h51 := c5_v51 (after c4 (after c3 (after c2 (after c1 V)))) V h43
  have A5 := (c5_args (after c4 (after c3 (after c2 (after c1 V))))).trans A4
  have h53 := c6_v53 (after c5 (after c4 (after c3 (after c2 (after c1 V))))) V h45 h51
  have A6 := (c6_args (after c5 (after c4 (after c3 (after c2 (after c1 V)))))).trans A5
  exact c7_v58 (after c6 (after c5 (after c4 (after c3 (after c2 (after c1 V)))))) V A6 h53

/-- On every device, for any float values, from any memory with zero counters: every weakly fair execution of @main
    terminates with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_)
    (run_seq scopedRefs_eq scopedSems_eq defs main (fun _ => ops) main_eq (fun _ => ops_sub) m ρ)
  obtain ⟨a0, a1, a2, a3, a4, a5, a6, a7⟩ := after_args (F := F) (launchContents m c)
  exact ⟨(h c main_v58).trans (after_v58 _), (h c main_arg0).trans a0, (h c main_arg1).trans a1,
    (h c main_arg2).trans a2, (h c main_arg3).trans a3, (h c main_arg4).trans a4, (h c main_arg5).trans a5,
    (h c main_arg6).trans a6, (h c main_arg7).trans a7⟩

end Cert.ReferenceIdeal.Staged

end
-- ==== Proof.lean ====
/-
  The certificate's five claims for the gated edge-message layer with batch normalisation, under the precondition
  "every float input is a real number and every source and destination index lies in 0 … 19999".

  The three frames: the two kernel programs terminate without fault with their arguments unchanged (two pipelined
  regions among host stretches); the reference is a straight line of host operations.  The idealization rewrote
  nothing.  Over the extended reals the two idealized programs end with the same result array: with indices in range
  the kernel's masked row lookup is the reference's plain one; the three partial products over the weight's slabs are
  the one product over the concatenated row; mean of squares minus squared mean is the mean of squared deviations on
  real entries, so the folded scale-and-shift is the centred normalisation; the sigmoid as one operation is
  1 / (1 + exp (−x)) and the two spellings of softplus agree; the closing scatter-add, residual and softplus are the same
  operations on both sides.
-/
import proofs.«412280_j46102178955276_1_alg».proof.Defs
import proofs.«412280_j46102178955276_1_alg».proof.Proof.Gen.Kernel
import proofs.«412280_j46102178955276_1_alg».proof.Proof.Gen.Kernel.Skeleton
import proofs.«412280_j46102178955276_1_alg».proof.Proof.Gen.Kernel.Launch
import proofs.«412280_j46102178955276_1_alg».proof.Proof.Gen.Kernel.Points
import proofs.«412280_j46102178955276_1_alg».proof.Proof.Gen.Kernel.Frame
import proofs.«412280_j46102178955276_1_alg».proof.Proof.Gen.KernelIdeal
import proofs.«412280_j46102178955276_1_alg».proof.Proof.Gen.KernelIdeal.Skeleton
import proofs.«412280_j46102178955276_1_alg».proof.Proof.Gen.KernelIdeal.Launch
import proofs.«412280_j46102178955276_1_alg».proof.Proof.Gen.KernelIdeal.Points
import proofs.«412280_j46102178955276_1_alg».proof.Proof.Gen.KernelIdeal.Frame
import proofs.«412280_j46102178955276_1_alg».proof.Proof.Gen.ReferenceIdeal
import proofs.«412280_j46102178955276_1_alg».proof.Proof.Gen.Pre_finite_inputs
import proofs.«412280_j46102178955276_1_alg».proof.Proof.KernelRun
import proofs.«412280_j46102178955276_1_alg».proof.Proof.Bridge
import proofs.«412280_j46102178955276_1_alg».proof.Proof.RefRunStaged
import Idealize.ShloMosaic.Adequacy
import Idealize.ShloMosaic.Init

noncomputable section

namespace Cert.Proof

open Idealize.ShloMosaic Idealize.SL.Sem

/-- The word-level kernel program: its generated frame. -/
theorem frame_kernel : Cert.frame_Kernel := fun m ρ _ => Cert.Kernel.Gen.frame m ρ

/-- The idealized kernel program: its generated frame. -/
theorem frame_kernelIdeal : Cert.frame_KernelIdeal := fun m ρ _ => Cert.KernelIdeal.Gen.frame m ρ

/-- The reference: its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The idealization's ledger is empty. -/
theorem preserves : Cert.preserves_Kernel_KernelIdeal := trivial

/-- Both idealized programs end with the reference's result term of the (agreeing) arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v28),
    Cert.KernelIdeal.ValueRun.run (F := Ideal) m ρ, ?_⟩
  refine (θ_run Cert.ReferenceIdeal.defs _ _).mono (fun _ h c => ⟨(h c).1.trans ?_, (h c).2⟩)
    (Cert.ReferenceIdeal.Staged.run (F := Ideal) m' ρ')
  obtain ⟨e0, e1, e2, e3, e4, e5, e6, e7⟩ := hagree c
  rw [e0, e1, e2, e3, e4, e5, e6, e7]
  exact (Cert.Bridge.result_eq m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
